-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x28x28 : Shape := ⟨4, ![16384, 1, 28, 28]⟩
abbrev S64x96 : Shape := ⟨2, ![64, 96]⟩
abbrev S1x96 : Shape := ⟨2, ![1, 96]⟩
abbrev S216x64 : Shape := ⟨2, ![216, 64]⟩
abbrev S1x64 : Shape := ⟨2, ![1, 64]⟩
abbrev S256x120 : Shape := ⟨2, ![256, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S1x128 : Shape := ⟨2, ![1, 128]⟩
abbrev S_ : Shape := ⟨0, ![]⟩

class Facts : Prop where
  bcast_S_S16384x1x28x28 : S_.BroadcastsInDim S16384x1x28x28 (![] : Fin 0 → Fin S16384x1x28x28.rank)
  reducesTo_S16384x1x28x28_S_d0_1_2_3 : S16384x1x28x28.ReducesTo [0, 1, 2, 3] S_
  h_S_ : 0 < S_.numel
  bcast_S_S64x96 : S_.BroadcastsInDim S64x96 (![] : Fin 0 → Fin S64x96.rank)
  reducesTo_S64x96_S_d0_1 : S64x96.ReducesTo [0, 1] S_
  bcast_S_S1x96 : S_.BroadcastsInDim S1x96 (![] : Fin 0 → Fin S1x96.rank)
  reducesTo_S1x96_S_d0_1 : S1x96.ReducesTo [0, 1] S_
  bcast_S_S216x64 : S_.BroadcastsInDim S216x64 (![] : Fin 0 → Fin S216x64.rank)
  reducesTo_S216x64_S_d0_1 : S216x64.ReducesTo [0, 1] S_
  bcast_S_S1x64 : S_.BroadcastsInDim S1x64 (![] : Fin 0 → Fin S1x64.rank)
  reducesTo_S1x64_S_d0_1 : S1x64.ReducesTo [0, 1] S_
  bcast_S_S256x120 : S_.BroadcastsInDim S256x120 (![] : Fin 0 → Fin S256x120.rank)
  reducesTo_S256x120_S_d0_1 : S256x120.ReducesTo [0, 1] S_
  bcast_S_S1x120 : S_.BroadcastsInDim S1x120 (![] : Fin 0 → Fin S1x120.rank)
  reducesTo_S1x120_S_d0_1 : S1x120.ReducesTo [0, 1] S_
  bcast_S_S120x84 : S_.BroadcastsInDim S120x84 (![] : Fin 0 → Fin S120x84.rank)
  reducesTo_S120x84_S_d0_1 : S120x84.ReducesTo [0, 1] S_
  bcast_S_S1x84 : S_.BroadcastsInDim S1x84 (![] : Fin 0 → Fin S1x84.rank)
  reducesTo_S1x84_S_d0_1 : S1x84.ReducesTo [0, 1] S_
  bcast_S_S84x128 : S_.BroadcastsInDim S84x128 (![] : Fin 0 → Fin S84x128.rank)
  reducesTo_S84x128_S_d0_1 : S84x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  main_v53

def fn_part2 {F : FTy → Type} [FloatOps F] (main_arg7 : FVec F S120x84 .f32) (main_arg8 : FVec F S1x84 .f32) (main_arg9 : FVec F S84x128 .f32) (main_arg10 : FVec F S1x128 .f32) (main_v33 : IVec S_ 1) : IVec S_ 1 :=
  let main_v34 : FVec F S120x84 .f32 := Host.absf main_arg7
  let main_cst_12 : FVec F S_ .f32 := constant S_ .f32 0x7F800000#32
  let main_v35 : FVec F S120x84 .f32 := broadcastInDim S120x84 ![] bcast_S_S120x84 main_cst_12
  let main_v36 : IVec S120x84 1 := cmpf .olt main_v34 main_v35
  let main_c_13 : IVec S_ 1 := constantI S_ 1 1#1
  let main_v37 : IVec S_ 1 := (fun x v => Host.reduce IntOp.andi x v reducesTo_S120x84_S_d0_1 h_S_) main_v36 main_c_13
  let main_v38 : IVec S_ 1 := andi main_v33 main_v37
  let main_v39 : FVec F S1x84 .f32 := Host.absf main_arg8
  let main_cst_14 : FVec F S_ .f32 := constant S_ .f32 0x7F800000#32
  let main_v40 : FVec F S1x84 .f32 := broadcastInDim S1x84 ![] bcast_S_S1x84 main_cst_14
  let main_v41 : IVec S1x84 1 := cmpf .olt main_v39 main_v40
  let main_c_15 : IVec S_ 1 := constantI S_ 1 1#1
  let main_v42 : IVec S_ 1 := (fun x v => Host.reduce IntOp.andi x v reducesTo_S1x84_S_d0_1 h_S_) main_v41 main_c_15
  let main_v43 : IVec S_ 1 := andi main_v38 main_v42
  let main_v44 : FVec F S84x128 .f32 := Host.absf main_arg9
  let main_cst_16 : FVec F S_ .f32 := constant S_ .f32 0x7F800000#32
  let main_v45 : FVec F S84x128 .f32 := broadcastInDim S84x128 ![] bcast_S_S84x128 main_cst_16
  let main_v46 : IVec S84x128 1 := cmpf .olt main_v44 main_v45
  let main_c_17 : IVec S_ 1 := constantI S_ 1 1#1
  let main_v47 : IVec S_ 1 := (fun x v => Host.reduce IntOp.andi x v reducesTo_S84x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_v48 main_v49 main_v50

def fn_part1 {F : FTy → Type} [FloatOps F] (main_arg4 : FVec F S1x64 .f32) (main_arg5 : FVec F S256x120 .f32) (main_arg6 : FVec F S1x120 .f32) (main_arg7 : FVec F S120x84 .f32) (main_arg8 : FVec F S1x84 .f32) (main_arg9 : FVec F S84x128 .f32) (main_arg10 : FVec F S1x128 .f32) (main_v13 : IVec S_ 1) (main_v16 : IVec S216x64 1) : IVec S_ 1 :=
  let main_c_5 : IVec S_ 1 := constantI S_ 1 1#1
  let main_v17 : IVec S_ 1 := (fun x v => Host.reduce IntOp.andi x v reducesTo_S216x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S256x120 .f32 := Host.absf main_arg5
  let main_cst_8 : FVec F S_ .f32 := constant S_ .f32 0x7F800000#32
  let main_v25 : FVec F S256x120 .f32 := broadcastInDim S256x120 ![] bcast_S_S256x120 main_cst_8
  let main_v26 : IVec S256x120 1 := cmpf .olt main_v24 main_v25
  let main_c_9 : IVec S_ 1 := constantI S_ 1 1#1
  let main_v27 : IVec S_ 1 := (fun x v => Host.reduce IntOp.andi x v reducesTo_S256x120_S_d0_1 h_S_) main_v26 main_c_9
  let main_v28 : IVec S_ 1 := andi main_v23 main_v27
  let main_v29 : FVec F S1x120 .f32 := Host.absf main_arg6
  let main_cst_10 : FVec F S_ .f32 := constant S_ .f32 0x7F800000#32
  let main_v30 : FVec F S1x120 .f32 := broadcastInDim S1x120 ![] bcast_S_S1x120 main_cst_10
  let main_v31 : IVec S1x120 1 := cmpf .olt main_v29 main_v30
  let main_c_11 : IVec S_ 1 := constantI S_ 1 1#1
  let main_v32 : IVec S_ 1 := (fun x v => Host.reduce IntOp.andi x v reducesTo_S1x120_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1x28x28 .f32) (main_arg1 : FVec F S64x96 .f32) (main_arg2 : FVec F S1x96 .f32) (main_arg3 : FVec F S216x64 .f32) (main_arg4 : FVec F S1x64 .f32) (main_arg5 : FVec F S256x120 .f32) (main_arg6 : FVec F S1x120 .f32) (main_arg7 : FVec F S120x84 .f32) (main_arg8 : FVec F S1x84 .f32) (main_arg9 : FVec F S84x128 .f32) (main_arg10 : FVec F S1x128 .f32) : IVec S_ 1 :=
  let main_v0 : FVec F S16384x1x28x28 .f32 := Host.absf main_arg0
  let main_cst : FVec F S_ .f32 := constant S_ .f32 0x7F800000#32
  let main_v1 : FVec F S16384x1x28x28 .f32 := broadcastInDim S16384x1x28x28 ![] bcast_S_S16384x1x28x28 main_cst
  let main_v2 : IVec S16384x1x28x28 1 := cmpf .olt main_v0 main_v1
  let main_c : IVec S_ 1 := constantI S_ 1 1#1
  let main_v3 : IVec S_ 1 := (fun x v => Host.reduce IntOp.andi x v reducesTo_S16384x1x28x28_S_d0_1_2_3 h_S_) main_v2 main_c
  let main_v4 : FVec F S64x96 .f32 := Host.absf main_arg1
  let main_cst_0 : FVec F S_ .f32 := constant S_ .f32 0x7F800000#32
  let main_v5 : FVec F S64x96 .f32 := broadcastInDim S64x96 ![] bcast_S_S64x96 main_cst_0
  let main_v6 : IVec S64x96 1 := cmpf .olt main_v4 main_v5
  let main_c_1 : IVec S_ 1 := constantI S_ 1 1#1
  let main_v7 : IVec S_ 1 := (fun x v => Host.reduce IntOp.andi x v reducesTo_S64x96_S_d0_1 h_S_) main_v6 main_c_1
  let main_v8 : IVec S_ 1 := andi main_v3 main_v7
  let main_v9 : FVec F S1x96 .f32 := Host.absf main_arg2
  let main_cst_2 : FVec F S_ .f32 := constant S_ .f32 0x7F800000#32
  let main_v10 : FVec F S1x96 .f32 := broadcastInDim S1x96 ![] bcast_S_S1x96 main_cst_2
  let main_v11 : IVec S1x96 1 := cmpf .olt main_v9 main_v10
  let main_c_3 : IVec S_ 1 := constantI S_ 1 1#1
  let main_v12 : IVec S_ 1 := (fun x v => Host.reduce IntOp.andi x v reducesTo_S1x96_S_d0_1 h_S_) main_v11 main_c_3
  let main_v13 : IVec S_ 1 := andi main_v8 main_v12
  let main_v14 : FVec F S216x64 .f32 := Host.absf main_arg3
  let main_cst_4 : FVec F S_ .f32 := constant S_ .f32 0x7F800000#32
  let main_v15 : FVec F S216x64 .f32 := broadcastInDim S216x64 ![] bcast_S_S216x64 main_cst_4
  let main_v16 : IVec S216x64 1 := cmpf .olt main_v14 main_v15
  fn_part1 (F := F) main_arg4 main_arg5 main_arg6 main_arg7 main_arg8 main_arg9 main_arg10 main_v13 main_v16
-- ==== Kernel.lean ====
abbrev S16384x1x28x28 : Shape := ⟨4, ![16384, 1, 28, 28]⟩
abbrev S64x96 : Shape := ⟨2, ![64, 96]⟩
abbrev S1x96 : Shape := ⟨2, ![1, 96]⟩
abbrev S216x64 : Shape := ⟨2, ![216, 64]⟩
abbrev S1x64 : Shape := ⟨2, ![1, 64]⟩
abbrev S256x120 : Shape := ⟨2, ![256, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S1x128 : Shape := ⟨2, ![1, 128]⟩
abbrev S16384x28x28 : Shape := ⟨3, ![16384, 28, 28]⟩
abbrev S16384x7x4x7x4 : Shape := ⟨5, ![16384, 7, 4, 7, 4]⟩
abbrev S7x7x16384x4x4 : Shape := ⟨5, ![7, 7, 16384, 4, 4]⟩
abbrev S7x7x16384x16 : Shape := ⟨4, ![7, 7, 16384, 16]⟩
abbrev S16384x128 : Shape := ⟨2, ![16384, 128]⟩
abbrev S7x7x256x16 : Shape := ⟨4, ![7, 7, 256, 16]⟩
abbrev S256x128 : Shape := ⟨2, ![256, 128]⟩
abbrev S6x6x256x16 : Shape := ⟨4, ![6, 6, 256, 16]⟩
abbrev S6x6x256x64 : Shape := ⟨4, ![6, 6, 256, 64]⟩
abbrev S9216x64 : Shape := ⟨2, ![9216, 64]⟩
abbrev S9216x96 : Shape := ⟨2, ![9216, 96]⟩
abbrev S9216x24 : Shape := ⟨2, ![9216, 24]⟩
abbrev S9216x6 : Shape := ⟨2, ![9216, 6]⟩
abbrev S6x6x256x24 : Shape := ⟨4, ![6, 6, 256, 24]⟩
abbrev S4x4x256x24 : Shape := ⟨4, ![4, 4, 256, 24]⟩
abbrev S4x4x256x216 : Shape := ⟨4, ![4, 4, 256, 216]⟩
abbrev S4096x216 : Shape := ⟨2, ![4096, 216]⟩
abbrev S4096x64 : Shape := ⟨2, ![4096, 64]⟩
abbrev S4096x16 : Shape := ⟨2, ![4096, 16]⟩
abbrev S16x256x16 : Shape := ⟨3, ![16, 256, 16]⟩
abbrev S1x256x16 : Shape := ⟨3, ![1, 256, 16]⟩
abbrev S256x16 : Shape := ⟨2, ![256, 16]⟩
abbrev S256x256 : Shape := ⟨2, ![256, 256]⟩
abbrev S256x84 : Shape := ⟨2, ![256, 84]⟩
abbrev S16384x10 : Shape := ⟨2, ![16384, 10]⟩

abbrev nBuf : Space → Nat
  | .hbm => 17
  | .vmem => 14
  | .smem => 0
  | _ => 0

abbrev bufTy : (tb : Table) → Fin (tcTables nBuf tb) → BufTy
  | .hbm, ⟨0, _⟩ => ⟨S16384x1x28x28, .f32⟩
  | .hbm, ⟨1, _⟩ => ⟨S64x96, .f32⟩
  | .hbm, ⟨2, _⟩ => ⟨S1x96, .f32⟩
  | .hbm, ⟨3, _⟩ => ⟨S216x64, .f32⟩
  | .hbm, ⟨4, _⟩ => ⟨S1x64, .f32⟩
  | .hbm, ⟨5, _⟩ => ⟨S256x120, .f32⟩
  | .hbm, ⟨6, _⟩ => ⟨S1x120, .f32⟩
  | .hbm, ⟨7, _⟩ => ⟨S120x84, .f32⟩
  | .hbm, ⟨8, _⟩ => ⟨S1x84, .f32⟩
  | .hbm, ⟨9, _⟩ => ⟨S84x128, .f32⟩
  | .hbm, ⟨10, _⟩ => ⟨S1x128, .f32⟩
  | .hbm, ⟨11, _⟩ => ⟨S16384x28x28, .f32⟩
  | .hbm, ⟨12, _⟩ => ⟨S16384x7x4x7x4, .f32⟩
  | .hbm, ⟨13, _⟩ => ⟨S7x7x16384x4x4, .f32⟩
  | .hbm, ⟨14, _⟩ => ⟨S7x7x16384x16, .f32⟩
  | .hbm, ⟨15, _⟩ => ⟨S16384x128, .f32⟩
  | .hbm, ⟨16, _⟩ => ⟨S16384x10, .f32⟩
  | .local _ .vmem, ⟨0, _⟩ => ⟨S7x7x256x16, .f32⟩
  | .local _ .vmem, ⟨1, _⟩ => ⟨S7x7x256x16, .f32⟩
  | .local _ .vmem, ⟨2, _⟩ => ⟨S64x96, .f32⟩
  | .local _ .vmem, ⟨3, _⟩ => ⟨S1x96, .f32⟩
  | .local _ .vmem, ⟨4, _⟩ => ⟨S216x64, .f32⟩
  | .local _ .vmem, ⟨5, _⟩ => ⟨S1x64, .f32⟩
  | .local _ .vmem, ⟨6, _⟩ => ⟨S256x120, .f32⟩
  | .local _ .vmem, ⟨7, _⟩ => ⟨S1x120, .f32⟩
  | .local _ .vmem, ⟨8, _⟩ => ⟨S120x84, .f32⟩
  | .local _ .vmem, ⟨9, _⟩ => ⟨S1x84, .f32⟩
  | .local _ .vmem, ⟨10, _⟩ => ⟨S84x128, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x7x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S216x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S16384x1x28x28_S16384x28x28 : S16384x1x28x28.ShapeCasts S16384x28x28
  shapeCasts_S16384x28x28_S16384x7x4x7x4 : S16384x28x28.ShapeCasts S16384x7x4x7x4
  transposes_S16384x7x4x7x4_S7x7x16384x4x4_1_3_0_2_4 : S16384x7x4x7x4.Transposes [1, 3, 0, 2, 4] S7x7x16384x4x4
  shapeCasts_S7x7x16384x4x4_S7x7x16384x16 : S7x7x16384x4x4.ShapeCasts S7x7x16384x16
  inb_S7x7x256x16_S7x7x256x16_0_0_0_0 : ∀ a, (![0, 0, 0, 0] : Fin 4 → Nat) a + S7x7x256x16.size a ≤ S7x7x256x16.size a
  h_S7x7x256x16 : 0 < S7x7x256x16.numel
  shapeCasts_S7x7x256x16_S7x7x256x16 : S7x7x256x16.ShapeCasts S7x7x256x16
  slices_S7x7x256x16_o0_0_0_0_S6x6x256x16 : S7x7x256x16.Slices ![0, 0, 0, 0] S6x6x256x16
  slices_S7x7x256x16_o0_1_0_0_S6x6x256x16 : S7x7x256x16.Slices ![0, 1, 0, 0] S6x6x256x16
  slices_S7x7x256x16_o1_0_0_0_S6x6x256x16 : S7x7x256x16.Slices ![1, 0, 0, 0] S6x6x256x16
  slices_S7x7x256x16_o1_1_0_0_S6x6x256x16 : S7x7x256x16.Slices ![1, 1, 0, 0] S6x6x256x16
  concatenates_S6x6x256x16_S6x6x256x16_S6x6x256x16_S6x6x256x16_S6x6x256x64_d3 : Shape.Concatenates [S6x6x256x16, S6x6x256x16, S6x6x256x16, S6x6x256x16] S6x6x256x64 3
  shapeCasts_S6x6x256x64_S9216x64 : S6x6x256x64.ShapeCasts S9216x64
  inb_S64x96_S64x96_0_0 : ∀ a, (![0, 0] : Fin 2 → Nat) a + S64x96.size a ≤ S64x96.size a
  h_S64x96 : 0 < S64x96.numel
  inb_S1x96_S1x96_0_0 : ∀ a, (![0, 0] : Fin 2 → Nat) a + S1x96.size a ≤ S1x96.size a
  h_S1x96 : 0 < S1x96.numel
  broadcasts_S1x96_S9216x96 : S1x96.Broadcasts S9216x96
  slices_S9216x96_o0_0_S9216x24 : S9216x96.Slices ![0, 0] S9216x24
  slices_S9216x24_o0_0_S9216x6 : S9216x24.Slices ![0, 0] S9216x6
  slices_S9216x24_o0_6_S9216x6 : S9216x24.Slices ![0, 6] S9216x6
  slices_S9216x24_o0_12_S9216x6 : S9216x24.Slices ![0, 12] S9216x6
  slices_S9216x24_o0_18_S9216x6 : S9216x24.Slices ![0, 18] S9216x6
  slices_S9216x96_o0_24_S9216x24 : S9216x96.Slices ![0, 24] S9216x24
  slices_S9216x96_o0_48_S9216x24 : S9216x96.Slices ![0, 48] S9216x24
  slices_S9216x96_o0_72_S9216x24 : S9216x96.Slices ![0, 72] S9216x24
  concatenates_S9216x6_S9216x6_S9216x6_S9216x6_S9216x24_d1 : Shape.Concatenates [S9216x6, S9216x6, S9216x6, S9216x6] S9216x24 1
  shapeCasts_S9216x24_S6x6x256x24 : S9216x24.ShapeCasts S6x6x256x24
  slices_S6x6x256x24_o0_0_0_0_S4x4x256x24 : S6x6x256x24.Slices ![0, 0, 0, 0] S4x4x256x24
  slices_S6x6x256x24_o0_1_0_0_S4x4x256x24 : S6x6x256x24.Slices ![0, 1, 0, 0] S4x4x256x24
  slices_S6x6x256x24_o0_2_0_0_S4x4x256x24 : S6x6x256x24.Slices ![0, 2, 0, 0] S4x4x256x24
  slices_S6x6x256x24_o1_0_0_0_S4x4x256x24 : S6x6x256x24.Slices ![1, 0, 0, 0] S4x4x256x24
  slices_S6x6x256x24_o1_1_0_0_S4x4x256x24 : S6x6x256x24.Slices ![1, 1, 0, 0] S4x4x256x24
  slices_S6x6x256x24_o1_2_0_0_S4x4x256x24 : S6x6x256x24.Slices ![1, 2, 0, 0] S4x4x256x24
  slices_S6x6x256x24_o2_0_0_0_S4x4x256x24 : S6x6x256x24.Slices ![2, 0, 0, 0] S4x4x256x24
  slices_S6x6x256x24_o2_1_0_0_S4x4x256x24 : S6x6x256x24.Slices ![2, 1, 0, 0] S4x4x256x24
  slices_S6x6x256x24_o2_2_0_0_S4x4x256x24 : S6x6x256x24.Slices ![2, 2, 0, 0] S4x4x256x24
  concatenates_S4x4x256x24_S4x4x256x24_S4x4x256x24_S4x4x256x24_S4x4x256x24_S4x4x256x24_S4x4x256x24_S4x4x256x24_S4x4x256x24_S4x4x256x216_d3 : Shape.Concatenates [S4x4x256x24, S4x4x256x24, S4x4x256x24, S4x4x256x24, S4x4x256x24, S4x4x256x24, S4x4x256x24, S4x4x256x24, S4x4x256x24] S4x4x256x216 3
  shapeCasts_S4x4x256x216_S4096x216 : S4x4x256x216.ShapeCasts S4096x216
  inb_S216x64_S216x64_0_0 : ∀ a, (![0, 0] : Fin 2 → Nat) a + S216x64.size a ≤ S216x64.size a
  h_S216x64 : 0 < S216x64.numel
  inb_S1x64_S1x64_0_0 : ∀ a, (![0, 0] : Fin 2 → Nat) a + S1x64.size a ≤ S1x64.size a
  h_S1x64 : 0 < S1x64.numel
  broadcasts_S1x64_S4096x64 : S1x64.Broadcasts S4096x64
  slices_S4096x64_o0_0_S4096x16 : S4096x64.Slices ![0, 0] S4096x16
  slices_S4096x64_o0_16_S4096x16 : S4096x64.Slices ![0, 16] S4096x16
  slices_S4096x64_o0_32_S4096x16 : S4096x64.Slices ![0, 32] S4096x16
  slices_S4096x64_o0_48_S4096x16 : S4096x64.Slices ![0, 48] S4096x16
  shapeCasts_S4096x16_S16x256x16 : S4096x16.ShapeCasts S16x256x16
  slices_S16x256x16_o0_0_0_S1x256x16 : S16x256x16.Slices ![0, 0, 0] S1x256x16
  shapeCasts_S1x256x16_S256x16 : S1x256x16.ShapeCasts S256x16
  slices_S16x256x16_o1_0_0_S1x256x16 : S16x256x16.Slices ![1, 0, 0] S1x256x16
  slices_S16x256x16_o2_0_0_S1x256x16 : S16x256x16.Slices ![2, 0, 0] S1x256x16
  slices_S16x256x16_o3_0_0_S1x256x16 : S16x256x16.Slices ![3, 0, 0] S1x256x16
  slices_S16x256x16_o4_0_0_S1x256x16 : S16x256x16.Slices ![4, 0, 0] S1x256x16
  slices_S16x256x16_o5_0_0_S1x256x16 : S16x256x16.Slices ![5, 0, 0] S1x256x16
  slices_S16x256x16_o6_0_0_S1x256x16 : S16x256x16.Slices ![6, 0, 0] S1x256x16
  slices_S16x256x16_o7_0_0_S1x256x16 : S16x256x16.Slices ![7, 0, 0] S1x256x16
  slices_S16x256x16_o8_0_0_S1x256x16 : S16x256x16.Slices ![8, 0, 0] S1x256x16
  slices_S16x256x16_o9_0_0_S1x256x16 : S16x256x16.Slices ![9, 0, 0] S1x256x16
  slices_S16x256x16_o10_0_0_S1x256x16 : S16x256x16.Slices ![10, 0, 0] S1x256x16
  slices_S16x256x16_o11_0_0_S1x256x16 : S16x256x16.Slices ![11, 0, 0] S1x256x16
  slices_S16x256x16_o12_0_0_S1x256x16 : S16x256x16.Slices ![12, 0, 0] S1x256x16
  slices_S16x256x16_o13_0_0_S1x256x16 : S16x256x16.Slices ![13, 0, 0] S1x256x16
  slices_S16x256x16_o14_0_0_S1x256x16 : S16x256x16.Slices ![14, 0, 0] S1x256x16
  slices_S16x256x16_o15_0_0_S1x256x16 : S16x256x16.Slices ![15, 0, 0] S1x256x16
  concatenates_S256x16_S256x16_S256x16_S256x16_S256x16_S256x16_S256x16_S256x16_S256x16_S256x16_S256x16_S256x16_S256x16_S256x16_S256x16_S256x16_S256x256_d1 : Shape.Concatenates [S256x16, S256x16, S256x16, S256x16, S256x16, S256x16, S256x16, S256x16, S256x16, S256x16, S256x16, S256x16, S256x16, S256x16, S256x16, S256x16] S256x256 1
  inb_S256x120_S256x120_0_0 : ∀ a, (![0, 0] : Fin 2 → Nat) a + S256x120.size a ≤ S256x120.size a
  h_S256x120 : 0 < S256x120.numel
  inb_S1x120_S1x120_0_0 : ∀ a, (![0, 0] : Fin 2 → Nat) a + S1x120.size a ≤ S1x120.size a
  h_S1x120 : 0 < S1x120.numel
  broadcasts_S1x120_S256x120 : S1x120.Broadcasts S256x120
  inb_S120x84_S120x84_0_0 : ∀ a, (![0, 0] : Fin 2 → Nat) a + S120x84.size a ≤ S120x84.size a
  h_S120x84 : 0 < S120x84.numel
  inb_S1x84_S1x84_0_0 : ∀ a, (![0, 0] : Fin 2 → Nat) a + S1x84.size a ≤ S1x84.size a
  h_S1x84 : 0 < S1x84.numel
  broadcasts_S1x84_S256x84 : S1x84.Broadcasts S256x84
  inb_S84x128_S84x128_0_0 : ∀ a, (![0, 0] : Fin 2 → Nat) a + S84x128.size a ≤ S84x128.size a
  h_S84x128 : 0 < S84x128.numel
  inb_S1x128_S1x128_0_0 : ∀ a, (![0, 0] : Fin 2 → Nat) a + S1x128.size a ≤ S1x128.size a
  h_S1x128 : 0 < S1x128.numel
  broadcasts_S1x128_S256x128 : S1x128.Broadcasts S256x128
  inb_S256x128_S256x128_0_0 : ∀ a, (![0, 0] : Fin 2 → Nat) a + S256x128.size a ≤ S256x128.size a
  h_S256x128 : 0 < S256x128.numel
  slices_S16384x128_S16384x10_0_0 : S16384x128.Slices ![0, 0] S16384x10
  dot_S9216x64_S64x96_S9216x96_1_0_0_1_n_n_wf : DotDims.WF S9216x64 S64x96 S9216x96 [1] [0] [0] [1] [] []
  dot_S4096x216_S216x64_S4096x64_1_0_0_1_n_n_wf : DotDims.WF S4096x216 S216x64 S4096x64 [1] [0] [0] [1] [] []
  dot_S256x256_S256x120_S256x120_1_0_0_1_n_n_wf : DotDims.WF S256x256 S256x120 S256x120 [1] [0] [0] [1] [] []
  dot_S256x120_S120x84_S256x84_1_0_0_1_n_n_wf : DotDims.WF S256x120 S120x84 S256x84 [1] [0] [0] [1] [] []
  dot_S256x84_S84x128_S256x128_1_0_0_1_n_n_wf : DotDims.WF S256x84 S84x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x256x16.size a ≤ S7x7x16384x16.size a
  hwx0_0 : ∀ i : grid0.Coords, EltTy.bits .f32 = 32 ∨ (Rect.block (s := S7x7x16384x16) S7x7x256x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S216x64.size a ≤ S216x64.size a
  hwx0_3 : ∀ i : grid0.Coords, EltTy.bits .f32 = 32 ∨ (Rect.block (s := S216x64) S216x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x120.size a ≤ S256x120.size a
  hwx0_5 : ∀ i : grid0.Coords, EltTy.bits .f32 = 32 ∨ (Rect.block (s := S256x120) S256x120.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .f32 = 32 ∨ (Rect.block (s := S120x84) S120x84.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x128.size a ≤ S84x128.size a
  hwx0_9 : ∀ i : grid0.Coords, EltTy.bits .f32 = 32 ∨ (Rect.block (s := S84x128) S84x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S16384x128.size a
  hwx0_11 : ∀ i : grid0.Coords, EltTy.bits .f32 = 32 ∨ (Rect.block (s := S16384x128) S256x128.size (cc0_transform_11 i) (hinb0_11 i)).WholeWords (EltTy.packing .f32)

variable [Facts₀]

def dot_S9216x64_S64x96_S9216x96_1_0_0_1_n_n : DotDims S9216x64 S64x96 S9216x96 where
  lhsContracting := [1]
  rhsContracting := [0]
  lhsNonContracting := [0]
  rhsNonContracting := [1]
  lhsBatch := []
  rhsBatch := []
  wf := dot_S9216x64_S64x96_S9216x96_1_0_0_1_n_n_wf
def dot_S4096x216_S216x64_S4096x64_1_0_0_1_n_n : DotDims S4096x216 S216x64 S4096x64 where
  lhsContracting := [1]
  rhsContracting := [0]
  lhsNonContracting := [0]
  rhsNonContracting := [1]
  lhsBatch := []
  rhsBatch := []
  wf := dot_S4096x216_S216x64_S4096x64_1_0_0_1_n_n_wf
def dot_S256x256_S256x120_S256x120_1_0_0_1_n_n : DotDims S256x256 S256x120 S256x120 where
  lhsContracting := [1]
  rhsContracting := [0]
  lhsNonContracting := [0]
  rhsNonContracting := [1]
  lhsBatch := []
  rhsBatch := []
  wf := dot_S256x256_S256x120_S256x120_1_0_0_1_n_n_wf
def dot_S256x120_S120x84_S256x84_1_0_0_1_n_n : DotDims S256x120 S120x84 S256x84 where
  lhsContracting := [1]
  rhsContracting := [0]
  lhsNonContracting := [0]
  rhsNonContracting := [1]
  lhsBatch := []
  rhsBatch := []
  wf := dot_S256x120_S120x84_S256x84_1_0_0_1_n_n_wf
def dot_S256x84_S84x128_S256x128_1_0_0_1_n_n : DotDims S256x84 S84x128 S256x128 where
  lhsContracting := [1]
  rhsContracting := [0]
  lhsNonContracting := [0]
  rhsNonContracting := [1]
  lhsBatch := []
  rhsBatch := []
  wf := dot_S256x84_S84x128_S256x128_1_0_0_1_n_n_wf

abbrev win0_0 : Pipeline.Window sig grid0 :=
  Pipeline.Window.ofSpec (Memref.whole main_v3) S7x7x256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S216x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S84x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x1x28x28 : Shape := ⟨4, ![16384, 1, 28, 28]⟩
abbrev S64x96 : Shape := ⟨2, ![64, 96]⟩
abbrev S1x96 : Shape := ⟨2, ![1, 96]⟩
abbrev S216x64 : Shape := ⟨2, ![216, 64]⟩
abbrev S1x64 : Shape := ⟨2, ![1, 64]⟩
abbrev S256x120 : Shape := ⟨2, ![256, 120]⟩
abbrev S1x120 : Shape := ⟨2, ![1, 120]⟩
abbrev S120x84 : Shape := ⟨2, ![120, 84]⟩
abbrev S1x84 : Shape := ⟨2, ![1, 84]⟩
abbrev S84x128 : Shape := ⟨2, ![84, 128]⟩
abbrev S1x128 : Shape := ⟨2, ![1, 128]⟩
abbrev S_ : Shape := ⟨0, ![]⟩
abbrev S16384x7x4x7x4 : Shape := ⟨5, ![16384, 7, 4, 7, 4]⟩
abbrev S7x7x16384x4x4 : Shape := ⟨5, ![7, 7, 16384, 4, 4]⟩
abbrev S7x7x16384x16 : Shape := ⟨4, ![7, 7, 16384, 16]⟩
abbrev S16384x128 : Shape := ⟨2, ![16384, 128]⟩
abbrev S7x7x8x16 : Shape := ⟨4, ![7, 7, 8, 16]⟩
abbrev S8x128 : Shape := ⟨2, ![8, 128]⟩
abbrev S6x6x8x16 : Shape := ⟨4, ![6, 6, 8, 16]⟩
abbrev S6x6x8x64 : Shape := ⟨4, ![6, 6, 8, 64]⟩
abbrev S288x64 : Shape := ⟨2, ![288, 64]⟩
abbrev S288x96 : Shape := ⟨2, ![288, 96]⟩
abbrev S288x6 : Shape := ⟨2, ![288, 6]⟩
abbrev S288x24 : Shape := ⟨2, ![288, 24]⟩
abbrev S6x6x8x24 : Shape := ⟨4, ![6, 6, 8, 24]⟩
abbrev S4x4x8x24 : Shape := ⟨4, ![4, 4, 8, 24]⟩
abbrev S4x4x8x216 : Shape := ⟨4, ![4, 4, 8, 216]⟩
abbrev S128x216 : Shape := ⟨2, ![128, 216]⟩
abbrev S128x64 : Shape := ⟨2, ![128, 64]⟩
abbrev S128x16 : Shape := ⟨2, ![128, 16]⟩
abbrev S16x8x16 : Shape := ⟨3, ![16, 8, 16]⟩
abbrev S1x8x16 : Shape := ⟨3, ![1, 8, 16]⟩
abbrev S8x16 : Shape := ⟨2, ![8, 16]⟩
abbrev S8x256 : Shape := ⟨2, ![8, 256]⟩
abbrev S8x120 : Shape := ⟨2, ![8, 120]⟩
abbrev S8x84 : Shape := ⟨2, ![8, 84]⟩
abbrev S16384x10 : Shape := ⟨2, ![16384, 10]⟩

abbrev nBuf : Space → Nat
  | .hbm => 19
  | .vmem => 14
  | .smem => 0
  | _ => 0

abbrev bufTy : (tb : Table) → Fin (tcTables nBuf tb) → BufTy
  | .hbm, ⟨0, _⟩ => ⟨S16384x1x28x28, .f32⟩
  | .hbm, ⟨1, _⟩ => ⟨S64x96, .f32⟩
  | .hbm, ⟨2, _⟩ => ⟨S1x96, .f32⟩
  | .hbm, ⟨3, _⟩ => ⟨S216x64, .f32⟩
  | .hbm, ⟨4, _⟩ => ⟨S1x64, .f32⟩
  | .hbm, ⟨5, _⟩ => ⟨S256x120, .f32⟩
  | .hbm, ⟨6, _⟩ => ⟨S1x120, .f32⟩
  | .hbm, ⟨7, _⟩ => ⟨S120x84, .f32⟩
  | .hbm, ⟨8, _⟩ => ⟨S1x84, .f32⟩
  | .hbm, ⟨9, _⟩ => ⟨S84x128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S16384x1x28x28, .f32⟩
  | .hbm, ⟨14, _⟩ => ⟨S16384x7x4x7x4, .f32⟩
  | .hbm, ⟨15, _⟩ => ⟨S7x7x16384x4x4, .f32⟩
  | .hbm, ⟨16, _⟩ => ⟨S7x7x16384x16, .f32⟩
  | .hbm, ⟨17, _⟩ => ⟨S16384x128, .f32⟩
  | .hbm, ⟨18, _⟩ => ⟨S16384x10, .f32⟩
  | .local _ .vmem, ⟨0, _⟩ => ⟨S7x7x8x16, .f32⟩
  | .local _ .vmem, ⟨1, _⟩ => ⟨S7x7x8x16, .f32⟩
  | .local _ .vmem, ⟨2, _⟩ => ⟨S64x96, .f32⟩
  | .local _ .vmem, ⟨3, _⟩ => ⟨S1x96, .f32⟩
  | .local _ .vmem, ⟨4, _⟩ => ⟨S216x64, .f32⟩
  | .local _ .vmem, ⟨5, _⟩ => ⟨S1x64, .f32⟩
  | .local _ .vmem, ⟨6, _⟩ => ⟨S256x120, .f32⟩
  | .local _ .vmem, ⟨7, _⟩ => ⟨S1x120, .f32⟩
  | .local _ .vmem, ⟨8, _⟩ => ⟨S120x84, .f32⟩
  | .local _ .vmem, ⟨9, _⟩ => ⟨S1x84, .f32⟩
  | .local _ .vmem, ⟨10, _⟩ => ⟨S84x128, .f32⟩
  | .local _ .vmem, ⟨11, _⟩ => ⟨S1x128, .f32⟩
  | .local _ .vmem, ⟨12, _⟩ => ⟨S8x128, .f32⟩
  | .local _ .vmem, ⟨13, _⟩ => ⟨S8x128, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![2048], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S7x7x8x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S216x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120x84 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x84 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S84x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  pads_S16384x1x28x28_S16384x1x28x28_000_000_000_000 : S16384x1x28x28.Pads (![0, 0, 0, 0] : Fin 4 → Nat) ![0, 0, 0, 0] ![0, 0, 0, 0] S16384x1x28x28
  h_S_ : 0 < S_.numel
  shapeCasts_S16384x1x28x28_S16384x7x4x7x4 : S16384x1x28x28.ShapeCasts S16384x7x4x7x4
  transposes_S16384x7x4x7x4_S7x7x16384x4x4_1_3_0_2_4 : S16384x7x4x7x4.Transposes [1, 3, 0, 2, 4] S7x7x16384x4x4
  shapeCasts_S7x7x16384x4x4_S7x7x16384x16 : S7x7x16384x4x4.ShapeCasts S7x7x16384x16
  inb_S7x7x8x16_S7x7x8x16_0_0_0_0 : ∀ a, (![0, 0, 0, 0] : Fin 4 → Nat) a + S7x7x8x16.size a ≤ S7x7x8x16.size a
  h_S7x7x8x16 : 0 < S7x7x8x16.numel
  shapeCasts_S7x7x8x16_S7x7x8x16 : S7x7x8x16.ShapeCasts S7x7x8x16
  slices_S7x7x8x16_o0_0_0_0_S6x6x8x16 : S7x7x8x16.Slices ![0, 0, 0, 0] S6x6x8x16
  slices_S7x7x8x16_o0_1_0_0_S6x6x8x16 : S7x7x8x16.Slices ![0, 1, 0, 0] S6x6x8x16
  slices_S7x7x8x16_o1_0_0_0_S6x6x8x16 : S7x7x8x16.Slices ![1, 0, 0, 0] S6x6x8x16
  slices_S7x7x8x16_o1_1_0_0_S6x6x8x16 : S7x7x8x16.Slices ![1, 1, 0, 0] S6x6x8x16
  concatenates_S6x6x8x16_S6x6x8x16_S6x6x8x16_S6x6x8x16_S6x6x8x64_d3 : Shape.Concatenates [S6x6x8x16, S6x6x8x16, S6x6x8x16, S6x6x8x16] S6x6x8x64 3
  shapeCasts_S6x6x8x64_S288x64 : S6x6x8x64.ShapeCasts S288x64
  inb_S64x96_S64x96_0_0 : ∀ a, (![0, 0] : Fin 2 → Nat) a + S64x96.size a ≤ S64x96.size a
  h_S64x96 : 0 < S64x96.numel
  inb_S1x96_S1x96_0_0 : ∀ a, (![0, 0] : Fin 2 → Nat) a + S1x96.size a ≤ S1x96.size a
  h_S1x96 : 0 < S1x96.numel
  broadcasts_S1x96_S288x96 : S1x96.Broadcasts S288x96
  slices_S288x96_o0_0_S288x6 : S288x96.Slices ![0, 0] S288x6
  slices_S288x96_o0_6_S288x6 : S288x96.Slices ![0, 6] S288x6
  slices_S288x96_o0_12_S288x6 : S288x96.Slices ![0, 12] S288x6
  slices_S288x96_o0_18_S288x6 : S288x96.Slices ![0, 18] S288x6
  slices_S288x96_o0_24_S288x6 : S288x96.Slices ![0, 24] S288x6
  slices_S288x96_o0_30_S288x6 : S288x96.Slices ![0, 30] S288x6
  slices_S288x96_o0_36_S288x6 : S288x96.Slices ![0, 36] S288x6
  slices_S288x96_o0_42_S288x6 : S288x96.Slices ![0, 42] S288x6
  slices_S288x96_o0_48_S288x6 : S288x96.Slices ![0, 48] S288x6
  slices_S288x96_o0_54_S288x6 : S288x96.Slices ![0, 54] S288x6
  slices_S288x96_o0_60_S288x6 : S288x96.Slices ![0, 60] S288x6
  slices_S288x96_o0_66_S288x6 : S288x96.Slices ![0, 66] S288x6
  slices_S288x96_o0_72_S288x6 : S288x96.Slices ![0, 72] S288x6
  slices_S288x96_o0_78_S288x6 : S288x96.Slices ![0, 78] S288x6
  slices_S288x96_o0_84_S288x6 : S288x96.Slices ![0, 84] S288x6
  slices_S288x96_o0_90_S288x6 : S288x96.Slices ![0, 90] S288x6
  concatenates_S288x6_S288x6_S288x6_S288x6_S288x24_d1 : Shape.Concatenates [S288x6, S288x6, S288x6, S288x6] S288x24 1
  shapeCasts_S288x24_S6x6x8x24 : S288x24.ShapeCasts S6x6x8x24
  slices_S6x6x8x24_o0_0_0_0_S4x4x8x24 : S6x6x8x24.Slices ![0, 0, 0, 0] S4x4x8x24
  slices_S6x6x8x24_o0_1_0_0_S4x4x8x24 : S6x6x8x24.Slices ![0, 1, 0, 0] S4x4x8x24
  slices_S6x6x8x24_o0_2_0_0_S4x4x8x24 : S6x6x8x24.Slices ![0, 2, 0, 0] S4x4x8x24
  slices_S6x6x8x24_o1_0_0_0_S4x4x8x24 : S6x6x8x24.Slices ![1, 0, 0, 0] S4x4x8x24
  slices_S6x6x8x24_o1_1_0_0_S4x4x8x24 : S6x6x8x24.Slices ![1, 1, 0, 0] S4x4x8x24
  slices_S6x6x8x24_o1_2_0_0_S4x4x8x24 : S6x6x8x24.Slices ![1, 2, 0, 0] S4x4x8x24
  slices_S6x6x8x24_o2_0_0_0_S4x4x8x24 : S6x6x8x24.Slices ![2, 0, 0, 0] S4x4x8x24
  slices_S6x6x8x24_o2_1_0_0_S4x4x8x24 : S6x6x8x24.Slices ![2, 1, 0, 0] S4x4x8x24
  slices_S6x6x8x24_o2_2_0_0_S4x4x8x24 : S6x6x8x24.Slices ![2, 2, 0, 0] S4x4x8x24
  concatenates_S4x4x8x24_S4x4x8x24_S4x4x8x24_S4x4x8x24_S4x4x8x24_S4x4x8x24_S4x4x8x24_S4x4x8x24_S4x4x8x24_S4x4x8x216_d3 : Shape.Concatenates [S4x4x8x24, S4x4x8x24, S4x4x8x24, S4x4x8x24, S4x4x8x24, S4x4x8x24, S4x4x8x24, S4x4x8x24, S4x4x8x24] S4x4x8x216 3
  shapeCasts_S4x4x8x216_S128x216 : S4x4x8x216.ShapeCasts S128x216
  inb_S216x64_S216x64_0_0 : ∀ a, (![0, 0] : Fin 2 → Nat) a + S216x64.size a ≤ S216x64.size a
  h_S216x64 : 0 < S216x64.numel
  inb_S1x64_S1x64_0_0 : ∀ a, (![0, 0] : Fin 2 → Nat) a + S1x64.size a ≤ S1x64.size a
  h_S1x64 : 0 < S1x64.numel
  broadcasts_S1x64_S128x64 : S1x64.Broadcasts S128x64
  slices_S128x64_o0_0_S128x16 : S128x64.Slices ![0, 0] S128x16
  slices_S128x64_o0_16_S128x16 : S128x64.Slices ![0, 16] S128x16
  slices_S128x64_o0_32_S128x16 : S128x64.Slices ![0, 32] S128x16
  slices_S128x64_o0_48_S128x16 : S128x64.Slices ![0, 48] S128x16
  shapeCasts_S128x16_S16x8x16 : S128x16.ShapeCasts S16x8x16
  slices_S16x8x16_o0_0_0_S1x8x16 : S16x8x16.Slices ![0, 0, 0] S1x8x16
  shapeCasts_S1x8x16_S8x16 : S1x8x16.ShapeCasts S8x16
  slices_S16x8x16_o1_0_0_S1x8x16 : S16x8x16.Slices ![1, 0, 0] S1x8x16
  slices_S16x8x16_o2_0_0_S1x8x16 : S16x8x16.Slices ![2, 0, 0] S1x8x16
  slices_S16x8x16_o3_0_0_S1x8x16 : S16x8x16.Slices ![3, 0, 0] S1x8x16
  slices_S16x8x16_o4_0_0_S1x8x16 : S16x8x16.Slices ![4, 0, 0] S1x8x16
  slices_S16x8x16_o5_0_0_S1x8x16 : S16x8x16.Slices ![5, 0, 0] S1x8x16
  slices_S16x8x16_o6_0_0_S1x8x16 : S16x8x16.Slices ![6, 0, 0] S1x8x16
  slices_S16x8x16_o7_0_0_S1x8x16 : S16x8x16.Slices ![7, 0, 0] S1x8x16
  slices_S16x8x16_o8_0_0_S1x8x16 : S16x8x16.Slices ![8, 0, 0] S1x8x16
  slices_S16x8x16_o9_0_0_S1x8x16 : S16x8x16.Slices ![9, 0, 0] S1x8x16
  slices_S16x8x16_o10_0_0_S1x8x16 : S16x8x16.Slices ![10, 0, 0] S1x8x16
  slices_S16x8x16_o11_0_0_S1x8x16 : S16x8x16.Slices ![11, 0, 0] S1x8x16
  slices_S16x8x16_o12_0_0_S1x8x16 : S16x8x16.Slices ![12, 0, 0] S1x8x16
  slices_S16x8x16_o13_0_0_S1x8x16 : S16x8x16.Slices ![13, 0, 0] S1x8x16
  slices_S16x8x16_o14_0_0_S1x8x16 : S16x8x16.Slices ![14, 0, 0] S1x8x16
  slices_S16x8x16_o15_0_0_S1x8x16 : S16x8x16.Slices ![15, 0, 0] S1x8x16
  concatenates_S8x16_S8x16_S8x16_S8x16_S8x16_S8x16_S8x16_S8x16_S8x16_S8x16_S8x16_S8x16_S8x16_S8x16_S8x16_S8x16_S8x256_d1 : Shape.Concatenates [S8x16, S8x16, S8x16, S8x16, S8x16, S8x16, S8x16, S8x16, S8x16, S8x16, S8x16, S8x16, S8x16, S8x16, S8x16, S8x16] S8x256 1
  inb_S256x120_S256x120_0_0 : ∀ a, (![0, 0] : Fin 2 → Nat) a + S256x120.size a ≤ S256x120.size a
  h_S256x120 : 0 < S256x120.numel
  inb_S1x120_S1x120_0_0 : ∀ a, (![0, 0] : Fin 2 → Nat) a + S1x120.size a ≤ S1x120.size a
  h_S1x120 : 0 < S1x120.numel
  broadcasts_S1x120_S8x120 : S1x120.Broadcasts S8x120
  inb_S120x84_S120x84_0_0 : ∀ a, (![0, 0] : Fin 2 → Nat) a + S120x84.size a ≤ S120x84.size a
  h_S120x84 : 0 < S120x84.numel
  inb_S1x84_S1x84_0_0 : ∀ a, (![0, 0] : Fin 2 → Nat) a + S1x84.size a ≤ S1x84.size a
  h_S1x84 : 0 < S1x84.numel
  broadcasts_S1x84_S8x84 : S1x84.Broadcasts S8x84
  inb_S84x128_S84x128_0_0 : ∀ a, (![0, 0] : Fin 2 → Nat) a + S84x128.size a ≤ S84x128.size a
  h_S84x128 : 0 < S84x128.numel
  inb_S1x128_S1x128_0_0 : ∀ a, (![0, 0] : Fin 2 → Nat) a + S1x128.size a ≤ S1x128.size a
  h_S1x128 : 0 < S1x128.numel
  broadcasts_S1x128_S8x128 : S1x128.Broadcasts S8x128
  inb_S8x128_S8x128_0_0 : ∀ a, (![0, 0] : Fin 2 → Nat) a + S8x128.size a ≤ S8x128.size a
  h_S8x128 : 0 < S8x128.numel
  slices_S16384x128_S16384x10_0_0 : S16384x128.Slices ![0, 0] S16384x10
  dot_S288x64_S64x96_S288x96_1_0_0_1_n_n_wf : DotDims.WF S288x64 S64x96 S288x96 [1] [0] [0] [1] [] []
  dot_S128x216_S216x64_S128x64_1_0_0_1_n_n_wf : DotDims.WF S128x216 S216x64 S128x64 [1] [0] [0] [1] [] []
  dot_S8x256_S256x120_S8x120_1_0_0_1_n_n_wf : DotDims.WF S8x256 S256x120 S8x120 [1] [0] [0] [1] [] []
  dot_S8x120_S120x84_S8x84_1_0_0_1_n_n_wf : DotDims.WF S8x120 S120x84 S8x84 [1] [0] [0] [1] [] []
  dot_S8x84_S84x128_S8x128_1_0_0_1_n_n_wf : DotDims.WF S8x84 S84x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S7x7x8x16.size a ≤ S7x7x16384x16.size a
  hwx0_0 : ∀ i : grid0.Coords, EltTy.bits .f32 = 32 ∨ (Rect.block (s := S7x7x16384x16) S7x7x8x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S216x64.size a ≤ S216x64.size a
  hwx0_3 : ∀ i : grid0.Coords, EltTy.bits .f32 = 32 ∨ (Rect.block (s := S216x64) S216x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x120.size a ≤ S256x120.size a
  hwx0_5 : ∀ i : grid0.Coords, EltTy.bits .f32 = 32 ∨ (Rect.block (s := S256x120) S256x120.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x120.size a ≤ S1x120.size a
  hwx0_6 : ∀ i : grid0.Coords, EltTy.bits .f32 = 32 ∨ (Rect.block (s := S1x120) S1x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120x84.size a ≤ S120x84.size a
  hwx0_7 : ∀ i : grid0.Coords, EltTy.bits .f32 = 32 ∨ (Rect.block (s := S120x84) S120x84.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x84.size a ≤ S1x84.size a
  hwx0_8 : ∀ i : grid0.Coords, EltTy.bits .f32 = 32 ∨ (Rect.block (s := S1x84) S1x84.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S84x128.size a ≤ S84x128.size a
  hwx0_9 : ∀ i : grid0.Coords, EltTy.bits .f32 = 32 ∨ (Rect.block (s := S84x128) S84x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x128.size a ≤ S16384x128.size a
  hwx0_11 : ∀ i : grid0.Coords, EltTy.bits .f32 = 32 ∨ (Rect.block (s := S16384x128) S8x128.size (cc0_transform_11 i) (hinb0_11 i)).WholeWords (EltTy.packing .f32)

variable [Facts₀]

def dot_S288x64_S64x96_S288x96_1_0_0_1_n_n : DotDims S288x64 S64x96 S288x96 where
  lhsContracting := [1]
  rhsContracting := [0]
  lhsNonContracting := [0]
  rhsNonContracting := [1]
  lhsBatch := []
  rhsBatch := []
  wf := dot_S288x64_S64x96_S288x96_1_0_0_1_n_n_wf
def dot_S128x216_S216x64_S128x64_1_0_0_1_n_n : DotDims S128x216 S216x64 S128x64 where
  lhsContracting := [1]
  rhsContracting := [0]
  lhsNonContracting := [0]
  rhsNonContracting := [1]
  lhsBatch := []
  rhsBatch := []
  wf := dot_S128x216_S216x64_S128x64_1_0_0_1_n_n_wf
def dot_S8x256_S256x120_S8x120_1_0_0_1_n_n : DotDims S8x256 S256x120 S8x120 where
  lhsContracting := [1]
  rhsContracting := [0]
  lhsNonContracting := [0]
  rhsNonContracting := [1]
  lhsBatch := []
  rhsBatch := []
  wf := dot_S8x256_S256x120_S8x120_1_0_0_1_n_n_wf
def dot_S8x120_S120x84_S8x84_1_0_0_1_n_n : DotDims S8x120 S120x84 S8x84 where
  lhsContracting := [1]
  rhsContracting := [0]
  lhsNonContracting := [0]
  rhsNonContracting := [1]
  lhsBatch := []
  rhsBatch := []
  wf := dot_S8x120_S120x84_S8x84_1_0_0_1_n_n_wf
def dot_S8x84_S84x128_S8x128_1_0_0_1_n_n : DotDims S8x84 S84x128 S8x128 where
  lhsContracting := [1]
  rhsContracting := [0]
  lhsNonContracting := [0]
  rhsNonContracting := [1]
  lhsBatch := []
  rhsBatch := []
  wf := dot_S8x84_S84x128_S8x128_1_0_0_1_n_n_wf

abbrev win0_0 : Pipeline.Window sig grid0 :=
  Pipeline.Window.ofSpec (Memref.whole main_v3) S7x7x8x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S216x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x120.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S120x84.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x84.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S84x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S8x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== Proof.LeNetSpec.lean ====
/-
  LeNet-5 applied to ONE image, as a function on the extended reals.

  The image arrives space-to-depth by four: `img hh ww l` is the pixel (4·hh + l / 4, 4·ww + l % 4) of the 28 × 28 input.

  * First convolution and pooling. A block (ph, pw) of 4 × 4 output pixels of the 5 × 5 convolution sees an 8 × 8 field
    of the input: its 64 taps, numbered k = 32·u + 16·v + l, are `img (ph + u) (pw + v) l`. The taps times a 64 × 96
    weight matrix plus a bias give 96 numbers: lane 24·g + 6·d + co is output pixel d (of the four in a 2 × 2 pooling
    cell) of pooled pixel g (of the four in the block), channel co. Pooling takes the maximum over d and clamps at zero,
    leaving 24 lanes 6·g + co per block.
  * Second convolution and pooling. A block (qh, qw) of 2 × 2 output pixels sees a 3 × 3 field of first-layer blocks:
    its 216 taps k = 72·u + 24·v + l are `s1 (qh + u) (qw + v) l`; times a 216 × 64 matrix plus a bias: lane 16·d + co
    is output pixel d of the pooling cell, channel co. Maximum over d, clamped at zero: 16 channels per block.
  * The 16 blocks s = 4·qh + qw, 16 channels each, laid side by side, are the 256 features: feature 16·s + co.
  * Three dense layers, the first two clamped at zero: 256 → 120 → 84 → 128.

  Every sum is the exact sum of the extended reals, every maximum their maximum; nothing here depends on how many
  images a kernel handles at a time, which is the point: a kernel that processes images in tiles of any size computes
  this function of each image.
-/
import Idealize.ShloMosaic.PureOps.Ideal
import Idealize.ShloMosaic.Lib.ValueIdx

noncomputable section

namespace LeNetSpec

open Idealize.ShloMosaic Idealize.ShloMosaic.ValueIdx

/-- The parameter arrays' shapes. -/
abbrev W1 : Shape := ⟨2, ![64, 96]⟩
abbrev B1 : Shape := ⟨2, ![1, 96]⟩
abbrev W2 : Shape := ⟨2, ![216, 64]⟩
abbrev B2 : Shape := ⟨2, ![1, 64]⟩
abbrev WF1 : Shape := ⟨2, ![256, 120]⟩
abbrev BF1 : Shape := ⟨2, ![1, 120]⟩
abbrev WF2 : Shape := ⟨2, ![120, 84]⟩
abbrev BF2 : Shape := ⟨2, ![1, 84]⟩
abbrev WF3 : Shape := ⟨2, ![84, 128]⟩
abbrev BF3 : Shape := ⟨2, ![1, 128]⟩
/-- The batch of images and the batch of results. -/
abbrev XS : Shape := ⟨4, ![16384, 1, 28, 28]⟩
abbrev YS : Shape := ⟨2, ![16384, 10]⟩

/-- The number of features entering the dense layers. -/
abbrev nFeat : Nat := 256

/-- One image, space-to-depth by four; the first pooled map in 6 × 6 blocks of 24 lanes. -/
abbrev Img : Type := Fin 7 → Fin 7 → Fin 16 → EReal
abbrev Map1 : Type := Fin 6 → Fin 6 → Fin 24 → EReal

/-- The rectifier: the maximum with the float zero. -/
def relu (x : EReal) : EReal := max x (Ideal.ofBits .f32 0x00000000#32)

/-- The maximum of the four pixels of a pooling cell, paired as the programs pair them. -/
def max4 (a b c d : EReal) : EReal := max (max a b) (max c d)

/-- Entry q of a dense layer: Σ_k x k · w (k, q), plus the bias b (0, q). -/
def dense {K N : Nat} (x : Fin K → EReal) (w : (⟨2, ![K, N]⟩ : Shape).Idx → EReal)
    (b : (⟨2, ![1, N]⟩ : Shape).Idx → EReal) (q : Fin N) : EReal :=
  (∑ k : Fin K, x k * w (ix2 k q)) + b (ix2 (0 : Fin 1) q)

/-- Tap k = 32·u + 16·v + l of the 8 × 8 field of block (ph, pw): `img (ph + u) (pw + v) l`. -/
def patch1 (img : Img) (ph pw : Fin 6) (k : Fin 64) : EReal :=
  img ⟨ph.val + k.val / 32, by have := ph.isLt; have := k.isLt; omega⟩
    ⟨pw.val + k.val / 16 % 2, by have := pw.isLt; omega⟩ ⟨k.val % 16, by omega⟩

/-- Lane c = 6·g + co of a pooled first-layer block: the rectified maximum of lanes 24·g + 6·d + co, d = 0 … 3. -/
def pool1 (y : Fin 96 → EReal) (c : Fin 24) : EReal :=
  relu (max4 (y ⟨24 * (c.val / 6) + c.val % 6, by have := c.isLt; omega⟩)
    (y ⟨24 * (c.val / 6) + 6 + c.val % 6, by have := c.isLt; omega⟩)
    (y ⟨24 * (c.val / 6) + 12 + c.val % 6, by have := c.isLt; omega⟩)
    (y ⟨24 * (c.val / 6) + 18 + c.val % 6, by have := c.isLt; omega⟩))

/-- The first convolution, pooled and rectified, of one image. -/
def conv1 (img : Img) (w1 : W1.Idx → EReal) (b1 : B1.Idx → EReal) : Map1 :=
  fun ph pw c => pool1 (dense (patch1 img ph pw) w1 b1) c

/-- Tap k = 72·u + 24·v + l of the 3 × 3 field of blocks of block (qh, qw): `s1 (qh + u) (qw + v) l`. -/
def patch2 (s1 : Map1) (qh qw : Fin 4) (k : Fin 216) : EReal :=
  s1 ⟨qh.val + k.val / 72, by have := qh.isLt; have := k.isLt; omega⟩
    ⟨qw.val + k.val / 24 % 3, by have := qw.isLt; omega⟩ ⟨k.val % 24, by omega⟩

/-- Channel co of a pooled second-layer block: the rectified maximum of lanes 16·d + co, d = 0 … 3. -/
def pool2 (y : Fin 64 → EReal) (co : Fin 16) : EReal :=
  relu (max4 (y ⟨co.val, by have := co.isLt; omega⟩) (y ⟨16 + co.val, by have := co.isLt; omega⟩)
    (y ⟨32 + co.val, by have := co.isLt; omega⟩) (y ⟨48 + co.val, by have := co.isLt; omega⟩))

/-- The second convolution, pooled and rectified: block (qh, qw), channel co. -/
def conv2 (s1 : Map1) (w2 : W2.Idx → EReal) (b2 : B2.Idx → EReal) (qh qw : Fin 4) (co : Fin 16) : EReal :=
  pool2 (dense (patch2 s1 qh qw) w2 b2) co

/-- Feature k = 16·s + co lies in block s = k / 16 … -/
def featBlock (k : Fin nFeat) : Fin 16 := ⟨k.val / 16, by have h : k.val < 256 := k.isLt; omega⟩
/-- … at channel co = k % 16. -/
def featChan (k : Fin nFeat) : Fin 16 := ⟨k.val % 16, by omega⟩
theorem featBlock_val (k : Fin nFeat) : (featBlock k).val = k.val / 16 := rfl
theorem featChan_val (k : Fin nFeat) : (featChan k).val = k.val % 16 := rfl
/-- A feature index is 16 · its block + its channel, and is below 256. -/
theorem feat_split (k : Fin nFeat) : k.val = 16 * (featBlock k).val + (featChan k).val ∧ k.val < 256 := by
  have h : k.val < 256 := k.isLt
  refine ⟨?_, h⟩
  show k.val = 16 * (k.val / 16) + k.val % 16
  omega

/-- Feature k is channel `featChan k` of block s = `featBlock k` = 4·qh + qw. -/
def feats (s1 : Map1) (w2 : W2.Idx → EReal) (b2 : B2.Idx → EReal) (k : Fin nFeat) : EReal :=
  conv2 s1 w2 b2 ⟨(featBlock k).val / 4, by have := (featBlock k).isLt; omega⟩ ⟨(featBlock k).val % 4, by omega⟩ (featChan k)

/-- The three dense layers on a feature vector. -/
def fc (f : Fin nFeat → EReal) (wf1 : WF1.Idx → EReal) (bf1 : BF1.Idx → EReal) (wf2 : WF2.Idx → EReal)
    (bf2 : BF2.Idx → EReal) (wf3 : WF3.Idx → EReal) (bf3 : BF3.Idx → EReal) (j : Fin 128) : EReal :=
  dense (fun q => relu (dense (fun p => relu (dense f wf1 bf1 p)) wf2 bf2 q)) wf3 bf3 j

/-- The whole network on one image: 128 output lanes (the programs keep the first ten). -/
def lenet (img : Img) (w1 : W1.Idx → EReal) (b1 : B1.Idx → EReal) (w2 : W2.Idx → EReal) (b2 : B2.Idx → EReal)
    (wf1 : WF1.Idx → EReal) (bf1 : BF1.Idx → EReal) (wf2 : WF2.Idx → EReal) (bf2 : BF2.Idx → EReal)
    (wf3 : WF3.Idx → EReal) (bf3 : BF3.Idx → EReal) (j : Fin 128) : EReal :=
  fc (feats (conv1 img w1 b1) w2 b2) wf1 bf1 wf2 bf2 wf3 bf3 j

/-- Image N of the batch, space-to-depth by four: `(hh, ww, l) ↦ x (N, 0, 4·hh + l / 4, 4·ww + l % 4)`. -/
def image (x : XS.Idx → EReal) (N : Fin 16384) : Img :=
  fun hh ww l => x (ix4 N (0 : Fin 1) (⟨4 * hh.val + l.val / 4, by have := hh.isLt; have := l.isLt; omega⟩ : Fin 28)
    (⟨4 * ww.val + l.val % 4, by have := ww.isLt; omega⟩ : Fin 28))

/-- What both programs return: the first ten lanes of the network on every image. -/
def logits (x : XS.Idx → EReal) (w1 : W1.Idx → EReal) (b1 : B1.Idx → EReal) (w2 : W2.Idx → EReal) (b2 : B2.Idx → EReal)
    (wf1 : WF1.Idx → EReal) (bf1 : BF1.Idx → EReal) (wf2 : WF2.Idx → EReal) (bf2 : BF2.Idx → EReal)
    (wf3 : WF3.Idx → EReal) (bf3 : BF3.Idx → EReal) : YS.Idx → EReal :=
  fun i => lenet (image x (i 0)) w1 b1 w2 b2 wf1 bf1 wf2 bf2 wf3 bf3 ⟨(i 1).val, by have h : (i 1).val < 10 := (i 1).isLt; omega⟩

end LeNetSpec

end
-- ==== Proof.KBridge.lean ====
/-
  What the kernel's body leaves in its output block, as one term: the three dense layers applied to the feature
  matrix, itself the sixteen blocks of the second pooled map side by side, that map computed from the first pooled
  map, and that one from the input block. The body's one store covers the whole block.
-/
import proofs.«113019_g2000604803448687_pallaspilot1_85_2_alg».proof.Proof.Gen.KernelIdeal.Frame
import proofs.«113019_g2000604803448687_pallaspilot1_85_2_alg».proof.Proof.LeNetSpec
import Idealize.ShloMosaic.Lib.Pipeline.FrameBody

noncomputable section

namespace Cert.KernelIdeal.Val

open Idealize.ShloMosaic Idealize.ShloMosaic.ValueIdx Cert.KernelIdeal Cert.KernelIdeal.Gen

/-- The stored block is the composition of the body's stages on the loaded blocks. -/
theorem out0_11_eq (x0 : Vec Ideal S7x7x256x16 .f32) (x1 : Vec Ideal S64x96 .f32) (x2 : Vec Ideal S1x96 .f32)
    (x3 : Vec Ideal S216x64 .f32) (x4 : Vec Ideal S1x64 .f32) (x5 : Vec Ideal LeNetSpec.WF1 .f32) (x6 : Vec Ideal S1x120 .f32)
    (x7 : Vec Ideal S120x84 .f32) (x8 : Vec Ideal S1x84 .f32) (x9 : Vec Ideal S84x128 .f32) (x10 : Vec Ideal S1x128 .f32) :
    out0_11 (F := Ideal) x0 x1 x2 x3 x4 x5 x6 x7 x8 x9 x10
      = View.canon [⟨r0_11, k0_pay2 (k0_pay1 (k0_pay4 (k0_pay3 (View.ld x0 r0_0) (View.ld x1 r0_1) (View.ld x2 r0_2)) (View.ld x3 r0_3) (View.ld x4 r0_4)) (k0_pay5 (k0_pay3 (View.ld x0 r0_0) (View.ld x1 r0_1) (View.ld x2 r0_2)) (View.ld x3 r0_3) (View.ld x4 r0_4)) (k0_pay6 (k0_pay3 (View.ld x0 r0_0) (View.ld x1 r0_1) (View.ld x2 r0_2)) (View.ld x3 r0_3) (View.ld x4 r0_4)) (k0_pay7 (k0_pay3 (View.ld x0 r0_0) (View.ld x1 r0_1) (View.ld x2 r0_2)) (View.ld x3 r0_3) (View.ld x4 r0_4)) (k0_pay8 (k0_pay3 (View.ld x0 r0_0) (View.ld x1 r0_1) (View.ld x2 r0_2)) (View.ld x3 r0_3) (View.ld x4 r0_4)) (k0_pay9 (k0_pay3 (View.ld x0 r0_0) (View.ld x1 r0_1) (View.ld x2 r0_2)) (View.ld x3 r0_3) (View.ld x4 r0_4)) (k0_pay10 (k0_pay3 (View.ld x0 r0_0) (View.ld x1 r0_1) (View.ld x2 r0_2)) (View.ld x3 r0_3) (View.ld x4 r0_4)) (k0_pay11 (k0_pay3 (View.ld x0 r0_0) (View.ld x1 r0_1) (View.ld x2 r0_2)) (View.ld x3 r0_3) (View.ld x4 r0_4)) (k0_pay12 (k0_pay3 (View.ld x0 r0_0) (View.ld x1 r0_1) (View.ld x2 r0_2)) (View.ld x3 r0_3) (View.ld x4 r0_4)) (k0_pay13 (k0_pay3 (View.ld x0 r0_0) (View.ld x1 r0_1) (View.ld x2 r0_2)) (View.ld x3 r0_3) (View.ld x4 r0_4)) (k0_pay14 (k0_pay3 (View.ld x0 r0_0) (View.ld x1 r0_1) (View.ld x2 r0_2)) (View.ld x3 r0_3) (View.ld x4 r0_4)) (k0_pay15 (k0_pay3 (View.ld x0 r0_0) (View.ld x1 r0_1) (View.ld x2 r0_2)) (View.ld x3 r0_3) (View.ld x4 r0_4)) (k0_pay16 (k0_pay3 (View.ld x0 r0_0) (View.ld x1 r0_1) (View.ld x2 r0_2)) (View.ld x3 r0_3) (View.ld x4 r0_4)) (k0_pay17 (k0_pay3 (View.ld x0 r0_0) (View.ld x1 r0_1) (View.ld x2 r0_2)) (View.ld x3 r0_3) (View.ld x4 r0_4)) (k0_pay18 (k0_pay3 (View.ld x0 r0_0) (View.ld x1 r0_1) (View.ld x2 r0_2)) (View.ld x3 r0_3) (View.ld x4 r0_4))) (View.ld x5 r0_5) (View.ld x6 r0_6) (View.ld x7 r0_7) (View.ld x8 r0_8) (View.ld x9 r0_9) (View.ld x10 r0_10)⟩] := rfl

end Cert.KernelIdeal.Val

end
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.KConv1.lean ====
/-
  The first convolution stage of the tile body, read at one entry.

  The stage builds a patch matrix with one row per (block, image): row (ph·6 + pw)·256 + n holds the 64 taps of the
  8 × 8 field of block (ph, pw) of image n, tap 32·u + 16·v + l being the input block at (ph + u, pw + v, n, l). The
  rows are multiplied by the 64 × 96 weights and the bias row is added; of the 96 lanes of a row, lanes 24·g … 24·g + 23
  belong to pooled pixel g, in four groups of 6 (one per pixel of the pooling cell) that are maxed pairwise; the four
  6-lane results side by side, clamped at zero, are the 24 lanes of the block. Every step acts on each row alone, so
  the rows of image n are the first convolution of image n.
-/
import proofs.«113019_g2000604803448687_pallaspilot1_85_2_alg».proof.Proof.Gen.KernelIdeal.Skeleton
import proofs.«113019_g2000604803448687_pallaspilot1_85_2_alg».proof.Proof.LeNetSpec
import proofs.«113019_g2000604803448687_pallaspilot1_85_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

/-- The identity reshape reads the same entry. -/
theorem cast_id_apply (x0 : Vec Ideal S7x7x256x16 .f32) (j : S7x7x256x16.Idx) :
    shapeCast S7x7x256x16 x0 shapeCasts_S7x7x256x16_S7x7x256x16 j = x0 j :=
  shapeCast_apply _ _ j j rfl

/-- The slice at offsets (u, v, 0, 0) of the block, read at (ph, pw, n, l): the block at (u + ph, v + pw, n, l). -/
theorem slice_uv_apply (X : FVec Ideal S7x7x256x16 .f32) (u v : Nat) (h : S7x7x256x16.Slices ![u, v, 0, 0] S6x6x256x16)
    (ph pw : Fin 6) (n : Fin 256) (l : Fin 16) (a b : Fin 7) (ha : a.val = u + ph.val) (hb : b.val = v + pw.val) :
    extractStridedSlice S6x6x256x16 ![u, v, 0, 0] X h (ix4 ph pw n l) = X (ix4 a b n l) :=
  extractStridedSlice_apply _ _ _ _ _ (fun ax => by
    match ax with
    | ⟨0, _⟩ => exact ha
    | ⟨1, _⟩ => exact hb
    | ⟨2, _⟩ => exact (Nat.zero_add _).symm
    | ⟨3, _⟩ => exact (Nat.zero_add _).symm)

/-- Four 16-lane pieces laid side by side along the lanes: lane 16·g + l of the result is lane l of piece g. -/
theorem cat4_lanes_apply (p0 p1 p2 p3 : FVec Ideal S6x6x256x16 .f32) (ph pw : Fin 6) (n : Fin 256) (k : Fin 64)
    (l : Fin 16) (hl : l.val = k.val % 16) :
    concatenate S6x6x256x64 3 [⟨S6x6x256x16, p0⟩, ⟨S6x6x256x16, p1⟩, ⟨S6x6x256x16, p2⟩, ⟨S6x6x256x16, p3⟩]
        concatenates_S6x6x256x16_S6x6x256x16_S6x6x256x16_S6x6x256x16_S6x6x256x64_d3 (ix4 ph pw n k)
      = (if k.val / 16 = 0 then p0 else if k.val / 16 = 1 then p1 else if k.val / 16 = 2 then p2 else p3) (ix4 ph pw n l) := by
  have hk := k.isLt
  have hoff : ∀ b : Fin S6x6x256x16.rank, b.cast (rfl : S6x6x256x16.rank = S6x6x256x64.rank) ≠ (3 : Fin S6x6x256x64.rank) →
      ((ix4 ph pw n l : S6x6x256x16.Idx) b).val = ((ix4 ph pw n k : S6x6x256x64.Idx) (b.cast rfl)).val := fun b hb => by
    match b with
    | ⟨0, _⟩ => rfl
    | ⟨1, _⟩ => rfl
    | ⟨2, _⟩ => rfl
    | ⟨3, _⟩ => exact absurd rfl hb
  have hcases : k.val / 16 = 0 ∨ k.val / 16 = 1 ∨ k.val / 16 = 2 ∨ k.val / 16 = 3 := by omega
  rcases hcases with h | h | h | h
  · rw [if_pos h]
    exact concatenate_apply_piece (3 : Fin S6x6x256x64.rank) _ _ _ 0 (by show 0 < 4; omega) S6x6x256x16 p0 rfl rfl 0 rfl _ hoff
      (by show 0 + l.val = k.val; omega)
  · rw [if_neg (by omega), if_pos h]
    exact concatenate_apply_piece (3 : Fin S6x6x256x64.rank) _ _ _ 1 (by show 1 < 4; omega) S6x6x256x16 p1 rfl rfl 16 rfl _ hoff
      (by show 16 + l.val = k.val; omega)
  · rw [if_neg (by omega), if_neg (by omega), if_pos h]
    exact concatenate_apply_piece (3 : Fin S6x6x256x64.rank) _ _ _ 2 (by show 2 < 4; omega) S6x6x256x16 p2 rfl rfl (16 + 16) rfl _ hoff
      (by show 16 + 16 + l.val = k.val; omega)
  · rw [if_neg (by omega), if_neg (by omega), if_neg (by omega)]
    exact concatenate_apply_piece (3 : Fin S6x6x256x64.rank) _ _ _ 3 (by show 3 < 4; omega) S6x6x256x16 p3 rfl rfl (16 + 16 + 16) rfl _ hoff
      (by show 16 + 16 + 16 + l.val = k.val; omega)

/-- The row of the patch matrix, of the product and of the pooled map that belongs to block (ph, pw) of image n:
    (ph·6 + pw)·256 + n. -/
abbrev tileRow (ph pw : Fin 6) (n : Fin 256) : Fin 9216 :=
  ⟨(ph.val * 6 + pw.val) * 256 + n.val, by have := ph.isLt; have := pw.isLt; have := n.isLt; omega⟩

/-- The patch matrix of the tile: the four shifted 6 × 6 windows of the block side by side along the lanes, one row per
    (block, image). -/
def patchMat (x0 : Vec Ideal S7x7x256x16 .f32) : FVec Ideal S9216x64 .f32 :=
  shapeCast S9216x64
    (concatenate S6x6x256x64 3
      [⟨S6x6x256x16, extractStridedSlice S6x6x256x16 ![0, 0, 0, 0]
          (shapeCast S7x7x256x16 x0 shapeCasts_S7x7x256x16_S7x7x256x16) slices_S7x7x256x16_o0_0_0_0_S6x6x256x16⟩,
       ⟨S6x6x256x16, extractStridedSlice S6x6x256x16 ![0, 1, 0, 0]
          (shapeCast S7x7x256x16 x0 shapeCasts_S7x7x256x16_S7x7x256x16) slices_S7x7x256x16_o0_1_0_0_S6x6x256x16⟩,
       ⟨S6x6x256x16, extractStridedSlice S6x6x256x16 ![1, 0, 0, 0]
          (shapeCast S7x7x256x16 x0 shapeCasts_S7x7x256x16_S7x7x256x16) slices_S7x7x256x16_o1_0_0_0_S6x6x256x16⟩,
       ⟨S6x6x256x16, extractStridedSlice S6x6x256x16 ![1, 1, 0, 0]
          (shapeCast S7x7x256x16 x0 shapeCasts_S7x7x256x16_S7x7x256x16) slices_S7x7x256x16_o1_1_0_0_S6x6x256x16⟩]
      concatenates_S6x6x256x16_S6x6x256x16_S6x6x256x16_S6x6x256x16_S6x6x256x64_d3)
    shapeCasts_S6x6x256x64_S9216x64

/-- Row (ph, pw, n) of the patch matrix is the 8 × 8 field of block (ph, pw) of image n: tap k = 32·u + 16·v + l comes
    from window 2·u + v, lane l, that is from the block at (ph + u, pw + v, n, l). -/
theorem patchMat_apply (x0 : Vec Ideal S7x7x256x16 .f32) (ph pw : Fin 6) (n : Fin 256) (k : Fin 64) :
    patchMat x0 (ix2 (tileRow ph pw n) k) = LeNetSpec.patch1 (fun hh ww l => x0 (ix4 hh ww n l)) ph pw k := by
  have hk := k.isLt
  have hph := ph.isLt
  have hpw := pw.isLt
  unfold patchMat
  refine (shapeCast_apply _ _ _ (ix4 ph pw n k) (by
    rw [Shape.rowMajor_val_four, Shape.rowMajor_val_two]
    show ((ph.val * 6 + pw.val) * 256 + n.val) * 64 + k.val = ((ph.val * 6 + pw.val) * 256 + n.val) * 64 + k.val
    rfl)).trans ?_
  refine (cat4_lanes_apply _ _ _ _ ph pw n k ⟨k.val % 16, by omega⟩ rfl).trans ?_
  unfold LeNetSpec.patch1
  have hcases : k.val / 16 = 0 ∨ k.val / 16 = 1 ∨ k.val / 16 = 2 ∨ k.val / 16 = 3 := by omega
  rcases hcases with h | h | h | h
  · rw [if_pos h]
    refine (slice_uv_apply _ 0 0 _ ph pw n _ ⟨ph.val + k.val / 32, by omega⟩ ⟨pw.val + k.val / 16 % 2, by omega⟩
      (by show ph.val + k.val / 32 = 0 + ph.val; omega) (by show pw.val + k.val / 16 % 2 = 0 + pw.val; omega)).trans ?_
    exact cast_id_apply x0 _
  · rw [if_neg (by omega), if_pos h]
    refine (slice_uv_apply _ 0 1 _ ph pw n _ ⟨ph.val + k.val / 32, by omega⟩ ⟨pw.val + k.val / 16 % 2, by omega⟩
      (by show ph.val + k.val / 32 = 0 + ph.val; omega) (by show pw.val + k.val / 16 % 2 = 1 + pw.val; omega)).trans ?_
    exact cast_id_apply x0 _
  · rw [if_neg (by omega), if_neg (by omega), if_pos h]
    refine (slice_uv_apply _ 1 0 _ ph pw n _ ⟨ph.val + k.val / 32, by omega⟩ ⟨pw.val + k.val / 16 % 2, by omega⟩
      (by show ph.val + k.val / 32 = 1 + ph.val; omega) (by show pw.val + k.val / 16 % 2 = 0 + pw.val; omega)).trans ?_
    exact cast_id_apply x0 _
  · rw [if_neg (by omega), if_neg (by omega), if_neg (by omega)]
    refine (slice_uv_apply _ 1 1 _ ph pw n _ ⟨ph.val + k.val / 32, by omega⟩ ⟨pw.val + k.val / 16 % 2, by omega⟩
      (by show ph.val + k.val / 32 = 1 + ph.val; omega) (by show pw.val + k.val / 16 % 2 = 1 + pw.val; omega)).trans ?_
    exact cast_id_apply x0 _

/-- The product of the patch matrix with the weights, accumulated into zero, plus the bias row on every row. -/
def preact (A : FVec Ideal S9216x64 .f32) (w1 : Vec Ideal S64x96 .f32) (b1 : Vec Ideal S1x96 .f32) :
    FVec Ideal S9216x96 .f32 :=
  addf (matmul (φ₂ := .f32) dot_S9216x64_S64x96_S9216x96_1_0_0_1_n_n none A w1 (constant S9216x96 .f32 0x00000000#32))
    (broadcastTo S9216x96 b1 broadcasts_S1x96_S9216x96)

/-- Entry (r, q) of it is the dense layer on row r of the patch matrix: Σ_k A (r, k) · w1 (k, q) + b1 (0, q). -/
theorem preact_apply (A : FVec Ideal S9216x64 .f32) (w1 : Vec Ideal S64x96 .f32) (b1 : Vec Ideal S1x96 .f32)
    (r : Fin 9216) (q : Fin 96) :
    preact A w1 b1 (ix2 r q) = LeNetSpec.dense (fun k => A (ix2 r k)) w1 b1 q := by
  unfold preact LeNetSpec.dense
  refine congrArg₂ (fun a b : EReal => a + b) ?_ ?_
  · exact LibPlainMatmul.matmul_plain_zero_apply (m := 9216) (k := 64) (n := 96) (φ₂ := .f32) none A w1 r q
  · exact broadcastTo_1b_ab_apply b1 _ r q

/-- Row (ph, pw, n), lane q of the product plus bias is the dense layer on the 8 × 8 field of block (ph, pw) of
    image n. -/
theorem preact_patchMat_apply (x0 : Vec Ideal S7x7x256x16 .f32) (w1 : Vec Ideal S64x96 .f32) (b1 : Vec Ideal S1x96 .f32)
    (ph pw : Fin 6) (n : Fin 256) (q : Fin 96) :
    preact (patchMat x0) w1 b1 (ix2 (tileRow ph pw n) q)
      = LeNetSpec.dense (LeNetSpec.patch1 (fun hh ww l => x0 (ix4 hh ww n l)) ph pw) w1 b1 q :=
  (preact_apply _ w1 b1 _ q).trans
    (congrArg (fun x => LeNetSpec.dense x w1 b1 q) (funext fun k => patchMat_apply x0 ph pw n k))

/-- One pooled pixel of every row: the 24 lanes from lane o on, cut into four groups of 6 (the four pixels of the
    pooling cell) and maxed pairwise, (first, second) and (third, fourth). -/
def poolGroup (Y : FVec Ideal S9216x96 .f32) (o : Nat) (h : S9216x96.Slices ![0, o] S9216x24) : FVec Ideal S9216x6 .f32 :=
  maximumf
    (maximumf (extractStridedSlice S9216x6 ![0, 0] (extractStridedSlice S9216x24 ![0, o] Y h) slices_S9216x24_o0_0_S9216x6)
      (extractStridedSlice S9216x6 ![0, 6] (extractStridedSlice S9216x24 ![0, o] Y h) slices_S9216x24_o0_6_S9216x6))
    (maximumf (extractStridedSlice S9216x6 ![0, 12] (extractStridedSlice S9216x24 ![0, o] Y h) slices_S9216x24_o0_12_S9216x6)
      (extractStridedSlice S9216x6 ![0, 18] (extractStridedSlice S9216x24 ![0, o] Y h) slices_S9216x24_o0_18_S9216x6))

/-- Entry (r, co) of it: the maximum of lanes o + co, o + 6 + co, o + 12 + co, o + 18 + co of row r. -/
theorem poolGroup_apply (Y : FVec Ideal S9216x96 .f32) (o : Nat) (h : S9216x96.Slices ![0, o] S9216x24)
    (r : Fin 9216) (co : Fin 6) (q0 q1 q2 q3 : Fin 96) (h0 : q0.val = o + co.val) (h1 : q1.val = o + 6 + co.val)
    (h2 : q2.val = o + 12 + co.val) (h3 : q3.val = o + 18 + co.val) :
    poolGroup Y o h (ix2 r co) = LeNetSpec.max4 (Y (ix2 r q0)) (Y (ix2 r q1)) (Y (ix2 r q2)) (Y (ix2 r q3)) := by
  have hco := co.isLt
  unfold poolGroup LeNetSpec.max4
  refine congrArg₂ (fun a b : EReal => max a b) (congrArg₂ (fun a b : EReal => max a b) ?_ ?_)
    (congrArg₂ (fun a b : EReal => max a b) ?_ ?_)
  · exact (slice2_axis1_apply 0 _ _ r co ⟨0 + co.val, by omega⟩ rfl).trans
      (slice2_axis1_apply o Y h r _ q0 (by show q0.val = o + (0 + co.val); omega))
  · exact (slice2_axis1_apply 6 _ _ r co ⟨6 + co.val, by omega⟩ rfl).trans
      (slice2_axis1_apply o Y h r _ q1 (by show q1.val = o + (6 + co.val); omega))
  · exact (slice2_axis1_apply 12 _ _ r co ⟨12 + co.val, by omega⟩ rfl).trans
      (slice2_axis1_apply o Y h r _ q2 (by show q2.val = o + (12 + co.val); omega))
  · exact (slice2_axis1_apply 18 _ _ r co ⟨18 + co.val, by omega⟩ rfl).trans
      (slice2_axis1_apply o Y h r _ q3 (by show q3.val = o + (18 + co.val); omega))

/-- Four 6-lane pieces laid side by side along the lanes: lane 6·g + co of the result is lane co of piece g. -/
theorem cat4_pool_apply (p0 p1 p2 p3 : FVec Ideal S9216x6 .f32) (r : Fin 9216) (c : Fin 24)
    (co : Fin 6) (hco : co.val = c.val % 6) :
    concatenate S9216x24 1 [⟨S9216x6, p0⟩, ⟨S9216x6, p1⟩, ⟨S9216x6, p2⟩, ⟨S9216x6, p3⟩]
        concatenates_S9216x6_S9216x6_S9216x6_S9216x6_S9216x24_d1 (ix2 r c)
      = (if c.val / 6 = 0 then p0 else if c.val / 6 = 1 then p1 else if c.val / 6 = 2 then p2 else p3) (ix2 r co) := by
  have hc := c.isLt
  have hoff : ∀ b : Fin S9216x6.rank, b.cast (rfl : S9216x6.rank = S9216x24.rank) ≠ (1 : Fin S9216x24.rank) →
      ((ix2 r co : S9216x6.Idx) b).val = ((ix2 r c : S9216x24.Idx) (b.cast rfl)).val := fun b hb => by
    match b with
    | ⟨0, _⟩ => rfl
    | ⟨1, _⟩ => exact absurd rfl hb
  have hcases : c.val / 6 = 0 ∨ c.val / 6 = 1 ∨ c.val / 6 = 2 ∨ c.val / 6 = 3 := by omega
  rcases hcases with h | h | h | h
  · rw [if_pos h]
    exact concatenate_apply_piece (1 : Fin S9216x24.rank) _ _ _ 0 (by show 0 < 4; omega) S9216x6 p0 rfl rfl 0 rfl _ hoff
      (by show 0 + co.val = c.val; omega)
  · rw [if_neg (by omega), if_pos h]
    exact concatenate_apply_piece (1 : Fin S9216x24.rank) _ _ _ 1 (by show 1 < 4; omega) S9216x6 p1 rfl rfl 6 rfl _ hoff
      (by show 6 + co.val = c.val; omega)
  · rw [if_neg (by omega), if_neg (by omega), if_pos h]
    exact concatenate_apply_piece (1 : Fin S9216x24.rank) _ _ _ 2 (by show 2 < 4; omega) S9216x6 p2 rfl rfl (6 + 6) rfl _ hoff
      (by show 6 + 6 + co.val = c.val; omega)
  · rw [if_neg (by omega), if_neg (by omega), if_neg (by omega)]
    exact concatenate_apply_piece (1 : Fin S9216x24.rank) _ _ _ 3 (by show 3 < 4; omega) S9216x6 p3 rfl rfl (6 + 6 + 6) rfl _ hoff
      (by show 6 + 6 + 6 + co.val = c.val; omega)

/-- The pooled, rectified map of every row: the four pooled pixels side by side, clamped at zero. -/
def pooled (Y : FVec Ideal S9216x96 .f32) : FVec Ideal S9216x24 .f32 :=
  maximumf
    (concatenate S9216x24 1
      [⟨S9216x6, poolGroup Y 0 slices_S9216x96_o0_0_S9216x24⟩, ⟨S9216x6, poolGroup Y 24 slices_S9216x96_o0_24_S9216x24⟩,
       ⟨S9216x6, poolGroup Y 48 slices_S9216x96_o0_48_S9216x24⟩, ⟨S9216x6, poolGroup Y 72 slices_S9216x96_o0_72_S9216x24⟩]
      concatenates_S9216x6_S9216x6_S9216x6_S9216x6_S9216x24_d1)
    (broadcast S9216x24 (Scalar.ofBits .f32 0x00000000#32))

/-- Entry (r, c) of it, c = 6·g + co: the rectified maximum of lanes 24·g + 6·d + co, d = 0 … 3, of row r. -/
theorem pooled_apply (Y : FVec Ideal S9216x96 .f32) (r : Fin 9216) (c : Fin 24) :
    pooled Y (ix2 r c) = LeNetSpec.pool1 (fun q => Y (ix2 r q)) c := by
  have hc := c.isLt
  unfold pooled LeNetSpec.pool1 LeNetSpec.relu
  refine congrArg₂ (fun a b : EReal => max a b) ?_ rfl
  refine (cat4_pool_apply _ _ _ _ r c ⟨c.val % 6, by omega⟩ rfl).trans ?_
  have hcases : c.val / 6 = 0 ∨ c.val / 6 = 1 ∨ c.val / 6 = 2 ∨ c.val / 6 = 3 := by omega
  rcases hcases with h | h | h | h
  · rw [if_pos h]
    exact poolGroup_apply Y 0 _ r _ _ _ _ _ (by show 24 * (c.val / 6) + c.val % 6 = 0 + c.val % 6; omega)
      (by show 24 * (c.val / 6) + 6 + c.val % 6 = 0 + 6 + c.val % 6; omega)
      (by show 24 * (c.val / 6) + 12 + c.val % 6 = 0 + 12 + c.val % 6; omega)
      (by show 24 * (c.val / 6) + 18 + c.val % 6 = 0 + 18 + c.val % 6; omega)
  · rw [if_neg (by omega), if_pos h]
    exact poolGroup_apply Y 24 _ r _ _ _ _ _ (by show 24 * (c.val / 6) + c.val % 6 = 24 + c.val % 6; omega)
      (by show 24 * (c.val / 6) + 6 + c.val % 6 = 24 + 6 + c.val % 6; omega)
      (by show 24 * (c.val / 6) + 12 + c.val % 6 = 24 + 12 + c.val % 6; omega)
      (by show 24 * (c.val / 6) + 18 + c.val % 6 = 24 + 18 + c.val % 6; omega)
  · rw [if_neg (by omega), if_neg (by omega), if_pos h]
    exact poolGroup_apply Y 48 _ r _ _ _ _ _ (by show 24 * (c.val / 6) + c.val % 6 = 48 + c.val % 6; omega)
      (by show 24 * (c.val / 6) + 6 + c.val % 6 = 48 + 6 + c.val % 6; omega)
      (by show 24 * (c.val / 6) + 12 + c.val % 6 = 48 + 12 + c.val % 6; omega)
      (by show 24 * (c.val / 6) + 18 + c.val % 6 = 48 + 18 + c.val % 6; omega)
  · rw [if_neg (by omega), if_neg (by omega), if_neg (by omega)]
    exact poolGroup_apply Y 72 _ r _ _ _ _ _ (by show 24 * (c.val / 6) + c.val % 6 = 72 + c.val % 6; omega)
      (by show 24 * (c.val / 6) + 6 + c.val % 6 = 72 + 6 + c.val % 6; omega)
      (by show 24 * (c.val / 6) + 12 + c.val % 6 = 72 + 12 + c.val % 6; omega)
      (by show 24 * (c.val / 6) + 18 + c.val % 6 = 72 + 18 + c.val % 6; omega)

/-- The stage's value in stages: the pooled map of the product of the patch matrix, one block of 24 lanes per
    (block, image). -/
theorem pay3_eq (x0 : Vec Ideal S7x7x256x16 .f32) (w1 : Vec Ideal S64x96 .f32) (b1 : Vec Ideal S1x96 .f32) :
    k0_pay3 (F := Ideal) x0 w1 b1
      = shapeCast S6x6x256x24 (pooled (preact (patchMat x0) w1 b1)) shapeCasts_S9216x24_S6x6x256x24 := rfl

/-- Entry (ph, pw, n, c) of the first pooled map of a tile of 256 images is the first convolution of image n of the
    tile alone: the rows of the patch matrix, of the product and of the pooled map that belong to image n are functions
    of that image's slab of the input block. -/
theorem conv1_apply (x0 : Vec Ideal S7x7x256x16 .f32) (w1 : Vec Ideal S64x96 .f32) (b1 : Vec Ideal S1x96 .f32)
    (ph pw : Fin 6) (n : Fin 256) (c : Fin 24) :
    k0_pay3 (F := Ideal) x0 w1 b1 (ix4 ph pw n c)
      = LeNetSpec.conv1 (fun hh ww l => x0 (ix4 hh ww n l)) w1 b1 ph pw c := by
  refine (congrFun (pay3_eq x0 w1 b1) _).trans ?_
  -- the reshape: entry (ph, pw, n, c) is entry (row (ph, pw, n), c) of the pooled map
  refine (shapeCast_apply _ _ _ (ix2 (tileRow ph pw n) c) (by
    rw [Shape.rowMajor_val_two, Shape.rowMajor_val_four]
    show ((ph.val * 6 + pw.val) * 256 + n.val) * 24 + c.val = ((ph.val * 6 + pw.val) * 256 + n.val) * 24 + c.val
    rfl)).trans ?_
  refine (pooled_apply _ _ c).trans ?_
  unfold LeNetSpec.conv1
  exact congrArg (fun y => LeNetSpec.pool1 y c) (funext fun q => preact_patchMat_apply x0 w1 b1 ph pw n q)

end Cert.KernelIdeal.Val

end
-- ==== Proof.KConv2.lean ====
/-
  The second convolution stage of the tile body, read at one entry.

  The 6 × 6 × 256 × 24 first pooled map is cut into its nine 4 × 4 windows at block offsets (u, v), u, v < 3, laid side by
  side along lanes — lane k = 72·u + 24·v + l of block (qh, qw), image n, is lane l of block (qh + u, qw + v) of image n —
  and read as a 4096 × 216 matrix whose row (4·qh + qw)·256 + n is the field of block (qh, qw) of image n. That row times
  the 216 × 64 weights plus the bias row is the dense layer on that image's field; the four 16-lane groups at lane
  offsets 0, 16, 32, 48 are the four pixels of the pooling cell, maxed pairwise and clamped at zero. Row s·256 + n of
  the result, read back as entry (s, n, ·) of a 16 × 256 × 16 array, is block (s / 4, s % 4) of image n: no entry depends
  on any other image of the tile.
-/
import proofs.«113019_g2000604803448687_pallaspilot1_85_2_alg».proof.Proof.Gen.KernelIdeal.Skeleton
import proofs.«113019_g2000604803448687_pallaspilot1_85_2_alg».proof.Proof.LeNetSpec
import proofs.«113019_g2000604803448687_pallaspilot1_85_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

/-- One piece of the concatenation along lanes: lane k of block (qh, qw), image n, lies in piece p = k / 24 — the window
    of the map at block offset (u, v) — at lane k % 24, so it is the map at block (u + qh, v + qw), image n, lane k % 24. -/
theorem conv2_piece_apply {α : Type} {xs : List ((s : Shape) × (s.Idx → α))}
    {hc : Shape.Concatenates (xs.map (·.1)) S4x4x256x216 3}
    (p u v : Nat) (x : S6x6x256x24.Idx → α) (hsl : S6x6x256x24.Slices ![u, v, 0, 0] S4x4x256x24)
    (hxk : xs[p]? = some ⟨S4x4x256x24, extractStridedSlice S4x4x256x24 ![u, v, 0, 0] x hsl⟩)
    (hpre : (((xs.take p).map (·.1)).map fun s =>
      if h : s.rank = S4x4x256x216.rank then s.size ((3 : Fin S4x4x256x216.rank).cast h.symm) else 0).sum = 24 * p)
    (qh qw : Fin 4) (n : Fin 256) (k : Fin 216) (hkp : k.val / 24 = p)
    (a0 a1 : Nat) (hb0 : a0 < 6) (hb1 : a1 < 6) (h0 : a0 = u + qh.val) (h1 : a1 = v + qw.val) :
    concatenate S4x4x256x216 3 xs hc (ix4 qh qw n k)
      = x (ix4 (⟨a0, hb0⟩ : Fin 6) (⟨a1, hb1⟩ : Fin 6) n (⟨k.val % 24, Nat.mod_lt _ (by decide)⟩ : Fin 24)) := by
  have hk : k.val < 216 := k.isLt
  obtain ⟨hp, hxk'⟩ := List.getElem?_eq_some_iff.mp hxk
  refine (concatenate_apply_piece 3 xs hc (ix4 qh qw n k) p hp S4x4x256x24 _ hxk' rfl (24 * p) hpre
    (ix4 qh qw n (⟨k.val % 24, Nat.mod_lt _ (by decide)⟩ : Fin 24))
    (fun b => match b with
      | ⟨0, _⟩ => fun _ => rfl
      | ⟨1, _⟩ => fun _ => rfl
      | ⟨2, _⟩ => fun _ => rfl
      | ⟨3, _⟩ => fun h => absurd rfl h)
    (by show 24 * p + k.val % 24 = k.val; omega)).trans ?_
  exact extractStridedSlice_apply _ x hsl _ _ (fun a => match a with
    | ⟨0, _⟩ => by show a0 = u + qh.val; exact h0
    | ⟨1, _⟩ => by show a1 = v + qw.val; exact h1
    | ⟨2, _⟩ => by show n.val = 0 + n.val; omega
    | ⟨3, _⟩ => by show k.val % 24 = 0 + k.val % 24; omega)

/-- The nine 4 × 4 windows of the 6 × 6 map of blocks, at block offsets (u, v), u, v < 3, laid side by side along lanes:
    lane k = 72·u + 24·v + l of block (qh, qw), image n, is lane l of block (qh + u, qw + v) of image n. -/
theorem conv2_patches_apply {α : Type} (x : S6x6x256x24.Idx → α)
    (h00 : S6x6x256x24.Slices ![0, 0, 0, 0] S4x4x256x24) (h01 : S6x6x256x24.Slices ![0, 1, 0, 0] S4x4x256x24)
    (h02 : S6x6x256x24.Slices ![0, 2, 0, 0] S4x4x256x24) (h10 : S6x6x256x24.Slices ![1, 0, 0, 0] S4x4x256x24)
    (h11 : S6x6x256x24.Slices ![1, 1, 0, 0] S4x4x256x24) (h12 : S6x6x256x24.Slices ![1, 2, 0, 0] S4x4x256x24)
    (h20 : S6x6x256x24.Slices ![2, 0, 0, 0] S4x4x256x24) (h21 : S6x6x256x24.Slices ![2, 1, 0, 0] S4x4x256x24)
    (h22 : S6x6x256x24.Slices ![2, 2, 0, 0] S4x4x256x24)
    (hc : Shape.Concatenates [S4x4x256x24, S4x4x256x24, S4x4x256x24, S4x4x256x24, S4x4x256x24, S4x4x256x24, S4x4x256x24,
      S4x4x256x24, S4x4x256x24] S4x4x256x216 3)
    (qh qw : Fin 4) (n : Fin 256) (k : Fin 216) :
    concatenate S4x4x256x216 3
        [⟨S4x4x256x24, extractStridedSlice S4x4x256x24 ![0, 0, 0, 0] x h00⟩,
          ⟨S4x4x256x24, extractStridedSlice S4x4x256x24 ![0, 1, 0, 0] x h01⟩,
          ⟨S4x4x256x24, extractStridedSlice S4x4x256x24 ![0, 2, 0, 0] x h02⟩,
          ⟨S4x4x256x24, extractStridedSlice S4x4x256x24 ![1, 0, 0, 0] x h10⟩,
          ⟨S4x4x256x24, extractStridedSlice S4x4x256x24 ![1, 1, 0, 0] x h11⟩,
          ⟨S4x4x256x24, extractStridedSlice S4x4x256x24 ![1, 2, 0, 0] x h12⟩,
          ⟨S4x4x256x24, extractStridedSlice S4x4x256x24 ![2, 0, 0, 0] x h20⟩,
          ⟨S4x4x256x24, extractStridedSlice S4x4x256x24 ![2, 1, 0, 0] x h21⟩,
          ⟨S4x4x256x24, extractStridedSlice S4x4x256x24 ![2, 2, 0, 0] x h22⟩] hc (ix4 qh qw n k)
      = x (ix4 (⟨qh.val + k.val / 72, by have := qh.isLt; have := k.isLt; omega⟩ : Fin 6)
          (⟨qw.val + k.val / 24 % 3, by have := qw.isLt; omega⟩ : Fin 6) n
          (⟨k.val % 24, Nat.mod_lt _ (by decide)⟩ : Fin 24)) := by
  have hk : k.val < 216 := k.isLt
  have hcases : k.val / 24 = 0 ∨ k.val / 24 = 1 ∨ k.val / 24 = 2 ∨ k.val / 24 = 3 ∨ k.val / 24 = 4 ∨ k.val / 24 = 5
      ∨ k.val / 24 = 6 ∨ k.val / 24 = 7 ∨ k.val / 24 = 8 := by omega
  rcases hcases with h | h | h | h | h | h | h | h | h
  · exact conv2_piece_apply 0 0 0 x h00 (by rfl) (by rfl) qh qw n k h _ _ _ _ (by omega) (by omega)
  · exact conv2_piece_apply 1 0 1 x h01 (by rfl) (by rfl) qh qw n k h _ _ _ _ (by omega) (by omega)
  · exact conv2_piece_apply 2 0 2 x h02 (by rfl) (by rfl) qh qw n k h _ _ _ _ (by omega) (by omega)
  · exact conv2_piece_apply 3 1 0 x h10 (by rfl) (by rfl) qh qw n k h _ _ _ _ (by omega) (by omega)
  · exact conv2_piece_apply 4 1 1 x h11 (by rfl) (by rfl) qh qw n k h _ _ _ _ (by omega) (by omega)
  · exact conv2_piece_apply 5 1 2 x h12 (by rfl) (by rfl) qh qw n k h _ _ _ _ (by omega) (by omega)
  · exact conv2_piece_apply 6 2 0 x h20 (by rfl) (by rfl) qh qw n k h _ _ _ _ (by omega) (by omega)
  · exact conv2_piece_apply 7 2 1 x h21 (by rfl) (by rfl) qh qw n k h _ _ _ _ (by omega) (by omega)
  · exact conv2_piece_apply 8 2 2 x h22 (by rfl) (by rfl) qh qw n k h _ _ _ _ (by omega) (by omega)

/-- The 4 × 4 × 256 × 216 array of fields read as a 4096 × 216 matrix: row (4·qh + qw)·256 + n is block (qh, qw) of image n. -/
theorem conv2_rows_apply {α : Type} (P : S4x4x256x216.Idx → α) (h : S4x4x256x216.ShapeCasts S4096x216)
    (qh qw : Fin 4) (n : Fin 256) (k : Fin 216) (r : Fin 4096) (hr : r.val = (qh.val * 4 + qw.val) * 256 + n.val) :
    shapeCast S4096x216 P h (ix2 r k) = P (ix4 qh qw n k) := by
  refine shapeCast_apply P h (ix2 r k) (ix4 qh qw n k) ?_
  rw [Shape.rowMajor_val_two, Shape.rowMajor_val_four]
  show ((qh.val * 4 + qw.val) * 256 + n.val) * 216 + k.val = r.val * 216 + k.val
  rw [hr]

/-- Row r, lane c of the fields times the weights plus the bias row: Σ_k field(r, k) · w (k, c) + b (0, c). -/
theorem conv2_pre_apply (A : FVec Ideal S4096x216 .f32) (w2 : Vec Ideal S216x64 .f32) (b2 : Vec Ideal S1x64 .f32)
    (hb : S1x64.Broadcasts S4096x64) (r : Fin 4096) (c : Fin 64) :
    addf (matmul (φ₂ := .f32) dot_S4096x216_S216x64_S4096x64_1_0_0_1_n_n none A w2 (constant S4096x64 .f32 0x00000000#32))
        (broadcastTo S4096x64 b2 hb) (ix2 r c)
      = (∑ k : Fin 216, A (ix2 r k) * w2 (ix2 k c)) + b2 (ix2 (0 : Fin 1) c) := by
  refine (addf_apply _ _ _).trans ?_
  refine congrArg₂ (· + ·) ?_ (broadcastTo_1b_ab_apply b2 hb r c)
  exact LibPlainMatmul.matmul_plain_zero_apply none A w2 r c

/-- Lane co of the 16-lane group at lane offset o, row (4·qh + qw)·256 + n, of the fields times the weights plus the bias:
    entry c = o + co of the dense layer on the field of block (qh, qw) of image n, whenever the array of fields holds
    that image's field at (qh, qw, n, ·). -/
theorem conv2_lane_apply (P : FVec Ideal S4x4x256x216 .f32) (w2 : Vec Ideal S216x64 .f32) (b2 : Vec Ideal S1x64 .f32)
    (hsc : S4x4x256x216.ShapeCasts S4096x216) (hb : S1x64.Broadcasts S4096x64)
    (o : Nat) (hsl : S4096x64.Slices ![0, o] S4096x16)
    (S : LeNetSpec.Map1) (qh qw : Fin 4) (n : Fin 256)
    (hP : ∀ k : Fin 216, P (ix4 qh qw n k) = LeNetSpec.patch2 S qh qw k)
    (r : Fin 4096) (hr : r.val = (qh.val * 4 + qw.val) * 256 + n.val) (co : Fin 16) (c : Fin 64) (hc : c.val = o + co.val) :
    extractStridedSlice S4096x16 ![0, o]
        (addf (matmul (φ₂ := .f32) dot_S4096x216_S216x64_S4096x64_1_0_0_1_n_n none (shapeCast S4096x216 P hsc) w2
            (constant S4096x64 .f32 0x00000000#32))
          (broadcastTo S4096x64 b2 hb)) hsl (ix2 r co)
      = LeNetSpec.dense (LeNetSpec.patch2 S qh qw) w2 b2 c := by
  refine (slice2_axis1_apply o _ hsl r co c hc).trans ?_
  refine (conv2_pre_apply _ w2 b2 hb r c).trans ?_
  unfold LeNetSpec.dense
  refine congrArg₂ (· + ·) (Finset.sum_congr rfl fun k _ => ?_) rfl
  refine congrArg₂ (· * ·) ?_ rfl
  exact (conv2_rows_apply P hsc qh qw n k r hr).trans (hP k)

/-- Entry (s, n, co) of the second pooled map of a tile of 256 images — block s = 4·qh + qw, image n, channel co — is
    the second convolution of image n's first pooled map alone. -/
theorem conv2_apply (s1 : FVec Ideal S6x6x256x24 .f32) (w2 : Vec Ideal S216x64 .f32) (b2 : Vec Ideal S1x64 .f32)
    (s : Fin 16) (n : Fin 256) (co : Fin 16) :
    k0_pay4 (F := Ideal) s1 w2 b2 (ix3 s n co)
      = LeNetSpec.conv2 (fun a b c => s1 (ix4 a b n c)) w2 b2
          ⟨s.val / 4, by have := s.isLt; omega⟩ ⟨s.val % 4, by omega⟩ co := by
  have hs : s.val < 16 := s.isLt
  have hn : n.val < 256 := n.isLt
  have hco : co.val < 16 := co.isLt
  -- row s·256 + n of the 4096-row matrices is block (s / 4, s % 4) of image n
  have hr : s.val * 256 + n.val = (s.val / 4 * 4 + s.val % 4) * 256 + n.val := by omega
  unfold k0_pay4
  -- the last reshape: entry (s, n, co) of the 16 × 256 × 16 array is entry (s·256 + n, co) of the 4096 × 16 matrix
  refine (shapeCast_apply _ _ (ix3 s n co) (ix2 (⟨s.val * 256 + n.val, by omega⟩ : Fin 4096) co) ?_).trans ?_
  · rw [Shape.rowMajor_val_two, Shape.rowMajor_val_three]
    rfl
  unfold LeNetSpec.conv2 LeNetSpec.pool2 LeNetSpec.relu LeNetSpec.max4
  -- the rectifier, then the two levels of pairwise maxima over the four 16-lane groups
  refine (maximumf_apply _ _ _).trans ?_
  refine congrArg₂ max ?_ rfl
  refine (maximumf_apply _ _ _).trans ?_
  refine congrArg₂ max ?_ ?_
  · refine (maximumf_apply _ _ _).trans ?_
    refine congrArg₂ max ?_ ?_
    · exact conv2_lane_apply _ w2 b2 _ _ 0 _ (fun a b c => s1 (ix4 a b n c)) _ _ n
        (fun k => conv2_patches_apply s1 _ _ _ _ _ _ _ _ _ _ _ _ n k) _ hr co _ (by show co.val = 0 + co.val; omega)
    · exact conv2_lane_apply _ w2 b2 _ _ 16 _ (fun a b c => s1 (ix4 a b n c)) _ _ n
        (fun k => conv2_patches_apply s1 _ _ _ _ _ _ _ _ _ _ _ _ n k) _ hr co _ rfl
  · refine (maximumf_apply _ _ _).trans ?_
    refine congrArg₂ max ?_ ?_
    · exact conv2_lane_apply _ w2 b2 _ _ 32 _ (fun a b c => s1 (ix4 a b n c)) _ _ n
        (fun k => conv2_patches_apply s1 _ _ _ _ _ _ _ _ _ _ _ _ n k) _ hr co _ rfl
    · exact conv2_lane_apply _ w2 b2 _ _ 48 _ (fun a b c => s1 (ix4 a b n c)) _ _ n
        (fun k => conv2_patches_apply s1 _ _ _ _ _ _ _ _ _ _ _ _ n k) _ hr co _ rfl

end Cert.KernelIdeal.Val

end
-- ==== Proof.KFeat.lean ====
/-
  The feature matrix of the tile body, read at one entry.
  Column k of the feature matrix lies in the piece numbered k / 16 of the sixteen laid side by side, at column k % 16 of
  that piece; piece s is block s of the 16 × 256 × 16 pooled map, flattened to 256 × 16 (image, channel).
-/
import proofs.«113019_g2000604803448687_pallaspilot1_85_2_alg».proof.Proof.Gen.KernelIdeal.Skeleton
import proofs.«113019_g2000604803448687_pallaspilot1_85_2_alg».proof.Proof.LeNetSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

/-- Block s of a 16 × 256 × 16 array, cut out as the 1 × 256 × 16 slice at offset (s, 0, 0) and flattened to
    256 × 16 (image, channel): entry (n, c) of the flattened block is the array at (s, n, c). The flattening keeps the
    row-major position, (0 · 256 + n) · 16 + c = n · 16 + c; the slice shifts the first coordinate by s. -/
theorem feat_block_apply {α : Type} (v : S16x256x16.Idx → α) (s : Fin 16) (off : Fin S16x256x16.rank → Nat)
    (h0 : off 0 = s.val) (h1 : off 1 = 0) (h2 : off 2 = 0)
    (h : S16x256x16.Slices off S1x256x16) (hc : S1x256x16.ShapeCasts S256x16) (n : Fin 256) (c : Fin 16) :
    shapeCast S256x16 (extractStridedSlice S1x256x16 off v h) hc (ix2 n c) = v (ix3 s n c) := by
  refine (shapeCast_apply _ hc (ix2 n c) (ix3 (0 : Fin 1) n c) (by
    rw [Shape.rowMajor_val_three, Shape.rowMajor_val_two]
    show (0 * 256 + n.val) * 16 + c.val = n.val * 16 + c.val
    omega)).trans ?_
  exact extractStridedSlice_apply off v h (ix3 (0 : Fin 1) n c) (ix3 s n c) (fun a => match a with
    | ⟨0, _⟩ => by show s.val = off 0 + 0; omega
    | ⟨1, _⟩ => by show n.val = off 1 + n.val; omega
    | ⟨2, _⟩ => by show c.val = off 2 + c.val; omega)

/-- Sixteen matrices of 256 rows and 16 columns each laid side by side along the column axis: the s pieces before piece s
    are together 16 · s columns wide, so column k = 16 · s + c of row n of the result is column c of row n of piece s. -/
theorem feat_piece_col_apply {α : Type} (xs : List ((s : Shape) × (s.Idx → α)))
    (h : Shape.Concatenates (xs.map (·.1)) (⟨2, ![256, LeNetSpec.nFeat]⟩ : Shape) 1)
    (hsh : xs.map (·.1) = List.replicate 16 S256x16) (n : Fin 256) (k : Fin LeNetSpec.nFeat)
    (s : Nat) (hs : s < xs.length) (x₁ : S256x16.Idx → α) (hxk : xs[s] = ⟨S256x16, x₁⟩)
    (hk : (LeNetSpec.featBlock k).val = s) :
    concatenate _ 1 xs h (ix2 n k) = x₁ (ix2 n (LeNetSpec.featChan k)) := by
  obtain ⟨hsplit, hlt⟩ := LeNetSpec.feat_split k
  have hs16 : s < 16 := by have := (LeNetSpec.featBlock k).isLt; omega
  refine concatenate_apply_piece _ xs h (ix2 n k) s hs S256x16 x₁ hxk rfl (16 * s) ?_ (ix2 n (LeNetSpec.featChan k))
    (fun b => match b with | ⟨0, _⟩ => fun _ => rfl | ⟨1, _⟩ => fun hne => absurd rfl hne)
    (by show 16 * s + (LeNetSpec.featChan k).val = k.val; omega)
  rw [List.map_take, hsh, List.take_replicate, List.map_replicate, List.sum_replicate]
  rw [dif_pos rfl, smul_eq_mul, Nat.min_eq_left (Nat.le_of_lt hs16)]
  show s * 16 = 16 * s
  omega

/-- The sixteen blocks of the second pooled map, each a 256 × 16 matrix (image, channel), laid side by side: entry
    (n, k) of the feature matrix is block k / 16, image n, channel k % 16 of that map. -/
theorem feat_apply (s1 : FVec Ideal S6x6x256x24 .f32) (w2 : Vec Ideal S216x64 .f32) (b2 : Vec Ideal S1x64 .f32)
    (n : Fin 256) (k : Fin LeNetSpec.nFeat) :
    k0_pay1 (F := Ideal) (k0_pay4 s1 w2 b2) (k0_pay5 s1 w2 b2) (k0_pay6 s1 w2 b2) (k0_pay7 s1 w2 b2) (k0_pay8 s1 w2 b2) (k0_pay9 s1 w2 b2) (k0_pay10 s1 w2 b2) (k0_pay11 s1 w2 b2) (k0_pay12 s1 w2 b2) (k0_pay13 s1 w2 b2) (k0_pay14 s1 w2 b2) (k0_pay15 s1 w2 b2) (k0_pay16 s1 w2 b2) (k0_pay17 s1 w2 b2) (k0_pay18 s1 w2 b2) (ix2 n k)
      = k0_pay4 (F := Ideal) s1 w2 b2 (ix3 (LeNetSpec.featBlock k) n (LeNetSpec.featChan k)) := by
  have hb : (LeNetSpec.featBlock k).val < 16 := (LeNetSpec.featBlock k).isLt
  unfold k0_pay1
  -- column k lies in piece k / 16 (the pieces before it are 16 columns wide each), at column k % 16 of that piece;
  -- piece s is block s of the pooled map flattened to (image, channel)
  have hcases : (LeNetSpec.featBlock k).val = 0 ∨ (LeNetSpec.featBlock k).val = 1 ∨ (LeNetSpec.featBlock k).val = 2
      ∨ (LeNetSpec.featBlock k).val = 3 ∨ (LeNetSpec.featBlock k).val = 4 ∨ (LeNetSpec.featBlock k).val = 5
      ∨ (LeNetSpec.featBlock k).val = 6 ∨ (LeNetSpec.featBlock k).val = 7 ∨ (LeNetSpec.featBlock k).val = 8
      ∨ (LeNetSpec.featBlock k).val = 9 ∨ (LeNetSpec.featBlock k).val = 10 ∨ (LeNetSpec.featBlock k).val = 11
      ∨ (LeNetSpec.featBlock k).val = 12 ∨ (LeNetSpec.featBlock k).val = 13 ∨ (LeNetSpec.featBlock k).val = 14
      ∨ (LeNetSpec.featBlock k).val = 15 := by omega
  rcases hcases with hs | hs | hs | hs | hs | hs | hs | hs | hs | hs | hs | hs | hs | hs | hs | hs
  · exact (feat_piece_col_apply _ _ rfl n k 0 (by show 0 < 16; omega) _ rfl hs).trans
      (feat_block_apply _ (LeNetSpec.featBlock k) _ (by show 0 = _; omega) rfl rfl _ _ n (LeNetSpec.featChan k))
  · exact (feat_piece_col_apply _ _ rfl n k 1 (by show 1 < 16; omega) _ rfl hs).trans
      (feat_block_apply _ (LeNetSpec.featBlock k) _ (by show 1 = _; omega) rfl rfl _ _ n (LeNetSpec.featChan k))
  · exact (feat_piece_col_apply _ _ rfl n k 2 (by show 2 < 16; omega) _ rfl hs).trans
      (feat_block_apply _ (LeNetSpec.featBlock k) _ (by show 2 = _; omega) rfl rfl _ _ n (LeNetSpec.featChan k))
  · exact (feat_piece_col_apply _ _ rfl n k 3 (by show 3 < 16; omega) _ rfl hs).trans
      (feat_block_apply _ (LeNetSpec.featBlock k) _ (by show 3 = _; omega) rfl rfl _ _ n (LeNetSpec.featChan k))
  · exact (feat_piece_col_apply _ _ rfl n k 4 (by show 4 < 16; omega) _ rfl hs).trans
      (feat_block_apply _ (LeNetSpec.featBlock k) _ (by show 4 = _; omega) rfl rfl _ _ n (LeNetSpec.featChan k))
  · exact (feat_piece_col_apply _ _ rfl n k 5 (by show 5 < 16; omega) _ rfl hs).trans
      (feat_block_apply _ (LeNetSpec.featBlock k) _ (by show 5 = _; omega) rfl rfl _ _ n (LeNetSpec.featChan k))
  · exact (feat_piece_col_apply _ _ rfl n k 6 (by show 6 < 16; omega) _ rfl hs).trans
      (feat_block_apply _ (LeNetSpec.featBlock k) _ (by show 6 = _; omega) rfl rfl _ _ n (LeNetSpec.featChan k))
  · exact (feat_piece_col_apply _ _ rfl n k 7 (by show 7 < 16; omega) _ rfl hs).trans
      (feat_block_apply _ (LeNetSpec.featBlock k) _ (by show 7 = _; omega) rfl rfl _ _ n (LeNetSpec.featChan k))
  · exact (feat_piece_col_apply _ _ rfl n k 8 (by show 8 < 16; omega) _ rfl hs).trans
      (feat_block_apply _ (LeNetSpec.featBlock k) _ (by show 8 = _; omega) rfl rfl _ _ n (LeNetSpec.featChan k))
  · exact (feat_piece_col_apply _ _ rfl n k 9 (by show 9 < 16; omega) _ rfl hs).trans
      (feat_block_apply _ (LeNetSpec.featBlock k) _ (by show 9 = _; omega) rfl rfl _ _ n (LeNetSpec.featChan k))
  · exact (feat_piece_col_apply _ _ rfl n k 10 (by show 10 < 16; omega) _ rfl hs).trans
      (feat_block_apply _ (LeNetSpec.featBlock k) _ (by show 10 = _; omega) rfl rfl _ _ n (LeNetSpec.featChan k))
  · exact (feat_piece_col_apply _ _ rfl n k 11 (by show 11 < 16; omega) _ rfl hs).trans
      (feat_block_apply _ (LeNetSpec.featBlock k) _ (by show 11 = _; omega) rfl rfl _ _ n (LeNetSpec.featChan k))
  · exact (feat_piece_col_apply _ _ rfl n k 12 (by show 12 < 16; omega) _ rfl hs).trans
      (feat_block_apply _ (LeNetSpec.featBlock k) _ (by show 12 = _; omega) rfl rfl _ _ n (LeNetSpec.featChan k))
  · exact (feat_piece_col_apply _ _ rfl n k 13 (by show 13 < 16; omega) _ rfl hs).trans
      (feat_block_apply _ (LeNetSpec.featBlock k) _ (by show 13 = _; omega) rfl rfl _ _ n (LeNetSpec.featChan k))
  · exact (feat_piece_col_apply _ _ rfl n k 14 (by show 14 < 16; omega) _ rfl hs).trans
      (feat_block_apply _ (LeNetSpec.featBlock k) _ (by show 14 = _; omega) rfl rfl _ _ n (LeNetSpec.featChan k))
  · exact (feat_piece_col_apply _ _ rfl n k 15 (by show 15 < 16; omega) _ rfl hs).trans
      (feat_block_apply _ (LeNetSpec.featBlock k) _ (by show 15 = _; omega) rfl rfl _ _ n (LeNetSpec.featChan k))

end Cert.KernelIdeal.Val

end
-- ==== Proof.KFc.lean ====
/-
  The three dense layers of the tile body, read at one entry.

  Each layer is a matrix product accumulated into zero plus a bias row repeated down the rows; entry (a, q) of such a
  layer depends only on row a of its input: it is Σ_c A (a, c) · W (c, q) + b (0, q). The rectifier between layers acts
  entrywise, so entry (n, j) of the third layer is the three dense layers applied to row n of the feature matrix.
-/
import proofs.«113019_g2000604803448687_pallaspilot1_85_2_alg».proof.Proof.Gen.KernelIdeal.Skeleton
import proofs.«113019_g2000604803448687_pallaspilot1_85_2_alg».proof.Proof.LeNetSpec
import proofs.«113019_g2000604803448687_pallaspilot1_85_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen

/-- One dense layer of the tile read at the entry (a, q): the product of the m × k activations with the k × n weights,
    accumulated into zero, plus the bias row repeated down the m rows, is the dense layer of row a alone. -/
theorem dense_tile_apply {m k n : Nat} (d : DotDims ⟨2, ![m, k]⟩ ⟨2, ![k, n]⟩ ⟨2, ![m, n]⟩) (hd : d = DotDims.plain m k n)
    (A : FVec Ideal ⟨2, ![m, k]⟩ .f32) (W : FVec Ideal ⟨2, ![k, n]⟩ .f32) (b : FVec Ideal ⟨2, ![1, n]⟩ .f32)
    (hb : (⟨2, ![1, n]⟩ : Shape).Broadcasts ⟨2, ![m, n]⟩) (a : Fin m) (q : Fin n) :
    addf (F := Ideal) (matmul d none A W (constant (⟨2, ![m, n]⟩ : Shape) .f32 0x00000000#32))
        (broadcastTo (⟨2, ![m, n]⟩ : Shape) b hb) (ix2 a q)
      = LeNetSpec.dense (fun c => A (ix2 a c)) W b q := by
  subst hd
  show matmul (DotDims.plain m k n) none A W (constant (⟨2, ![m, n]⟩ : Shape) .f32 0x00000000#32) (ix2 a q)
      + broadcastTo (⟨2, ![m, n]⟩ : Shape) b hb (ix2 a q) = _
  rw [LibPlainMatmul.matmul_plain_zero_apply, broadcastTo_1b_ab_apply]
  rfl

/-- Row n of the three dense layers on a 256-row feature matrix is the three dense layers on row n alone. -/
theorem fc_apply (f : FVec Ideal S256x256 .f32) (wf1 : Vec Ideal LeNetSpec.WF1 .f32) (bf1 : Vec Ideal S1x120 .f32)
    (wf2 : Vec Ideal S120x84 .f32) (bf2 : Vec Ideal S1x84 .f32) (wf3 : Vec Ideal S84x128 .f32) (bf3 : Vec Ideal S1x128 .f32)
    (n : Fin 256) (j : Fin 128) :
    k0_pay2 (F := Ideal) f wf1 bf1 wf2 bf2 wf3 bf3 (ix2 n j)
      = LeNetSpec.fc (fun k => f (ix2 n k)) wf1 bf1 wf2 bf2 wf3 bf3 j := by
  unfold k0_pay2 LeNetSpec.fc
  -- the third layer at (n, j): its input row is the rectified second layer at row n
  refine (dense_tile_apply _ rfl _ wf3 bf3 _ n j).trans ?_
  refine congrArg (fun x => LeNetSpec.dense x wf3 bf3 j) (funext fun q => ?_)
  refine congrArg (fun x => max x (Ideal.ofBits .f32 0x00000000#32)) ?_
  -- the second layer at (n, q): its input row is the rectified first layer at row n
  refine (dense_tile_apply _ rfl _ wf2 bf2 _ n q).trans ?_
  refine congrArg (fun x => LeNetSpec.dense x wf2 bf2 q) (funext fun p => ?_)
  refine congrArg (fun x => max x (Ideal.ofBits .f32 0x00000000#32)) ?_
  -- the first layer at (n, p): its input row is row n of the feature matrix
  exact dense_tile_apply _ rfl f wf1 bf1 _ n p

end Cert.KernelIdeal.Val

end
-- ==== Proof.KBlock.lean ====
/-
  One tile of the kernel: what the body leaves in the output block, entry by entry. Row n of the 256 × 128 block is the
  network applied to image n of the tile — the composition of the four stages, each of which keeps the images apart.
-/
import proofs.«113019_g2000604803448687_pallaspilot1_85_2_alg».proof.Proof.Gen.KernelIdeal.Frame
import proofs.«113019_g2000604803448687_pallaspilot1_85_2_alg».proof.Proof.LeNetSpec
import proofs.«113019_g2000604803448687_pallaspilot1_85_2_alg».proof.Proof.KBridge
import proofs.«113019_g2000604803448687_pallaspilot1_85_2_alg».proof.Proof.KConv1
import proofs.«113019_g2000604803448687_pallaspilot1_85_2_alg».proof.Proof.KConv2
import proofs.«113019_g2000604803448687_pallaspilot1_85_2_alg».proof.Proof.KFeat
import proofs.«113019_g2000604803448687_pallaspilot1_85_2_alg».proof.Proof.KFc
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody

noncomputable section

namespace Cert.KernelIdeal.Val

open Idealize.ShloMosaic Idealize.ShloMosaic.ValueIdx Cert.KernelIdeal Cert.KernelIdeal.Gen

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The second pooled map's features of image n, from the tile's input block: the feature matrix's row n. -/
theorem feats_row (x0 : Vec Ideal S7x7x256x16 .f32) (x1 : Vec Ideal S64x96 .f32) (x2 : Vec Ideal S1x96 .f32)
    (x3 : Vec Ideal S216x64 .f32) (x4 : Vec Ideal S1x64 .f32) (n : Fin 256) (k : Fin LeNetSpec.nFeat) :
    k0_pay1 (F := Ideal) (k0_pay4 (k0_pay3 x0 x1 x2) x3 x4) (k0_pay5 (k0_pay3 x0 x1 x2) x3 x4) (k0_pay6 (k0_pay3 x0 x1 x2) x3 x4) (k0_pay7 (k0_pay3 x0 x1 x2) x3 x4) (k0_pay8 (k0_pay3 x0 x1 x2) x3 x4) (k0_pay9 (k0_pay3 x0 x1 x2) x3 x4) (k0_pay10 (k0_pay3 x0 x1 x2) x3 x4) (k0_pay11 (k0_pay3 x0 x1 x2) x3 x4) (k0_pay12 (k0_pay3 x0 x1 x2) x3 x4) (k0_pay13 (k0_pay3 x0 x1 x2) x3 x4) (k0_pay14 (k0_pay3 x0 x1 x2) x3 x4) (k0_pay15 (k0_pay3 x0 x1 x2) x3 x4) (k0_pay16 (k0_pay3 x0 x1 x2) x3 x4) (k0_pay17 (k0_pay3 x0 x1 x2) x3 x4) (k0_pay18 (k0_pay3 x0 x1 x2) x3 x4) (ix2 n k)
      = LeNetSpec.feats (LeNetSpec.conv1 (fun hh ww l => x0 (ix4 hh ww n l)) x1 x2) x3 x4 k := by
  rw [feat_apply, conv2_apply]
  unfold LeNetSpec.feats
  have hs : (fun a b c => k0_pay3 (F := Ideal) x0 x1 x2 (ix4 a b n c))
      = LeNetSpec.conv1 (fun hh ww l => x0 (ix4 hh ww n l)) x1 x2 := by
    funext a b c; exact conv1_apply x0 x1 x2 a b n c
  rw [hs]

/-- Entry (n, j) of the block the body stores is lane j of the network on image n of the tile. -/
theorem out_apply (x0 : Vec Ideal S7x7x256x16 .f32) (x1 : Vec Ideal S64x96 .f32) (x2 : Vec Ideal S1x96 .f32)
    (x3 : Vec Ideal S216x64 .f32) (x4 : Vec Ideal S1x64 .f32) (x5 : Vec Ideal LeNetSpec.WF1 .f32) (x6 : Vec Ideal S1x120 .f32)
    (x7 : Vec Ideal S120x84 .f32) (x8 : Vec Ideal S1x84 .f32) (x9 : Vec Ideal S84x128 .f32) (x10 : Vec Ideal S1x128 .f32)
    (n : Fin 256) (j : Fin 128) :
    out0_11 (F := Ideal) x0 x1 x2 x3 x4 x5 x6 x7 x8 x9 x10 (ix2 n j)
      = LeNetSpec.lenet (fun hh ww l => x0 (ix4 hh ww n l)) x1 x2 x3 x4 x5 x6 x7 x8 x9 x10 j := by
  rw [out0_11_eq, View.canon_unit_zero zeros2]
  simp only [View.ld_unit_zero (S := S7x7x256x16) zeros4, View.ld_unit_zero (S := S64x96) zeros2,
    View.ld_unit_zero (S := S1x96) zeros2, View.ld_unit_zero (S := S216x64) zeros2, View.ld_unit_zero (S := S1x64) zeros2,
    View.ld_unit_zero (S := LeNetSpec.WF1) zeros2, View.ld_unit_zero (S := S1x120) zeros2, View.ld_unit_zero (S := S120x84) zeros2,
    View.ld_unit_zero (S := S1x84) zeros2, View.ld_unit_zero (S := S84x128) zeros2, View.ld_unit_zero (S := S1x128) zeros2]
  rw [fc_apply]
  unfold LeNetSpec.lenet
  have hf : (fun k => k0_pay1 (F := Ideal) (k0_pay4 (k0_pay3 x0 x1 x2) x3 x4) (k0_pay5 (k0_pay3 x0 x1 x2) x3 x4) (k0_pay6 (k0_pay3 x0 x1 x2) x3 x4) (k0_pay7 (k0_pay3 x0 x1 x2) x3 x4) (k0_pay8 (k0_pay3 x0 x1 x2) x3 x4) (k0_pay9 (k0_pay3 x0 x1 x2) x3 x4) (k0_pay10 (k0_pay3 x0 x1 x2) x3 x4) (k0_pay11 (k0_pay3 x0 x1 x2) x3 x4) (k0_pay12 (k0_pay3 x0 x1 x2) x3 x4) (k0_pay13 (k0_pay3 x0 x1 x2) x3 x4) (k0_pay14 (k0_pay3 x0 x1 x2) x3 x4) (k0_pay15 (k0_pay3 x0 x1 x2) x3 x4) (k0_pay16 (k0_pay3 x0 x1 x2) x3 x4) (k0_pay17 (k0_pay3 x0 x1 x2) x3 x4) (k0_pay18 (k0_pay3 x0 x1 x2) x3 x4) (ix2 n k))
      = LeNetSpec.feats (LeNetSpec.conv1 (fun hh ww l => x0 (ix4 hh ww n l)) x1 x2) x3 x4 := by
    funext k; exact feats_row x0 x1 x2 x3 x4 n k
  rw [hf]

end Cert.KernelIdeal.Val

end
-- ==== Proof.KHost.lean ====
/-
  The array the kernel's region is launched on: the batch of images, space-to-depth by four.
-/
import proofs.«113019_g2000604803448687_pallaspilot1_85_2_alg».proof.Proof.Gen.KernelIdeal.Frame
import proofs.«113019_g2000604803448687_pallaspilot1_85_2_alg».proof.Proof.LeNetSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

namespace Cert.KernelIdeal.Val

open Idealize.ShloMosaic Idealize.ShloMosaic.ValueIdx Idealize.ShloMosaic.TcCoe Cert.KernelIdeal Cert.KernelIdeal.Gen

variable (m : (ℓ : Loc nD τ sig) → Buf (Elt Ideal) ℓ)

/-- Space-to-depth by four, read at an index. The batch x of shape (image, 1, 28, 28) is viewed as (image, 28, 28), then as
    (image, 7, 4, 7, 4) — row 4·hh + a is (hh, a), column 4·ww + b is (ww, b) —, its axes are reordered to
    (hh, ww, image, a, b), and the last two axes are merged into one lane l = 4·a + b. Entry (hh, ww, N, l) of the result is
    therefore pixel (4·hh + l / 4, 4·ww + l % 4) of image N. -/
theorem x4_spaceToDepth_apply (x : S16384x1x28x28.Idx → EReal)
    (h0 : S16384x1x28x28.ShapeCasts S16384x28x28) (h1 : S16384x28x28.ShapeCasts S16384x7x4x7x4)
    (h2 : S16384x7x4x7x4.Transposes [1, 3, 0, 2, 4] S7x7x16384x4x4) (h3 : S7x7x16384x4x4.ShapeCasts S7x7x16384x16)
    (hh ww : Fin 7) (N : Fin 16384) (l : Fin 16) :
    shapeCast S7x7x16384x16 (transpose S7x7x16384x4x4 [1, 3, 0, 2, 4] (shapeCast S16384x7x4x7x4 (shapeCast S16384x28x28 x h0) h1) h2) h3
        (ix4 hh ww N l)
      = x (ix4 N (0 : Fin 1) (⟨4 * hh.val + l.val / 4, by have := hh.isLt; have := l.isLt; omega⟩ : Fin 28)
          (⟨4 * ww.val + l.val % 4, by have := ww.isLt; omega⟩ : Fin 28)) := by
  have hhh : hh.val < 7 := hh.isLt
  have hww : ww.val < 7 := ww.isLt
  have hN : N.val < 16384 := N.isLt
  have hl : l.val < 16 := l.isLt
  -- lane l of the merged axis is the pair (l / 4, l % 4)
  refine (shapeCast_apply _ h3 (ix4 hh ww N l)
    (ix5 hh ww N (⟨l.val / 4, by omega⟩ : Fin 4) (⟨l.val % 4, by omega⟩ : Fin 4))
    (by rw [Shape.rowMajor_val_five, Shape.rowMajor_val_four]
        show (((hh.val * 7 + ww.val) * 16384 + N.val) * 4 + l.val / 4) * 4 + l.val % 4
          = ((hh.val * 7 + ww.val) * 16384 + N.val) * 16 + l.val
        omega)).trans ?_
  -- the reordering: result axes (hh, ww, image, a, b) are source axes (1, 3, 0, 2, 4)
  refine (transpose_apply _ _ h2 _
    (ix5 N hh (⟨l.val / 4, by omega⟩ : Fin 4) ww (⟨l.val % 4, by omega⟩ : Fin 4))
    (fun b => match b with | ⟨0, _⟩ => rfl | ⟨1, _⟩ => rfl | ⟨2, _⟩ => rfl | ⟨3, _⟩ => rfl | ⟨4, _⟩ => rfl)).trans ?_
  -- row (hh, a) is row 4·hh + a, column (ww, b) is column 4·ww + b
  refine (shapeCast_apply _ h1 _
    (ix3 N (⟨4 * hh.val + l.val / 4, by omega⟩ : Fin 28) (⟨4 * ww.val + l.val % 4, by omega⟩ : Fin 28))
    (by rw [Shape.rowMajor_val_three, Shape.rowMajor_val_five]
        show (N.val * 28 + (4 * hh.val + l.val / 4)) * 28 + (4 * ww.val + l.val % 4)
          = (((N.val * 7 + hh.val) * 4 + l.val / 4) * 7 + ww.val) * 4 + l.val % 4
        omega)).trans ?_
  -- the unit channel axis
  exact shapeCast_apply _ h0 _ _
    (by rw [Shape.rowMajor_val_four, Shape.rowMajor_val_three]
        show ((N.val * 1 + 0) * 28 + (4 * hh.val + l.val / 4)) * 28 + (4 * ww.val + l.val % 4)
          = (N.val * 28 + (4 * hh.val + l.val / 4)) * 28 + (4 * ww.val + l.val % 4)
        omega)

/-- The region's first operand — the input reshaped to (image, 7, 4, 7, 4), transposed to (7, 7, image, 4, 4) and
    reshaped to (7, 7, image, 16) — holds at (hh, ww, N, l) pixel (4·hh + l / 4, 4·ww + l % 4) of image N. -/
theorem x4_apply (c : Dev nD) (hh ww : Fin 7) (N : Fin 16384) (l : Fin 16) :
    (V m c main_v3 : S7x7x16384x16.Idx → EReal) (ix4 hh ww N l)
      = LeNetSpec.image (m ((c.tc : Thread nD τ).loc main_arg0)) N hh ww l := by
  have e : (V m c main_v3 : S7x7x16384x16.Idx → EReal)
      = shapeCast S7x7x16384x16 (transpose S7x7x16384x4x4 [1, 3, 0, 2, 4]
          (shapeCast S16384x7x4x7x4 (shapeCast S16384x28x28
            (m ((c.tc : Thread nD τ).loc main_arg0) : S16384x1x28x28.Idx → EReal)
            shapeCasts_S16384x1x28x28_S16384x28x28) shapeCasts_S16384x28x28_S16384x7x4x7x4)
          transposes_S16384x7x4x7x4_S7x7x16384x4x4_1_3_0_2_4) shapeCasts_S7x7x16384x4x4_S7x7x16384x16 := by
    show StableHlo.after hostOps0 (fun b => m (c, b)) (Proc.devRef .tc main_v3) = _
    after_results
    rfl
  refine (congrFun e (ix4 hh ww N l)).trans ?_
  exact x4_spaceToDepth_apply _ _ _ _ _ hh ww N l

end Cert.KernelIdeal.Val

end
-- ==== Proof.KArray.lean ====
/-
  From the tiles to the whole result: the kernel's run, with its result array named.

  The region's result array has one row per image of the batch. Grid point t handles the tile of the 256 images from
  image 256·t on: it reads those images' slab of the space-to-depth input and the ten parameter arrays whole, and
  writes the 256 rows of the result from row 256·t on. Row n of a tile's block is the network on image n of the tile,
  so row N of the array is the network on image N; the tiles' row ranges cover the array; the program returns the
  first ten lanes of every row.
-/
import proofs.«113019_g2000604803448687_pallaspilot1_85_2_alg».proof.Proof.Gen.KernelIdeal.Frame
import proofs.«113019_g2000604803448687_pallaspilot1_85_2_alg».proof.Proof.LeNetSpec
import proofs.«113019_g2000604803448687_pallaspilot1_85_2_alg».proof.Proof.KBlock
import proofs.«113019_g2000604803448687_pallaspilot1_85_2_alg».proof.Proof.KHost
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

-- the facts decided over every grid point are elaborated one at a time
set_option Elab.async false

noncomputable section

namespace Cert.KernelIdeal.Val

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-! ## The blocks a grid point reads -/

/-- Each window's block at a grid point, named at its own shape: the tile of images, -/
abbrev xblk0 (c : Dev nD) (t : Fin cfg0.N) : Vec Ideal S7x7x256x16 .f32 := iblk m c 0 t
/-- and the ten parameter arrays. -/
abbrev xblk1 (c : Dev nD) (t : Fin cfg0.N) : Vec Ideal S64x96 .f32 := iblk m c 1 t
abbrev xblk2 (c : Dev nD) (t : Fin cfg0.N) : Vec Ideal S1x96 .f32 := iblk m c 2 t
abbrev xblk3 (c : Dev nD) (t : Fin cfg0.N) : Vec Ideal S216x64 .f32 := iblk m c 3 t
abbrev xblk4 (c : Dev nD) (t : Fin cfg0.N) : Vec Ideal S1x64 .f32 := iblk m c 4 t
abbrev xblk5 (c : Dev nD) (t : Fin cfg0.N) : Vec Ideal LeNetSpec.WF1 .f32 := iblk m c 5 t
abbrev xblk6 (c : Dev nD) (t : Fin cfg0.N) : Vec Ideal S1x120 .f32 := iblk m c 6 t
abbrev xblk7 (c : Dev nD) (t : Fin cfg0.N) : Vec Ideal S120x84 .f32 := iblk m c 7 t
abbrev xblk8 (c : Dev nD) (t : Fin cfg0.N) : Vec Ideal S1x84 .f32 := iblk m c 8 t
abbrev xblk9 (c : Dev nD) (t : Fin cfg0.N) : Vec Ideal S84x128 .f32 := iblk m c 9 t
abbrev xblk10 (c : Dev nD) (t : Fin cfg0.N) : Vec Ideal S1x128 .f32 := iblk m c 10 t

/-- The whole result array of the region: row N is the network on image N of the batch. -/
abbrev G (c : Dev nD) : S16384x128.Idx → EReal := fun i =>
  LeNetSpec.lenet (LeNetSpec.image (m ((c.tc : Thread nD τ).loc main_arg0)) (i 0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10)) (i 1)

/-- Where the image window's block lies at grid point t: block t of its image axis, block zero of the three others. -/
theorem img_idx : ∀ t : Fin cfg0.N, win0_0.index t (0 : Fin 4) = 0 ∧ win0_0.index t (1 : Fin 4) = 0
    ∧ win0_0.index t (2 : Fin 4) = t.val ∧ win0_0.index t (3 : Fin 4) = 0 :=
  (by decide +kernel : ∀ t : Fin grid0.N, _)
/-- The result window's block: block t of its rows, block zero of its lanes. -/
theorem out_idx : ∀ t : Fin cfg0.N, win0_11.index t (0 : Fin 2) = t.val ∧ win0_11.index t (1 : Fin 2) = 0 :=
  (by decide +kernel : ∀ t : Fin grid0.N, _)
/-- Each parameter window's block: block zero of both axes, at every grid point. -/
theorem par_idx1 : ∀ t : Fin cfg0.N, ∀ a : Fin 2, win0_1.index t a = 0 :=
  (by decide +kernel : ∀ t : Fin grid0.N, _)
theorem par_idx2 : ∀ t : Fin cfg0.N, ∀ a : Fin 2, win0_2.index t a = 0 :=
  (by decide +kernel : ∀ t : Fin grid0.N, _)
theorem par_idx3 : ∀ t : Fin cfg0.N, ∀ a : Fin 2, win0_3.index t a = 0 :=
  (by decide +kernel : ∀ t : Fin grid0.N, _)
theorem par_idx4 : ∀ t : Fin cfg0.N, ∀ a : Fin 2, win0_4.index t a = 0 :=
  (by decide +kernel : ∀ t : Fin grid0.N, _)
theorem par_idx5 : ∀ t : Fin cfg0.N, ∀ a : Fin 2, win0_5.index t a = 0 :=
  (by decide +kernel : ∀ t : Fin grid0.N, _)
theorem par_idx6 : ∀ t : Fin cfg0.N, ∀ a : Fin 2, win0_6.index t a = 0 :=
  (by decide +kernel : ∀ t : Fin grid0.N, _)
theorem par_idx7 : ∀ t : Fin cfg0.N, ∀ a : Fin 2, win0_7.index t a = 0 :=
  (by decide +kernel : ∀ t : Fin grid0.N, _)
theorem par_idx8 : ∀ t : Fin cfg0.N, ∀ a : Fin 2, win0_8.index t a = 0 :=
  (by decide +kernel : ∀ t : Fin grid0.N, _)
theorem par_idx9 : ∀ t : Fin cfg0.N, ∀ a : Fin 2, win0_9.index t a = 0 :=
  (by decide +kernel : ∀ t : Fin grid0.N, _)
theorem par_idx10 : ∀ t : Fin cfg0.N, ∀ a : Fin 2, win0_10.index t a = 0 :=
  (by decide +kernel : ∀ t : Fin grid0.N, _)

/-- Where each window's block lies, at every grid point t: the image window at block t of its image axis and block
    zero of the three others; the result window at block t of its rows and block zero of its lanes; each parameter
    window at block zero of both axes. -/
theorem idx_facts : ∀ t : Fin cfg0.N,
    (win0_0.index t (0 : Fin 4) = 0 ∧ win0_0.index t (1 : Fin 4) = 0 ∧ win0_0.index t (2 : Fin 4) = t.val
      ∧ win0_0.index t (3 : Fin 4) = 0)
    ∧ (win0_11.index t (0 : Fin 2) = t.val ∧ win0_11.index t (1 : Fin 2) = 0)
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) ∧ (∀ a : Fin 2, win0_9.index t a = 0)
    ∧ (∀ a : Fin 2, win0_10.index t a = 0) :=
  fun t => ⟨img_idx t, out_idx t, par_idx1 t, par_idx2 t, par_idx3 t, par_idx4 t, par_idx5 t, par_idx6 t, par_idx7 t,
    par_idx8 t, par_idx9 t, par_idx10 t⟩

/-- The image window's block at grid point t, read out of any array of the operand's shape, is the 256 images from image
    256·t on: entry (hh, ww, n, l) of the block is entry (hh, ww, N, l) of the array for the image N = 256·t + n. (Stated
    for an arbitrary array: where a block lies does not depend on what the array holds.) -/
theorem blk0_read (c : Dev nD) (A : S7x7x16384x16.Idx → EReal) (t : Fin cfg0.N) (hh ww : Fin 7) (n : Fin 256) (l : Fin 16)
    (N : Fin 16384) (hN : N.val = 256 * t.val + n.val) :
    (((cfg0.win 0).blk t).view.read (Elt Ideal) A : S7x7x256x16.Idx → EReal) (ix4 hh ww n l) = A (ix4 hh ww N l) := by
  obtain ⟨a0, a1, a2, a3⟩ := img_idx t
  show A (((cfg0.win 0).blk t).view.emb (ix4 hh ww n l)) = A (ix4 hh ww N l)
  refine congrArg A (funext fun a => Fin.ext ?_)
  match a with
  | ⟨0, _⟩ => show win0_0.index t (0 : Fin 4) * 7 + 1 * hh.val = hh.val; omega
  | ⟨1, _⟩ => show win0_0.index t (1 : Fin 4) * 7 + 1 * ww.val = ww.val; omega
  | ⟨2, _⟩ => show win0_0.index t (2 : Fin 4) * 256 + 1 * n.val = N.val; omega
  | ⟨3, _⟩ => show win0_0.index t (3 : Fin 4) * 16 + 1 * l.val = l.val; omega

/-- So the tile's block is those images' slab of the region's first operand. -/
theorem xblk0_apply (c : Dev nD) (t : Fin cfg0.N) (hh ww : Fin 7) (n : Fin 256) (l : Fin 16) (N : Fin 16384)
    (hN : N.val = 256 * t.val + n.val) :
    xblk0 m c t (ix4 hh ww n l) = (V m c main_v3 : S7x7x16384x16.Idx → EReal) (ix4 hh ww N l) :=
  blk0_read c (V m c main_v3) t hh ww n l N hN

/-- A parameter window's block at any grid point, read out of any array of the parameter's shape, is the whole array:
    at block zero of an axis an entry of the block has the same coordinate in the array. So each parameter block is
    the parameter as launched. -/
theorem blk1_read (A : S64x96.Idx → EReal) (t : Fin cfg0.N) :
    (((cfg0.win 1).blk t).view.read (Elt Ideal) A : S64x96.Idx → EReal) = A :=
  funext fun y => congrArg A (funext fun a => Fin.ext (win0_1.rect_emb_val_of_index_zero t a (par_idx1 t a) y))
theorem xblk1_eq (c : Dev nD) (t : Fin cfg0.N) : xblk1 m c t = m ((c.tc : Thread nD τ).loc main_arg1) :=
  (blk1_read (V m c main_arg1) t).trans (V_main_arg1 m c)
theorem blk2_read (A : S1x96.Idx → EReal) (t : Fin cfg0.N) :
    (((cfg0.win 2).blk t).view.read (Elt Ideal) A : S1x96.Idx → EReal) = A :=
  funext fun y => congrArg A (funext fun a => Fin.ext (win0_2.rect_emb_val_of_index_zero t a (par_idx2 t a) y))
theorem xblk2_eq (c : Dev nD) (t : Fin cfg0.N) : xblk2 m c t = m ((c.tc : Thread nD τ).loc main_arg2) :=
  (blk2_read (V m c main_arg2) t).trans (V_main_arg2 m c)
theorem blk3_read (A : S216x64.Idx → EReal) (t : Fin cfg0.N) :
    (((cfg0.win 3).blk t).view.read (Elt Ideal) A : S216x64.Idx → EReal) = A :=
  funext fun y => congrArg A (funext fun a => Fin.ext (win0_3.rect_emb_val_of_index_zero t a (par_idx3 t a) y))
theorem xblk3_eq (c : Dev nD) (t : Fin cfg0.N) : xblk3 m c t = m ((c.tc : Thread nD τ).loc main_arg3) :=
  (blk3_read (V m c main_arg3) t).trans (V_main_arg3 m c)
theorem blk4_read (A : S1x64.Idx → EReal) (t : Fin cfg0.N) :
    (((cfg0.win 4).blk t).view.read (Elt Ideal) A : S1x64.Idx → EReal) = A :=
  funext fun y => congrArg A (funext fun a => Fin.ext (win0_4.rect_emb_val_of_index_zero t a (par_idx4 t a) y))
theorem xblk4_eq (c : Dev nD) (t : Fin cfg0.N) : xblk4 m c t = m ((c.tc : Thread nD τ).loc main_arg4) :=
  (blk4_read (V m c main_arg4) t).trans (V_main_arg4 m c)
theorem blk5_read (A : LeNetSpec.WF1.Idx → EReal) (t : Fin cfg0.N) :
    (((cfg0.win 5).blk t).view.read (Elt Ideal) A : LeNetSpec.WF1.Idx → EReal) = A :=
  funext fun y => congrArg A (funext fun a => Fin.ext (win0_5.rect_emb_val_of_index_zero t a (par_idx5 t a) y))
theorem xblk5_eq (c : Dev nD) (t : Fin cfg0.N) : xblk5 m c t = m ((c.tc : Thread nD τ).loc main_arg5) :=
  (blk5_read (V m c main_arg5) t).trans (V_main_arg5 m c)
theorem blk6_read (A : S1x120.Idx → EReal) (t : Fin cfg0.N) :
    (((cfg0.win 6).blk t).view.read (Elt Ideal) A : S1x120.Idx → EReal) = A :=
  funext fun y => congrArg A (funext fun a => Fin.ext (win0_6.rect_emb_val_of_index_zero t a (par_idx6 t a) y))
theorem xblk6_eq (c : Dev nD) (t : Fin cfg0.N) : xblk6 m c t = m ((c.tc : Thread nD τ).loc main_arg6) :=
  (blk6_read (V m c main_arg6) t).trans (V_main_arg6 m c)
theorem blk7_read (A : S120x84.Idx → EReal) (t : Fin cfg0.N) :
    (((cfg0.win 7).blk t).view.read (Elt Ideal) A : S120x84.Idx → EReal) = A :=
  funext fun y => congrArg A (funext fun a => Fin.ext (win0_7.rect_emb_val_of_index_zero t a (par_idx7 t a) y))
theorem xblk7_eq (c : Dev nD) (t : Fin cfg0.N) : xblk7 m c t = m ((c.tc : Thread nD τ).loc main_arg7) :=
  (blk7_read (V m c main_arg7) t).trans (V_main_arg7 m c)
theorem blk8_read (A : S1x84.Idx → EReal) (t : Fin cfg0.N) :
    (((cfg0.win 8).blk t).view.read (Elt Ideal) A : S1x84.Idx → EReal) = A :=
  funext fun y => congrArg A (funext fun a => Fin.ext (win0_8.rect_emb_val_of_index_zero t a (par_idx8 t a) y))
theorem xblk8_eq (c : Dev nD) (t : Fin cfg0.N) : xblk8 m c t = m ((c.tc : Thread nD τ).loc main_arg8) :=
  (blk8_read (V m c main_arg8) t).trans (V_main_arg8 m c)
theorem blk9_read (A : S84x128.Idx → EReal) (t : Fin cfg0.N) :
    (((cfg0.win 9).blk t).view.read (Elt Ideal) A : S84x128.Idx → EReal) = A :=
  funext fun y => congrArg A (funext fun a => Fin.ext (win0_9.rect_emb_val_of_index_zero t a (par_idx9 t a) y))
theorem xblk9_eq (c : Dev nD) (t : Fin cfg0.N) : xblk9 m c t = m ((c.tc : Thread nD τ).loc main_arg9) :=
  (blk9_read (V m c main_arg9) t).trans (V_main_arg9 m c)
theorem blk10_read (A : S1x128.Idx → EReal) (t : Fin cfg0.N) :
    (((cfg0.win 10).blk t).view.read (Elt Ideal) A : S1x128.Idx → EReal) = A :=
  funext fun y => congrArg A (funext fun a => Fin.ext (win0_10.rect_emb_val_of_index_zero t a (par_idx10 t a) y))
theorem xblk10_eq (c : Dev nD) (t : Fin cfg0.N) : xblk10 m c t = m ((c.tc : Thread nD τ).loc main_arg10) :=
  (blk10_read (V m c main_arg10) t).trans (V_main_arg10 m c)

/-! ## What a grid point writes back -/

/-- An entry (n, j) of the result window's block at grid point t sits in the result array at row 256·t + n, lane j. -/
theorem out_emb (t : Fin cfg0.N) (n : Fin 256) (j : Fin 128) (N : Fin 16384) (hN : N.val = 256 * t.val + n.val) :
    ((cfg0.win 11).blk t).view.emb (ix2 n j) = (ix2 N j : S16384x128.Idx) := by
  obtain ⟨-, ⟨o0, o1⟩, -⟩ := idx_facts t
  funext a; apply Fin.ext
  match a with
  | ⟨0, _⟩ => show win0_11.index t (0 : Fin 2) * 256 + 1 * n.val = N.val; omega
  | ⟨1, _⟩ => show win0_11.index t (1 : Fin 2) * 128 + 1 * j.val = j.val; omega

/-- What grid point t writes back is block t of the whole-array function: row n of the tile's result is the network on
    image 256·t + n of the batch, read off the tile's slab of the input, with the parameters as launched. -/
theorem flushed_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after0_11]
  funext y
  obtain ⟨n, j, rfl⟩ : ∃ (n : Fin 256) (j : Fin 128), y = ix2 n j := ⟨y 0, y 1, eq_ix2 y⟩
  -- the image 256·t + n is one of the batch: there are as many tiles as grid points
  have hb : 256 * t.val + n.val < 16384 := by
    have ht : t.val < grid0.N := t.isLt
    have hN := N_0
    have hn := n.isLt
    omega
  show out0_11 (F := Ideal) (xblk0 m c t) (xblk1 m c t) (xblk2 m c t) (xblk3 m c t) (xblk4 m c t) (xblk5 m c t)
      (xblk6 m c t) (xblk7 m c t) (xblk8 m c t) (xblk9 m c t) (xblk10 m c t) (ix2 n j)
    = G m c (((cfg0.win 11).blk t).view.emb (ix2 n j))
  rw [out_emb t n j ⟨256 * t.val + n.val, hb⟩ rfl, out_apply, xblk1_eq, xblk2_eq, xblk3_eq, xblk4_eq, xblk5_eq,
    xblk6_eq, xblk7_eq, xblk8_eq, xblk9_eq, xblk10_eq]
  -- image n of the tile is image 256·t + n of the batch
  have hx : (fun hh ww l => xblk0 m c t (ix4 hh ww n l))
      = LeNetSpec.image (m ((c.tc : Thread nD τ).loc main_arg0)) ⟨256 * t.val + n.val, hb⟩ := by
    funext hh ww l
    exact (xblk0_apply m c t hh ww n l _ rfl).trans (x4_apply m c hh ww _ l)
  rw [hx]

/-! ## The tiles cover the result array -/

/-- An index of the result array is in grid point t's block iff each coordinate is in the block's range on its axis. -/
theorem mem_blk (t : Fin cfg0.N) (i : S16384x128.Idx) :
    i ∈ ((cfg0.win 11).blk t).view.set ↔ ∀ a : Fin 2, win0_11.index t a * S256x128.size a ≤ (i a).val
      ∧ (i a).val < win0_11.index t a * S256x128.size a + S256x128.size a := by
  show i ∈ ((View.whole main_v4).slice (win0_11.rect t)).set ↔ _
  rw [View.set_slice_whole, Rect.mem_set_unit]
  exact Iff.rfl

/-- Row r of the result array lies in the block of grid point r / 256, and every grid point writes its block back. -/
theorem cover (i : S16384x128.Idx) :
    ∃ t : Fin cfg0.N, (cfg0.win 11).flush t = true ∧ i ∈ ((cfg0.win 11).blk t).view.set := by
  have hi0 : (i 0).val < 16384 := (i 0).isLt
  have hi1 : (i 1).val < 128 := (i 1).isLt
  have hq : (i 0).val / 256 < cfg0.N := by
    show (i 0).val / 256 < grid0.N
    rw [N_0]; omega
  obtain ⟨-, ⟨o0, o1⟩, -⟩ := idx_facts ⟨(i 0).val / 256, hq⟩
  have o0' : win0_11.index ⟨(i 0).val / 256, hq⟩ (0 : Fin 2) = (i 0).val / 256 := o0
  refine ⟨⟨(i 0).val / 256, hq⟩, flush0_11 _, ?_⟩
  rw [mem_blk]
  intro a
  match a with
  | ⟨0, _⟩ =>
    show win0_11.index ⟨(i 0).val / 256, hq⟩ (0 : Fin 2) * 256 ≤ (i 0).val
      ∧ (i 0).val < win0_11.index ⟨(i 0).val / 256, hq⟩ (0 : Fin 2) * 256 + 256
    omega
  | ⟨1, _⟩ =>
    show win0_11.index ⟨(i 0).val / 256, hq⟩ (1 : Fin 2) * 128 ≤ (i 1).val
      ∧ (i 1).val < win0_11.index ⟨(i 0).val / 256, hq⟩ (1 : Fin 2) * 128 + 128
    omega

/-- So the result array after the region is the whole-array function: row N is the network on image N. -/
theorem final (c : Dev nD) : (dats m 0 c).arrAt 11 cfg0.N = G m c :=
  (dats m 0 c).arrAt_eq_of_cover 11 (G m c) (fun t _ => flushed_eq m c t) cover

/-! ## The slice after the region, and the run -/

/-- The program's result is the first ten lanes of every row of the region's result array: entry (N, j) of the slice
    is entry (N, j) of the array, lane j of the network on image N. -/
theorem tail_eq (c : Dev nD) :
    Pipeline.afterTail₀ cfgs (dats m) 0 (V0 m) [hostOps1] c main_v5
      = LeNetSpec.logits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Pipeline.afterTail₀
  show StableHlo.after hostOps1 _ (Proc.devRef .tc main_v5) = _
  after_results
  funext i
  have hl : (i 1).val < 128 := by
    have h : (i 1).val < 10 := (i 1).isLt
    omega
  refine (extractStridedSlice_apply _ _ _ i (ix2 (i 0) (⟨(i 1).val, hl⟩ : Fin 128)) (fun a => ?_)).trans ?_
  · match a with
    | ⟨0, _⟩ => show (i 0).val = 0 + (i 0).val; omega
    | ⟨1, _⟩ => show (i 1).val = 0 + (i 1).val; omega
  · exact congrFun ((Pipeline.withArrays_arr spec0 launch0.win.arr_inj c (V0 m c)
      (fun w => (dats m 0 c).arrAt w cfg0.N) 11).trans (final m c)) _

/-- Every weakly fair run of the program ends with the result at the first ten lanes of the network on every image of
    the batch, and the arguments as they were. -/
theorem value : θ_run defs (onTc (τ := τ) (main (F := Ideal))) ⟨m, fun _ => 0, ρ⟩ (fun r => ∀ c : Dev nD,
      r.2.mem ((c.tc : Thread nD τ).loc main_v5)
        = LeNetSpec.logits (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  -- one run gives both: the result buffer is what the slice after the region leaves, the batch of images is untouched
  -- by the region and by the slice, and each parameter array is only ever read
  refine (θ_run defs _ _).mono (fun r h c => ?_) (run_main m ρ)
  exact ⟨((h c).2 main_v5 (Pipeline.mem_restRefs_of main_v5 (by decide) (by decide))).trans (tail_eq m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c)))⟩

end Cert.KernelIdeal.Val

end
-- ==== Proof.RPay.lean ====
import proofs.«113019_g2000604803448687_pallaspilot1_85_2_alg».proof.Proof.Gen.ReferenceIdeal.Skeleton

set_option synthInstance.maxSize 4096

noncomputable section

namespace Cert.ReferenceIdeal.Val

open Idealize.ShloMosaic Idealize.SL.Sem Cert.ReferenceIdeal Cert.ReferenceIdeal.Gen

variable {F : FTy → Type} [FloatOps F]

noncomputable def tile_pay1 (v74 : FVec F S16x8x16 .f32) (v76 : FVec F S8x16 .f32) (v78 : FVec F S8x16 .f32) (v80 : FVec F S8x16 .f32) (v82 : FVec F S8x16 .f32) (v84 : FVec F S8x16 .f32) (v86 : FVec F S8x16 .f32) (v88 : FVec F S8x16 .f32) (v90 : FVec F S8x16 .f32) (v92 : FVec F S8x16 .f32) (v94 : FVec F S8x16 .f32) (v96 : FVec F S8x16 .f32) (v98 : FVec F S8x16 .f32) (v100 : FVec F S8x16 .f32) (v102 : FVec F S8x16 .f32) : FVec F S8x256 .f32 :=
  have v103 : FVec F S1x8x16 .f32 := extractStridedSlice S1x8x16 ![14, 0, 0] v74 slices_S16x8x16_o14_0_0_S1x8x16
  have v104 : FVec F S8x16 .f32 := shapeCast S8x16 v103 shapeCasts_S1x8x16_S8x16
  have v105 : FVec F S1x8x16 .f32 := extractStridedSlice S1x8x16 ![15, 0, 0] v74 slices_S16x8x16_o15_0_0_S1x8x16
  have v106 : FVec F S8x16 .f32 := shapeCast S8x16 v105 shapeCasts_S1x8x16_S8x16
  have v107 : FVec F S8x256 .f32 := concatenate S8x256 1 [⟨S8x16, v76⟩, ⟨S8x16, v78⟩, ⟨S8x16, v80⟩, ⟨S8x16, v82⟩, ⟨S8x16, v84⟩, ⟨S8x16, v86⟩, ⟨S8x16, v88⟩, ⟨S8x16, v90⟩, ⟨S8x16, v92⟩, ⟨S8x16, v94⟩, ⟨S8x16, v96⟩, ⟨S8x16, v98⟩, ⟨S8x16, v100⟩, ⟨S8x16, v102⟩, ⟨S8x16, v104⟩, ⟨S8x16, v106⟩] concatenates_S8x16_S8x16_S8x16_S8x16_S8x16_S8x16_S8x16_S8x16_S8x16_S8x16_S8x16_S8x16_S8x16_S8x16_S8x16_S8x16_S8x256_d1
  v107

noncomputable def tile_pay2 (v107 : FVec F S8x256 .f32) (v108 : Vec F S256x120 .f32) (v110 : Vec F S1x120 .f32) (v115 : Vec F S120x84 .f32) (v117 : Vec F S1x84 .f32) (v122 : Vec F S84x128 .f32) (v124 : Vec F S1x128 .f32) : FVec F S8x128 .f32 :=
  have cst_16 : FVec F S8x120 .f32 := constant S8x120 .f32 0x00000000#32
  have v109 : FVec F S8x120 .f32 := matmul dot_S8x256_S256x120_S8x120_1_0_0_1_n_n none v107 v108 cst_16
  have v111 : FVec F S8x120 .f32 := broadcastTo S8x120 v110 broadcasts_S1x120_S8x120
  have v112 : FVec F S8x120 .f32 := addf v109 v111
  have cst_19 : F .f32 := Scalar.ofBits .f32 0x00000000#32
  have v113 : FVec F S8x120 .f32 := broadcast S8x120 cst_19
  have v114 : FVec F S8x120 .f32 := maximumf v112 v113
  have cst_22 : FVec F S8x84 .f32 := constant S8x84 .f32 0x00000000#32
  have v116 : FVec F S8x84 .f32 := matmul dot_S8x120_S120x84_S8x84_1_0_0_1_n_n none v114 v115 cst_22
  have v118 : FVec F S8x84 .f32 := broadcastTo S8x84 v117 broadcasts_S1x84_S8x84
  have v119 : FVec F S8x84 .f32 := addf v116 v118
  have cst_25 : F .f32 := Scalar.ofBits .f32 0x00000000#32
  have v120 : FVec F S8x84 .f32 := broadcast S8x84 cst_25
  have v121 : FVec F S8x84 .f32 := maximumf v119 v120
  have cst_28 : FVec F S8x128 .f32 := constant S8x128 .f32 0x00000000#32
  have v123 : FVec F S8x128 .f32 := matmul dot_S8x84_S84x128_S8x128_1_0_0_1_n_n none v121 v122 cst_28
  have v125 : FVec F S8x128 .f32 := broadcastTo S8x128 v124 broadcasts_S1x128_S8x128
  have v126 : FVec F S8x128 .f32 := addf v123 v125
  v126

noncomputable def tile_pay4 (v48 : FVec F S6x6x8x24 .f32) (v60 : Vec F S216x64 .f32) (v62 : Vec F S1x64 .f32) : FVec F S16x8x16 .f32 :=
  have v49 : FVec F S4x4x8x24 .f32 := extractStridedSlice S4x4x8x24 ![0, 0, 0, 0] v48 slices_S6x6x8x24_o0_0_0_0_S4x4x8x24
  have v50 : FVec F S4x4x8x24 .f32 := extractStridedSlice S4x4x8x24 ![0, 1, 0, 0] v48 slices_S6x6x8x24_o0_1_0_0_S4x4x8x24
  have v51 : FVec F S4x4x8x24 .f32 := extractStridedSlice S4x4x8x24 ![0, 2, 0, 0] v48 slices_S6x6x8x24_o0_2_0_0_S4x4x8x24
  have v52 : FVec F S4x4x8x24 .f32 := extractStridedSlice S4x4x8x24 ![1, 0, 0, 0] v48 slices_S6x6x8x24_o1_0_0_0_S4x4x8x24
  have v53 : FVec F S4x4x8x24 .f32 := extractStridedSlice S4x4x8x24 ![1, 1, 0, 0] v48 slices_S6x6x8x24_o1_1_0_0_S4x4x8x24
  have v54 : FVec F S4x4x8x24 .f32 := extractStridedSlice S4x4x8x24 ![1, 2, 0, 0] v48 slices_S6x6x8x24_o1_2_0_0_S4x4x8x24
  have v55 : FVec F S4x4x8x24 .f32 := extractStridedSlice S4x4x8x24 ![2, 0, 0, 0] v48 slices_S6x6x8x24_o2_0_0_0_S4x4x8x24
  have v56 : FVec F S4x4x8x24 .f32 := extractStridedSlice S4x4x8x24 ![2, 1, 0, 0] v48 slices_S6x6x8x24_o2_1_0_0_S4x4x8x24
  have v57 : FVec F S4x4x8x24 .f32 := extractStridedSlice S4x4x8x24 ![2, 2, 0, 0] v48 slices_S6x6x8x24_o2_2_0_0_S4x4x8x24
  have v58 : FVec F S4x4x8x216 .f32 := concatenate S4x4x8x216 3 [⟨S4x4x8x24, v49⟩, ⟨S4x4x8x24, v50⟩, ⟨S4x4x8x24, v51⟩, ⟨S4x4x8x24, v52⟩, ⟨S4x4x8x24, v53⟩, ⟨S4x4x8x24, v54⟩, ⟨S4x4x8x24, v55⟩, ⟨S4x4x8x24, v56⟩, ⟨S4x4x8x24, v57⟩] concatenates_S4x4x8x24_S4x4x8x24_S4x4x8x24_S4x4x8x24_S4x4x8x24_S4x4x8x24_S4x4x8x24_S4x4x8x24_S4x4x8x24_S4x4x8x216_d3
  have v59 : FVec F S128x216 .f32 := shapeCast S128x216 v58 shapeCasts_S4x4x8x216_S128x216
  have cst_10 : FVec F S128x64 .f32 := constant S128x64 .f32 0x00000000#32
  have v61 : FVec F S128x64 .f32 := matmul dot_S128x216_S216x64_S128x64_1_0_0_1_n_n none v59 v60 cst_10
  have v63 : FVec F S128x64 .f32 := broadcastTo S128x64 v62 broadcasts_S1x64_S128x64
  have v64 : FVec F S128x64 .f32 := addf v61 v63
  have v65 : FVec F S128x16 .f32 := extractStridedSlice S128x16 ![0, 0] v64 slices_S128x64_o0_0_S128x16
  have v66 : FVec F S128x16 .f32 := extractStridedSlice S128x16 ![0, 16] v64 slices_S128x64_o0_16_S128x16
  have v67 : FVec F S128x16 .f32 := maximumf v65 v66
  have v68 : FVec F S128x16 .f32 := extractStridedSlice S128x16 ![0, 32] v64 slices_S128x64_o0_32_S128x16
  have v69 : FVec F S128x16 .f32 := extractStridedSlice S128x16 ![0, 48] v64 slices_S128x64_o0_48_S128x16
  have v70 : FVec F S128x16 .f32 := maximumf v68 v69
  have v71 : FVec F S128x16 .f32 := maximumf v67 v70
  have cst_13 : F .f32 := Scalar.ofBits .f32 0x00000000#32
  have v72 : FVec F S128x16 .f32 := broadcast S128x16 cst_13
  have v73 : FVec F S128x16 .f32 := maximumf v71 v72
  have v74 : FVec F S16x8x16 .f32 := shapeCast S16x8x16 v73 shapeCasts_S128x16_S16x8x16
  v74

noncomputable def tile_pay5 (v48 : FVec F S6x6x8x24 .f32) (v60 : Vec F S216x64 .f32) (v62 : Vec F S1x64 .f32) : FVec F S8x16 .f32 :=
  have v75 : FVec F S1x8x16 .f32 := extractStridedSlice S1x8x16 ![0, 0, 0] (tile_pay4 v48 v60 v62) slices_S16x8x16_o0_0_0_S1x8x16
  have v76 : FVec F S8x16 .f32 := shapeCast S8x16 v75 shapeCasts_S1x8x16_S8x16
  v76

noncomputable def tile_pay6 (v48 : FVec F S6x6x8x24 .f32) (v60 : Vec F S216x64 .f32) (v62 : Vec F S1x64 .f32) : FVec F S8x16 .f32 :=
  have v77 : FVec F S1x8x16 .f32 := extractStridedSlice S1x8x16 ![1, 0, 0] (tile_pay4 v48 v60 v62) slices_S16x8x16_o1_0_0_S1x8x16
  have v78 : FVec F S8x16 .f32 := shapeCast S8x16 v77 shapeCasts_S1x8x16_S8x16
  v78

noncomputable def tile_pay7 (v48 : FVec F S6x6x8x24 .f32) (v60 : Vec F S216x64 .f32) (v62 : Vec F S1x64 .f32) : FVec F S8x16 .f32 :=
  have v79 : FVec F S1x8x16 .f32 := extractStridedSlice S1x8x16 ![2, 0, 0] (tile_pay4 v48 v60 v62) slices_S16x8x16_o2_0_0_S1x8x16
  have v80 : FVec F S8x16 .f32 := shapeCast S8x16 v79 shapeCasts_S1x8x16_S8x16
  v80

noncomputable def tile_pay8 (v48 : FVec F S6x6x8x24 .f32) (v60 : Vec F S216x64 .f32) (v62 : Vec F S1x64 .f32) : FVec F S8x16 .f32 :=
  have v81 : FVec F S1x8x16 .f32 := extractStridedSlice S1x8x16 ![3, 0, 0] (tile_pay4 v48 v60 v62) slices_S16x8x16_o3_0_0_S1x8x16
  have v82 : FVec F S8x16 .f32 := shapeCast S8x16 v81 shapeCasts_S1x8x16_S8x16
  v82

noncomputable def tile_pay9 (v48 : FVec F S6x6x8x24 .f32) (v60 : Vec F S216x64 .f32) (v62 : Vec F S1x64 .f32) : FVec F S8x16 .f32 :=
  have v83 : FVec F S1x8x16 .f32 := extractStridedSlice S1x8x16 ![4, 0, 0] (tile_pay4 v48 v60 v62) slices_S16x8x16_o4_0_0_S1x8x16
  have v84 : FVec F S8x16 .f32 := shapeCast S8x16 v83 shapeCasts_S1x8x16_S8x16
  v84

noncomputable def tile_pay10 (v48 : FVec F S6x6x8x24 .f32) (v60 : Vec F S216x64 .f32) (v62 : Vec F S1x64 .f32) : FVec F S8x16 .f32 :=
  have v85 : FVec F S1x8x16 .f32 := extractStridedSlice S1x8x16 ![5, 0, 0] (tile_pay4 v48 v60 v62) slices_S16x8x16_o5_0_0_S1x8x16
  have v86 : FVec F S8x16 .f32 := shapeCast S8x16 v85 shapeCasts_S1x8x16_S8x16
  v86

noncomputable def tile_pay11 (v48 : FVec F S6x6x8x24 .f32) (v60 : Vec F S216x64 .f32) (v62 : Vec F S1x64 .f32) : FVec F S8x16 .f32 :=
  have v87 : FVec F S1x8x16 .f32 := extractStridedSlice S1x8x16 ![6, 0, 0] (tile_pay4 v48 v60 v62) slices_S16x8x16_o6_0_0_S1x8x16
  have v88 : FVec F S8x16 .f32 := shapeCast S8x16 v87 shapeCasts_S1x8x16_S8x16
  v88

noncomputable def tile_pay12 (v48 : FVec F S6x6x8x24 .f32) (v60 : Vec F S216x64 .f32) (v62 : Vec F S1x64 .f32) : FVec F S8x16 .f32 :=
  have v89 : FVec F S1x8x16 .f32 := extractStridedSlice S1x8x16 ![7, 0, 0] (tile_pay4 v48 v60 v62) slices_S16x8x16_o7_0_0_S1x8x16
  have v90 : FVec F S8x16 .f32 := shapeCast S8x16 v89 shapeCasts_S1x8x16_S8x16
  v90

noncomputable def tile_pay13 (v48 : FVec F S6x6x8x24 .f32) (v60 : Vec F S216x64 .f32) (v62 : Vec F S1x64 .f32) : FVec F S8x16 .f32 :=
  have v91 : FVec F S1x8x16 .f32 := extractStridedSlice S1x8x16 ![8, 0, 0] (tile_pay4 v48 v60 v62) slices_S16x8x16_o8_0_0_S1x8x16
  have v92 : FVec F S8x16 .f32 := shapeCast S8x16 v91 shapeCasts_S1x8x16_S8x16
  v92

noncomputable def tile_pay14 (v48 : FVec F S6x6x8x24 .f32) (v60 : Vec F S216x64 .f32) (v62 : Vec F S1x64 .f32) : FVec F S8x16 .f32 :=
  have v93 : FVec F S1x8x16 .f32 := extractStridedSlice S1x8x16 ![9, 0, 0] (tile_pay4 v48 v60 v62) slices_S16x8x16_o9_0_0_S1x8x16
  have v94 : FVec F S8x16 .f32 := shapeCast S8x16 v93 shapeCasts_S1x8x16_S8x16
  v94

noncomputable def tile_pay15 (v48 : FVec F S6x6x8x24 .f32) (v60 : Vec F S216x64 .f32) (v62 : Vec F S1x64 .f32) : FVec F S8x16 .f32 :=
  have v95 : FVec F S1x8x16 .f32 := extractStridedSlice S1x8x16 ![10, 0, 0] (tile_pay4 v48 v60 v62) slices_S16x8x16_o10_0_0_S1x8x16
  have v96 : FVec F S8x16 .f32 := shapeCast S8x16 v95 shapeCasts_S1x8x16_S8x16
  v96

noncomputable def tile_pay16 (v48 : FVec F S6x6x8x24 .f32) (v60 : Vec F S216x64 .f32) (v62 : Vec F S1x64 .f32) : FVec F S8x16 .f32 :=
  have v97 : FVec F S1x8x16 .f32 := extractStridedSlice S1x8x16 ![11, 0, 0] (tile_pay4 v48 v60 v62) slices_S16x8x16_o11_0_0_S1x8x16
  have v98 : FVec F S8x16 .f32 := shapeCast S8x16 v97 shapeCasts_S1x8x16_S8x16
  v98

noncomputable def tile_pay17 (v48 : FVec F S6x6x8x24 .f32) (v60 : Vec F S216x64 .f32) (v62 : Vec F S1x64 .f32) : FVec F S8x16 .f32 :=
  have v99 : FVec F S1x8x16 .f32 := extractStridedSlice S1x8x16 ![12, 0, 0] (tile_pay4 v48 v60 v62) slices_S16x8x16_o12_0_0_S1x8x16
  have v100 : FVec F S8x16 .f32 := shapeCast S8x16 v99 shapeCasts_S1x8x16_S8x16
  v100

noncomputable def tile_pay18 (v48 : FVec F S6x6x8x24 .f32) (v60 : Vec F S216x64 .f32) (v62 : Vec F S1x64 .f32) : FVec F S8x16 .f32 :=
  have v101 : FVec F S1x8x16 .f32 := extractStridedSlice S1x8x16 ![13, 0, 0] (tile_pay4 v48 v60 v62) slices_S16x8x16_o13_0_0_S1x8x16
  have v102 : FVec F S8x16 .f32 := shapeCast S8x16 v101 shapeCasts_S1x8x16_S8x16
  v102

end Cert.ReferenceIdeal.Val

end
-- ==== Proof.RConv1.lean ====
/-
  The first convolution stage of the reference's tile body, read at one entry.

  The stage builds a patch matrix with one row per (block, image): row (ph·6 + pw)·8 + n holds the 64 taps of the
  8 × 8 field of block (ph, pw) of image n, tap 32·u + 16·v + l being the input block at (ph + u, pw + v, n, l). The
  rows are multiplied by the 64 × 96 weights and the bias row is added; the 96 lanes of a row are cut into sixteen groups
  of 6, group 4·g + d being pixel d of the pooling cell of pooled pixel g; the four groups of a pooled pixel are maxed
  pairwise; the four 6-lane results side by side, clamped at zero, are the 24 lanes of the block. Every step acts on each
  row alone, so the rows of image n are the first convolution of image n.
-/
import proofs.«113019_g2000604803448687_pallaspilot1_85_2_alg».proof.Proof.Gen.ReferenceIdeal.Skeleton
import proofs.«113019_g2000604803448687_pallaspilot1_85_2_alg».proof.Proof.LeNetSpec
import proofs.«113019_g2000604803448687_pallaspilot1_85_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Val

open Idealize.ShloMosaic Idealize.ShloMosaic.ValueIdx Cert.ReferenceIdeal Cert.ReferenceIdeal.Gen

/-- The reference body's first stage — patches, product, bias, pooling, rectifier — on a tile of 8 images. -/
noncomputable def tile_pay3 {F : FTy → Type} [FloatOps F] (x0 : Vec F S7x7x8x16 .f32) (w1 : Vec F S64x96 .f32)
    (b1 : Vec F S1x96 .f32) : FVec F S6x6x8x24 .f32 :=
  Cert.ReferenceIdeal.Gen.k0_pay2 x0 w1 b1

/-- The identity reshape reads the same entry. -/
theorem cast_id_apply (x0 : Vec Ideal S7x7x8x16 .f32) (j : S7x7x8x16.Idx) :
    shapeCast S7x7x8x16 x0 shapeCasts_S7x7x8x16_S7x7x8x16 j = x0 j :=
  shapeCast_apply _ _ j j rfl

/-- The slice at offsets (u, v, 0, 0) of the block, read at (ph, pw, n, l): the block at (u + ph, v + pw, n, l). -/
theorem slice_uv_apply (X : FVec Ideal S7x7x8x16 .f32) (u v : Nat) (h : S7x7x8x16.Slices ![u, v, 0, 0] S6x6x8x16)
    (ph pw : Fin 6) (n : Fin 8) (l : Fin 16) (a b : Fin 7) (ha : a.val = u + ph.val) (hb : b.val = v + pw.val) :
    extractStridedSlice S6x6x8x16 ![u, v, 0, 0] X h (ix4 ph pw n l) = X (ix4 a b n l) :=
  extractStridedSlice_apply _ _ _ _ _ (fun ax => by
    match ax with
    | ⟨0, _⟩ => exact ha
    | ⟨1, _⟩ => exact hb
    | ⟨2, _⟩ => exact (Nat.zero_add _).symm
    | ⟨3, _⟩ => exact (Nat.zero_add _).symm)

/-- Four 16-lane pieces laid side by side along the lanes: lane 16·g + l of the result is lane l of piece g. -/
theorem cat4_lanes_apply (p0 p1 p2 p3 : FVec Ideal S6x6x8x16 .f32) (ph pw : Fin 6) (n : Fin 8) (k : Fin 64)
    (l : Fin 16) (hl : l.val = k.val % 16) :
    concatenate S6x6x8x64 3 [⟨S6x6x8x16, p0⟩, ⟨S6x6x8x16, p1⟩, ⟨S6x6x8x16, p2⟩, ⟨S6x6x8x16, p3⟩]
        concatenates_S6x6x8x16_S6x6x8x16_S6x6x8x16_S6x6x8x16_S6x6x8x64_d3 (ix4 ph pw n k)
      = (if k.val / 16 = 0 then p0 else if k.val / 16 = 1 then p1 else if k.val / 16 = 2 then p2 else p3) (ix4 ph pw n l) := by
  have hk := k.isLt
  have hoff : ∀ b : Fin S6x6x8x16.rank, b.cast (rfl : S6x6x8x16.rank = S6x6x8x64.rank) ≠ (3 : Fin S6x6x8x64.rank) →
      ((ix4 ph pw n l : S6x6x8x16.Idx) b).val = ((ix4 ph pw n k : S6x6x8x64.Idx) (b.cast rfl)).val := fun b hb => by
    match b with
    | ⟨0, _⟩ => rfl
    | ⟨1, _⟩ => rfl
    | ⟨2, _⟩ => rfl
    | ⟨3, _⟩ => exact absurd rfl hb
  have hcases : k.val / 16 = 0 ∨ k.val / 16 = 1 ∨ k.val / 16 = 2 ∨ k.val / 16 = 3 := by omega
  rcases hcases with h | h | h | h
  · rw [if_pos h]
    exact concatenate_apply_piece (3 : Fin S6x6x8x64.rank) _ _ _ 0 (by show 0 < 4; omega) S6x6x8x16 p0 rfl rfl 0 rfl _ hoff
      (by show 0 + l.val = k.val; omega)
  · rw [if_neg (by omega), if_pos h]
    exact concatenate_apply_piece (3 : Fin S6x6x8x64.rank) _ _ _ 1 (by show 1 < 4; omega) S6x6x8x16 p1 rfl rfl 16 rfl _ hoff
      (by show 16 + l.val = k.val; omega)
  · rw [if_neg (by omega), if_neg (by omega), if_pos h]
    exact concatenate_apply_piece (3 : Fin S6x6x8x64.rank) _ _ _ 2 (by show 2 < 4; omega) S6x6x8x16 p2 rfl rfl (16 + 16) rfl _ hoff
      (by show 16 + 16 + l.val = k.val; omega)
  · rw [if_neg (by omega), if_neg (by omega), if_neg (by omega)]
    exact concatenate_apply_piece (3 : Fin S6x6x8x64.rank) _ _ _ 3 (by show 3 < 4; omega) S6x6x8x16 p3 rfl rfl (16 + 16 + 16) rfl _ hoff
      (by show 16 + 16 + 16 + l.val = k.val; omega)

/-- The row of the patch matrix, of the product and of the pooled map that belongs to block (ph, pw) of image n:
    (ph·6 + pw)·8 + n. -/
abbrev tileRow (ph pw : Fin 6) (n : Fin 8) : Fin 288 :=
  ⟨(ph.val * 6 + pw.val) * 8 + n.val, by have := ph.isLt; have := pw.isLt; have := n.isLt; omega⟩

/-- The patch matrix of the tile: the four shifted 6 × 6 windows of the block side by side along the lanes, one row per
    (block, image). -/
def patchMat (x0 : Vec Ideal S7x7x8x16 .f32) : FVec Ideal S288x64 .f32 :=
  shapeCast S288x64
    (concatenate S6x6x8x64 3
      [⟨S6x6x8x16, extractStridedSlice S6x6x8x16 ![0, 0, 0, 0]
          (shapeCast S7x7x8x16 x0 shapeCasts_S7x7x8x16_S7x7x8x16) slices_S7x7x8x16_o0_0_0_0_S6x6x8x16⟩,
       ⟨S6x6x8x16, extractStridedSlice S6x6x8x16 ![0, 1, 0, 0]
          (shapeCast S7x7x8x16 x0 shapeCasts_S7x7x8x16_S7x7x8x16) slices_S7x7x8x16_o0_1_0_0_S6x6x8x16⟩,
       ⟨S6x6x8x16, extractStridedSlice S6x6x8x16 ![1, 0, 0, 0]
          (shapeCast S7x7x8x16 x0 shapeCasts_S7x7x8x16_S7x7x8x16) slices_S7x7x8x16_o1_0_0_0_S6x6x8x16⟩,
       ⟨S6x6x8x16, extractStridedSlice S6x6x8x16 ![1, 1, 0, 0]
          (shapeCast S7x7x8x16 x0 shapeCasts_S7x7x8x16_S7x7x8x16) slices_S7x7x8x16_o1_1_0_0_S6x6x8x16⟩]
      concatenates_S6x6x8x16_S6x6x8x16_S6x6x8x16_S6x6x8x16_S6x6x8x64_d3)
    shapeCasts_S6x6x8x64_S288x64

/-- Row (ph, pw, n) of the patch matrix is the 8 × 8 field of block (ph, pw) of image n: tap k = 32·u + 16·v + l comes
    from window 2·u + v, lane l, that is from the block at (ph + u, pw + v, n, l). -/
theorem patchMat_apply (x0 : Vec Ideal S7x7x8x16 .f32) (ph pw : Fin 6) (n : Fin 8) (k : Fin 64) :
    patchMat x0 (ix2 (tileRow ph pw n) k) = LeNetSpec.patch1 (fun hh ww l => x0 (ix4 hh ww n l)) ph pw k := by
  have hk := k.isLt
  have hph := ph.isLt
  have hpw := pw.isLt
  unfold patchMat
  refine (shapeCast_apply _ _ _ (ix4 ph pw n k) (by
    rw [Shape.rowMajor_val_four, Shape.rowMajor_val_two]
    show ((ph.val * 6 + pw.val) * 8 + n.val) * 64 + k.val = ((ph.val * 6 + pw.val) * 8 + n.val) * 64 + k.val
    rfl)).trans ?_
  refine (cat4_lanes_apply _ _ _ _ ph pw n k ⟨k.val % 16, by omega⟩ rfl).trans ?_
  unfold LeNetSpec.patch1
  have hcases : k.val / 16 = 0 ∨ k.val / 16 = 1 ∨ k.val / 16 = 2 ∨ k.val / 16 = 3 := by omega
  rcases hcases with h | h | h | h
  · rw [if_pos h]
    refine (slice_uv_apply _ 0 0 _ ph pw n _ ⟨ph.val + k.val / 32, by omega⟩ ⟨pw.val + k.val / 16 % 2, by omega⟩
      (by show ph.val + k.val / 32 = 0 + ph.val; omega) (by show pw.val + k.val / 16 % 2 = 0 + pw.val; omega)).trans ?_
    exact cast_id_apply x0 _
  · rw [if_neg (by omega), if_pos h]
    refine (slice_uv_apply _ 0 1 _ ph pw n _ ⟨ph.val + k.val / 32, by omega⟩ ⟨pw.val + k.val / 16 % 2, by omega⟩
      (by show ph.val + k.val / 32 = 0 + ph.val; omega) (by show pw.val + k.val / 16 % 2 = 1 + pw.val; omega)).trans ?_
    exact cast_id_apply x0 _
  · rw [if_neg (by omega), if_neg (by omega), if_pos h]
    refine (slice_uv_apply _ 1 0 _ ph pw n _ ⟨ph.val + k.val / 32, by omega⟩ ⟨pw.val + k.val / 16 % 2, by omega⟩
      (by show ph.val + k.val / 32 = 1 + ph.val; omega) (by show pw.val + k.val / 16 % 2 = 0 + pw.val; omega)).trans ?_
    exact cast_id_apply x0 _
  · rw [if_neg (by omega), if_neg (by omega), if_neg (by omega)]
    refine (slice_uv_apply _ 1 1 _ ph pw n _ ⟨ph.val + k.val / 32, by omega⟩ ⟨pw.val + k.val / 16 % 2, by omega⟩
      (by show ph.val + k.val / 32 = 1 + ph.val; omega) (by show pw.val + k.val / 16 % 2 = 1 + pw.val; omega)).trans ?_
    exact cast_id_apply x0 _

/-- The product of the patch matrix with the weights, accumulated into zero, plus the bias row on every row. -/
def preact (A : FVec Ideal S288x64 .f32) (w1 : Vec Ideal S64x96 .f32) (b1 : Vec Ideal S1x96 .f32) :
    FVec Ideal S288x96 .f32 :=
  addf (matmul (φ₂ := .f32) dot_S288x64_S64x96_S288x96_1_0_0_1_n_n none A w1 (constant S288x96 .f32 0x00000000#32))
    (broadcastTo S288x96 b1 broadcasts_S1x96_S288x96)

/-- Entry (r, q) of it is the dense layer on row r of the patch matrix: Σ_k A (r, k) · w1 (k, q) + b1 (0, q). -/
theorem preact_apply (A : FVec Ideal S288x64 .f32) (w1 : Vec Ideal S64x96 .f32) (b1 : Vec Ideal S1x96 .f32)
    (r : Fin 288) (q : Fin 96) :
    preact A w1 b1 (ix2 r q) = LeNetSpec.dense (fun k => A (ix2 r k)) w1 b1 q := by
  unfold preact LeNetSpec.dense
  refine congrArg₂ (fun a b : EReal => a + b) ?_ ?_
  · exact LibPlainMatmul.matmul_plain_zero_apply (m := 288) (k := 64) (n := 96) (φ₂ := .f32) none A w1 r q
  · exact broadcastTo_1b_ab_apply b1 _ r q

/-- Row (ph, pw, n), lane q of the product plus bias is the dense layer on the 8 × 8 field of block (ph, pw) of
    image n. -/
theorem preact_patchMat_apply (x0 : Vec Ideal S7x7x8x16 .f32) (w1 : Vec Ideal S64x96 .f32) (b1 : Vec Ideal S1x96 .f32)
    (ph pw : Fin 6) (n : Fin 8) (q : Fin 96) :
    preact (patchMat x0) w1 b1 (ix2 (tileRow ph pw n) q)
      = LeNetSpec.dense (LeNetSpec.patch1 (fun hh ww l => x0 (ix4 hh ww n l)) ph pw) w1 b1 q :=
  (preact_apply _ w1 b1 _ q).trans
    (congrArg (fun x => LeNetSpec.dense x w1 b1 q) (funext fun k => patchMat_apply x0 ph pw n k))

/-- One pooled pixel of every row: four groups of 6 lanes, from lanes o0, o1, o2, o3 on (the four pixels of the pooling
    cell), maxed pairwise, (first, second) and (third, fourth). -/
def poolGroup (Y : FVec Ideal S288x96 .f32) (o0 o1 o2 o3 : Nat) (h0 : S288x96.Slices ![0, o0] S288x6)
    (h1 : S288x96.Slices ![0, o1] S288x6) (h2 : S288x96.Slices ![0, o2] S288x6) (h3 : S288x96.Slices ![0, o3] S288x6) :
    FVec Ideal S288x6 .f32 :=
  maximumf (maximumf (extractStridedSlice S288x6 ![0, o0] Y h0) (extractStridedSlice S288x6 ![0, o1] Y h1))
    (maximumf (extractStridedSlice S288x6 ![0, o2] Y h2) (extractStridedSlice S288x6 ![0, o3] Y h3))

/-- Entry (r, co) of it: the maximum of lanes o0 + co, o1 + co, o2 + co, o3 + co of row r. -/
theorem poolGroup_apply (Y : FVec Ideal S288x96 .f32) (o0 o1 o2 o3 : Nat) (h0 : S288x96.Slices ![0, o0] S288x6)
    (h1 : S288x96.Slices ![0, o1] S288x6) (h2 : S288x96.Slices ![0, o2] S288x6) (h3 : S288x96.Slices ![0, o3] S288x6)
    (r : Fin 288) (co : Fin 6) (q0 q1 q2 q3 : Fin 96) (e0 : q0.val = o0 + co.val) (e1 : q1.val = o1 + co.val)
    (e2 : q2.val = o2 + co.val) (e3 : q3.val = o3 + co.val) :
    poolGroup Y o0 o1 o2 o3 h0 h1 h2 h3 (ix2 r co)
      = LeNetSpec.max4 (Y (ix2 r q0)) (Y (ix2 r q1)) (Y (ix2 r q2)) (Y (ix2 r q3)) := by
  unfold poolGroup LeNetSpec.max4
  exact congrArg₂ (fun a b : EReal => max a b)
    (congrArg₂ (fun a b : EReal => max a b) (slice2_axis1_apply o0 Y h0 r co q0 e0) (slice2_axis1_apply o1 Y h1 r co q1 e1))
    (congrArg₂ (fun a b : EReal => max a b) (slice2_axis1_apply o2 Y h2 r co q2 e2) (slice2_axis1_apply o3 Y h3 r co q3 e3))

/-- Four 6-lane pieces laid side by side along the lanes: lane 6·g + co of the result is lane co of piece g. -/
theorem cat4_pool_apply (p0 p1 p2 p3 : FVec Ideal S288x6 .f32) (r : Fin 288) (c : Fin 24)
    (co : Fin 6) (hco : co.val = c.val % 6) :
    concatenate S288x24 1 [⟨S288x6, p0⟩, ⟨S288x6, p1⟩, ⟨S288x6, p2⟩, ⟨S288x6, p3⟩]
        concatenates_S288x6_S288x6_S288x6_S288x6_S288x24_d1 (ix2 r c)
      = (if c.val / 6 = 0 then p0 else if c.val / 6 = 1 then p1 else if c.val / 6 = 2 then p2 else p3) (ix2 r co) := by
  have hc := c.isLt
  have hoff : ∀ b : Fin S288x6.rank, b.cast (rfl : S288x6.rank = S288x24.rank) ≠ (1 : Fin S288x24.rank) →
      ((ix2 r co : S288x6.Idx) b).val = ((ix2 r c : S288x24.Idx) (b.cast rfl)).val := fun b hb => by
    match b with
    | ⟨0, _⟩ => rfl
    | ⟨1, _⟩ => exact absurd rfl hb
  have hcases : c.val / 6 = 0 ∨ c.val / 6 = 1 ∨ c.val / 6 = 2 ∨ c.val / 6 = 3 := by omega
  rcases hcases with h | h | h | h
  · rw [if_pos h]
    exact concatenate_apply_piece (1 : Fin S288x24.rank) _ _ _ 0 (by show 0 < 4; omega) S288x6 p0 rfl rfl 0 rfl _ hoff
      (by show 0 + co.val = c.val; omega)
  · rw [if_neg (by omega), if_pos h]
    exact concatenate_apply_piece (1 : Fin S288x24.rank) _ _ _ 1 (by show 1 < 4; omega) S288x6 p1 rfl rfl 6 rfl _ hoff
      (by show 6 + co.val = c.val; omega)
  · rw [if_neg (by omega), if_neg (by omega), if_pos h]
    exact concatenate_apply_piece (1 : Fin S288x24.rank) _ _ _ 2 (by show 2 < 4; omega) S288x6 p2 rfl rfl (6 + 6) rfl _ hoff
      (by show 6 + 6 + co.val = c.val; omega)
  · rw [if_neg (by omega), if_neg (by omega), if_neg (by omega)]
    exact concatenate_apply_piece (1 : Fin S288x24.rank) _ _ _ 3 (by show 3 < 4; omega) S288x6 p3 rfl rfl (6 + 6 + 6) rfl _ hoff
      (by show 6 + 6 + 6 + co.val = c.val; omega)

/-- The pooled, rectified map of every row: the four pooled pixels side by side, clamped at zero. -/
def pooled (Y : FVec Ideal S288x96 .f32) : FVec Ideal S288x24 .f32 :=
  maximumf
    (concatenate S288x24 1
      [⟨S288x6, poolGroup Y 0 6 12 18 slices_S288x96_o0_0_S288x6 slices_S288x96_o0_6_S288x6
          slices_S288x96_o0_12_S288x6 slices_S288x96_o0_18_S288x6⟩,
       ⟨S288x6, poolGroup Y 24 30 36 42 slices_S288x96_o0_24_S288x6 slices_S288x96_o0_30_S288x6
          slices_S288x96_o0_36_S288x6 slices_S288x96_o0_42_S288x6⟩,
       ⟨S288x6, poolGroup Y 48 54 60 66 slices_S288x96_o0_48_S288x6 slices_S288x96_o0_54_S288x6
          slices_S288x96_o0_60_S288x6 slices_S288x96_o0_66_S288x6⟩,
       ⟨S288x6, poolGroup Y 72 78 84 90 slices_S288x96_o0_72_S288x6 slices_S288x96_o0_78_S288x6
          slices_S288x96_o0_84_S288x6 slices_S288x96_o0_90_S288x6⟩]
      concatenates_S288x6_S288x6_S288x6_S288x6_S288x24_d1)
    (broadcast S288x24 (Scalar.ofBits .f32 0x00000000#32))

/-- Entry (r, c) of it, c = 6·g + co: the rectified maximum of lanes 24·g + 6·d + co, d = 0 … 3, of row r. -/
theorem pooled_apply (Y : FVec Ideal S288x96 .f32) (r : Fin 288) (c : Fin 24) :
    pooled Y (ix2 r c) = LeNetSpec.pool1 (fun q => Y (ix2 r q)) c := by
  have hc := c.isLt
  unfold pooled LeNetSpec.pool1 LeNetSpec.relu
  refine congrArg₂ (fun a b : EReal => max a b) ?_ rfl
  refine (cat4_pool_apply _ _ _ _ r c ⟨c.val % 6, by omega⟩ rfl).trans ?_
  have hcases : c.val / 6 = 0 ∨ c.val / 6 = 1 ∨ c.val / 6 = 2 ∨ c.val / 6 = 3 := by omega
  rcases hcases with h | h | h | h
  · rw [if_pos h]
    exact poolGroup_apply Y 0 6 12 18 _ _ _ _ r _ _ _ _ _ (by show 24 * (c.val / 6) + c.val % 6 = 0 + c.val % 6; omega)
      (by show 24 * (c.val / 6) + 6 + c.val % 6 = 6 + c.val % 6; omega)
      (by show 24 * (c.val / 6) + 12 + c.val % 6 = 12 + c.val % 6; omega)
      (by show 24 * (c.val / 6) + 18 + c.val % 6 = 18 + c.val % 6; omega)
  · rw [if_neg (by omega), if_pos h]
    exact poolGroup_apply Y 24 30 36 42 _ _ _ _ r _ _ _ _ _ (by show 24 * (c.val / 6) + c.val % 6 = 24 + c.val % 6; omega)
      (by show 24 * (c.val / 6) + 6 + c.val % 6 = 30 + c.val % 6; omega)
      (by show 24 * (c.val / 6) + 12 + c.val % 6 = 36 + c.val % 6; omega)
      (by show 24 * (c.val / 6) + 18 + c.val % 6 = 42 + c.val % 6; omega)
  · rw [if_neg (by omega), if_neg (by omega), if_pos h]
    exact poolGroup_apply Y 48 54 60 66 _ _ _ _ r _ _ _ _ _ (by show 24 * (c.val / 6) + c.val % 6 = 48 + c.val % 6; omega)
      (by show 24 * (c.val / 6) + 6 + c.val % 6 = 54 + c.val % 6; omega)
      (by show 24 * (c.val / 6) + 12 + c.val % 6 = 60 + c.val % 6; omega)
      (by show 24 * (c.val / 6) + 18 + c.val % 6 = 66 + c.val % 6; omega)
  · rw [if_neg (by omega), if_neg (by omega), if_neg (by omega)]
    exact poolGroup_apply Y 72 78 84 90 _ _ _ _ r _ _ _ _ _ (by show 24 * (c.val / 6) + c.val % 6 = 72 + c.val % 6; omega)
      (by show 24 * (c.val / 6) + 6 + c.val % 6 = 78 + c.val % 6; omega)
      (by show 24 * (c.val / 6) + 12 + c.val % 6 = 84 + c.val % 6; omega)
      (by show 24 * (c.val / 6) + 18 + c.val % 6 = 90 + c.val % 6; omega)

/-- The stage's value in stages: the pooled map of the product of the patch matrix, one block of 24 lanes per
    (block, image). -/
theorem tile_pay3_eq (x0 : Vec Ideal S7x7x8x16 .f32) (w1 : Vec Ideal S64x96 .f32) (b1 : Vec Ideal S1x96 .f32) :
    tile_pay3 (F := Ideal) x0 w1 b1
      = shapeCast S6x6x8x24 (pooled (preact (patchMat x0) w1 b1)) shapeCasts_S288x24_S6x6x8x24 := rfl

/-- Entry (ph, pw, n, c) of the first pooled map of a tile of 8 images is the first convolution of image n of the
    tile alone. -/
theorem conv1_apply (x0 : Vec Ideal S7x7x8x16 .f32) (w1 : Vec Ideal S64x96 .f32) (b1 : Vec Ideal S1x96 .f32)
    (ph pw : Fin 6) (n : Fin 8) (c : Fin 24) :
    tile_pay3 (F := Ideal) x0 w1 b1 (ix4 ph pw n c)
      = LeNetSpec.conv1 (fun hh ww l => x0 (ix4 hh ww n l)) w1 b1 ph pw c := by
  refine (congrFun (tile_pay3_eq x0 w1 b1) _).trans ?_
  -- the reshape: entry (ph, pw, n, c) is entry (row (ph, pw, n), c) of the pooled map
  refine (shapeCast_apply _ _ _ (ix2 (tileRow ph pw n) c) (by
    rw [Shape.rowMajor_val_two, Shape.rowMajor_val_four]
    show ((ph.val * 6 + pw.val) * 8 + n.val) * 24 + c.val = ((ph.val * 6 + pw.val) * 8 + n.val) * 24 + c.val
    rfl)).trans ?_
  refine (pooled_apply _ _ c).trans ?_
  unfold LeNetSpec.conv1
  exact congrArg (fun y => LeNetSpec.pool1 y c) (funext fun q => preact_patchMat_apply x0 w1 b1 ph pw n q)

end Cert.ReferenceIdeal.Val

end
-- ==== Proof.RBridge.lean ====
/-
  What the reference's body leaves in its output block, as one term in the kernel's cut of the same operations: the
  three dense layers applied to the feature matrix, itself the sixteen blocks of the second pooled map side by side,
  that map computed from the first pooled map, and that one from the input block. From the first pooled map on, the
  reference's body is, operation for operation, the kernel's at a tile of 8 images; the two printed programs only group
  the operations differently, which no value depends on. The body's one store covers the whole block.
-/
import proofs.«113019_g2000604803448687_pallaspilot1_85_2_alg».proof.Proof.Gen.ReferenceIdeal.Frame
import proofs.«113019_g2000604803448687_pallaspilot1_85_2_alg».proof.Proof.LeNetSpec
import proofs.«113019_g2000604803448687_pallaspilot1_85_2_alg».proof.Proof.RPay
import proofs.«113019_g2000604803448687_pallaspilot1_85_2_alg».proof.Proof.RConv1
import Idealize.ShloMosaic.Lib.Pipeline.FrameBody

noncomputable section

namespace Cert.ReferenceIdeal.Val

open Idealize.ShloMosaic Idealize.ShloMosaic.ValueIdx Cert.ReferenceIdeal Cert.ReferenceIdeal.Gen

/-- The stored block is the composition of the body's stages on the loaded blocks. -/
theorem out0_11_eq (x0 : Vec Ideal S7x7x8x16 .f32) (x1 : Vec Ideal S64x96 .f32) (x2 : Vec Ideal S1x96 .f32)
    (x3 : Vec Ideal S216x64 .f32) (x4 : Vec Ideal S1x64 .f32) (x5 : Vec Ideal LeNetSpec.WF1 .f32) (x6 : Vec Ideal S1x120 .f32)
    (x7 : Vec Ideal S120x84 .f32) (x8 : Vec Ideal S1x84 .f32) (x9 : Vec Ideal S84x128 .f32) (x10 : Vec Ideal S1x128 .f32) :
    out0_11 (F := Ideal) x0 x1 x2 x3 x4 x5 x6 x7 x8 x9 x10
      = View.canon [⟨r0_11, tile_pay2 (tile_pay1 (tile_pay4 (tile_pay3 (View.ld x0 r0_0) (View.ld x1 r0_1) (View.ld x2 r0_2)) (View.ld x3 r0_3) (View.ld x4 r0_4)) (tile_pay5 (tile_pay3 (View.ld x0 r0_0) (View.ld x1 r0_1) (View.ld x2 r0_2)) (View.ld x3 r0_3) (View.ld x4 r0_4)) (tile_pay6 (tile_pay3 (View.ld x0 r0_0) (View.ld x1 r0_1) (View.ld x2 r0_2)) (View.ld x3 r0_3) (View.ld x4 r0_4)) (tile_pay7 (tile_pay3 (View.ld x0 r0_0) (View.ld x1 r0_1) (View.ld x2 r0_2)) (View.ld x3 r0_3) (View.ld x4 r0_4)) (tile_pay8 (tile_pay3 (View.ld x0 r0_0) (View.ld x1 r0_1) (View.ld x2 r0_2)) (View.ld x3 r0_3) (View.ld x4 r0_4)) (tile_pay9 (tile_pay3 (View.ld x0 r0_0) (View.ld x1 r0_1) (View.ld x2 r0_2)) (View.ld x3 r0_3) (View.ld x4 r0_4)) (tile_pay10 (tile_pay3 (View.ld x0 r0_0) (View.ld x1 r0_1) (View.ld x2 r0_2)) (View.ld x3 r0_3) (View.ld x4 r0_4)) (tile_pay11 (tile_pay3 (View.ld x0 r0_0) (View.ld x1 r0_1) (View.ld x2 r0_2)) (View.ld x3 r0_3) (View.ld x4 r0_4)) (tile_pay12 (tile_pay3 (View.ld x0 r0_0) (View.ld x1 r0_1) (View.ld x2 r0_2)) (View.ld x3 r0_3) (View.ld x4 r0_4)) (tile_pay13 (tile_pay3 (View.ld x0 r0_0) (View.ld x1 r0_1) (View.ld x2 r0_2)) (View.ld x3 r0_3) (View.ld x4 r0_4)) (tile_pay14 (tile_pay3 (View.ld x0 r0_0) (View.ld x1 r0_1) (View.ld x2 r0_2)) (View.ld x3 r0_3) (View.ld x4 r0_4)) (tile_pay15 (tile_pay3 (View.ld x0 r0_0) (View.ld x1 r0_1) (View.ld x2 r0_2)) (View.ld x3 r0_3) (View.ld x4 r0_4)) (tile_pay16 (tile_pay3 (View.ld x0 r0_0) (View.ld x1 r0_1) (View.ld x2 r0_2)) (View.ld x3 r0_3) (View.ld x4 r0_4)) (tile_pay17 (tile_pay3 (View.ld x0 r0_0) (View.ld x1 r0_1) (View.ld x2 r0_2)) (View.ld x3 r0_3) (View.ld x4 r0_4)) (tile_pay18 (tile_pay3 (View.ld x0 r0_0) (View.ld x1 r0_1) (View.ld x2 r0_2)) (View.ld x3 r0_3) (View.ld x4 r0_4))) (View.ld x5 r0_5) (View.ld x6 r0_6) (View.ld x7 r0_7) (View.ld x8 r0_8) (View.ld x9 r0_9) (View.ld x10 r0_10)⟩] := rfl

end Cert.ReferenceIdeal.Val

end
-- ==== Proof.RConv2.lean ====
/-
  The second convolution stage of the tile body, read at one entry.

  The 6 × 6 × 8 × 24 first pooled map is cut into its nine 4 × 4 windows at block offsets (u, v), u, v < 3, laid side by
  side along lanes — lane k = 72·u + 24·v + l of block (qh, qw), image n, is lane l of block (qh + u, qw + v) of image n —
  and read as a 128 × 216 matrix whose row (4·qh + qw)·8 + n is the field of block (qh, qw) of image n. That row times
  the 216 × 64 weights plus the bias row is the dense layer on that image's field; the four 16-lane groups at lane
  offsets 0, 16, 32, 48 are the four pixels of the pooling cell, maxed pairwise and clamped at zero. Row s·8 + n of
  the result, read back as entry (s, n, ·) of a 16 × 8 × 16 array, is block (s / 4, s % 4) of image n: no entry depends
  on any other image of the tile.
-/
import proofs.«113019_g2000604803448687_pallaspilot1_85_2_alg».proof.Proof.Gen.ReferenceIdeal.Skeleton
import proofs.«113019_g2000604803448687_pallaspilot1_85_2_alg».proof.Proof.RPay
import proofs.«113019_g2000604803448687_pallaspilot1_85_2_alg».proof.Proof.LeNetSpec
import proofs.«113019_g2000604803448687_pallaspilot1_85_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Val

open Idealize.ShloMosaic Idealize.ShloMosaic.ValueIdx Cert.ReferenceIdeal Cert.ReferenceIdeal.Gen

/-- One piece of the concatenation along lanes: lane k of block (qh, qw), image n, lies in piece p = k / 24 — the window
    of the map at block offset (u, v) — at lane k % 24, so it is the map at block (u + qh, v + qw), image n, lane k % 24. -/
theorem conv2_piece_apply {α : Type} {xs : List ((s : Shape) × (s.Idx → α))}
    {hc : Shape.Concatenates (xs.map (·.1)) S4x4x8x216 3}
    (p u v : Nat) (x : S6x6x8x24.Idx → α) (hsl : S6x6x8x24.Slices ![u, v, 0, 0] S4x4x8x24)
    (hxk : xs[p]? = some ⟨S4x4x8x24, extractStridedSlice S4x4x8x24 ![u, v, 0, 0] x hsl⟩)
    (hpre : (((xs.take p).map (·.1)).map fun s =>
      if h : s.rank = S4x4x8x216.rank then s.size ((3 : Fin S4x4x8x216.rank).cast h.symm) else 0).sum = 24 * p)
    (qh qw : Fin 4) (n : Fin 8) (k : Fin 216) (hkp : k.val / 24 = p)
    (a0 a1 : Nat) (hb0 : a0 < 6) (hb1 : a1 < 6) (h0 : a0 = u + qh.val) (h1 : a1 = v + qw.val) :
    concatenate S4x4x8x216 3 xs hc (ix4 qh qw n k)
      = x (ix4 (⟨a0, hb0⟩ : Fin 6) (⟨a1, hb1⟩ : Fin 6) n (⟨k.val % 24, Nat.mod_lt _ (by decide)⟩ : Fin 24)) := by
  have hk : k.val < 216 := k.isLt
  obtain ⟨hp, hxk'⟩ := List.getElem?_eq_some_iff.mp hxk
  refine (concatenate_apply_piece 3 xs hc (ix4 qh qw n k) p hp S4x4x8x24 _ hxk' rfl (24 * p) hpre
    (ix4 qh qw n (⟨k.val % 24, Nat.mod_lt _ (by decide)⟩ : Fin 24))
    (fun b => match b with
      | ⟨0, _⟩ => fun _ => rfl
      | ⟨1, _⟩ => fun _ => rfl
      | ⟨2, _⟩ => fun _ => rfl
      | ⟨3, _⟩ => fun h => absurd rfl h)
    (by show 24 * p + k.val % 24 = k.val; omega)).trans ?_
  exact extractStridedSlice_apply _ x hsl _ _ (fun a => match a with
    | ⟨0, _⟩ => by show a0 = u + qh.val; exact h0
    | ⟨1, _⟩ => by show a1 = v + qw.val; exact h1
    | ⟨2, _⟩ => by show n.val = 0 + n.val; omega
    | ⟨3, _⟩ => by show k.val % 24 = 0 + k.val % 24; omega)

/-- The nine 4 × 4 windows of the 6 × 6 map of blocks, at block offsets (u, v), u, v < 3, laid side by side along lanes:
    lane k = 72·u + 24·v + l of block (qh, qw), image n, is lane l of block (qh + u, qw + v) of image n. -/
theorem conv2_patches_apply {α : Type} (x : S6x6x8x24.Idx → α)
    (h00 : S6x6x8x24.Slices ![0, 0, 0, 0] S4x4x8x24) (h01 : S6x6x8x24.Slices ![0, 1, 0, 0] S4x4x8x24)
    (h02 : S6x6x8x24.Slices ![0, 2, 0, 0] S4x4x8x24) (h10 : S6x6x8x24.Slices ![1, 0, 0, 0] S4x4x8x24)
    (h11 : S6x6x8x24.Slices ![1, 1, 0, 0] S4x4x8x24) (h12 : S6x6x8x24.Slices ![1, 2, 0, 0] S4x4x8x24)
    (h20 : S6x6x8x24.Slices ![2, 0, 0, 0] S4x4x8x24) (h21 : S6x6x8x24.Slices ![2, 1, 0, 0] S4x4x8x24)
    (h22 : S6x6x8x24.Slices ![2, 2, 0, 0] S4x4x8x24)
    (hc : Shape.Concatenates [S4x4x8x24, S4x4x8x24, S4x4x8x24, S4x4x8x24, S4x4x8x24, S4x4x8x24, S4x4x8x24,
      S4x4x8x24, S4x4x8x24] S4x4x8x216 3)
    (qh qw : Fin 4) (n : Fin 8) (k : Fin 216) :
    concatenate S4x4x8x216 3
        [⟨S4x4x8x24, extractStridedSlice S4x4x8x24 ![0, 0, 0, 0] x h00⟩,
          ⟨S4x4x8x24, extractStridedSlice S4x4x8x24 ![0, 1, 0, 0] x h01⟩,
          ⟨S4x4x8x24, extractStridedSlice S4x4x8x24 ![0, 2, 0, 0] x h02⟩,
          ⟨S4x4x8x24, extractStridedSlice S4x4x8x24 ![1, 0, 0, 0] x h10⟩,
          ⟨S4x4x8x24, extractStridedSlice S4x4x8x24 ![1, 1, 0, 0] x h11⟩,
          ⟨S4x4x8x24, extractStridedSlice S4x4x8x24 ![1, 2, 0, 0] x h12⟩,
          ⟨S4x4x8x24, extractStridedSlice S4x4x8x24 ![2, 0, 0, 0] x h20⟩,
          ⟨S4x4x8x24, extractStridedSlice S4x4x8x24 ![2, 1, 0, 0] x h21⟩,
          ⟨S4x4x8x24, extractStridedSlice S4x4x8x24 ![2, 2, 0, 0] x h22⟩] hc (ix4 qh qw n k)
      = x (ix4 (⟨qh.val + k.val / 72, by have := qh.isLt; have := k.isLt; omega⟩ : Fin 6)
          (⟨qw.val + k.val / 24 % 3, by have := qw.isLt; omega⟩ : Fin 6) n
          (⟨k.val % 24, Nat.mod_lt _ (by decide)⟩ : Fin 24)) := by
  have hk : k.val < 216 := k.isLt
  have hcases : k.val / 24 = 0 ∨ k.val / 24 = 1 ∨ k.val / 24 = 2 ∨ k.val / 24 = 3 ∨ k.val / 24 = 4 ∨ k.val / 24 = 5
      ∨ k.val / 24 = 6 ∨ k.val / 24 = 7 ∨ k.val / 24 = 8 := by omega
  rcases hcases with h | h | h | h | h | h | h | h | h
  · exact conv2_piece_apply 0 0 0 x h00 (by rfl) (by rfl) qh qw n k h _ _ _ _ (by omega) (by omega)
  · exact conv2_piece_apply 1 0 1 x h01 (by rfl) (by rfl) qh qw n k h _ _ _ _ (by omega) (by omega)
  · exact conv2_piece_apply 2 0 2 x h02 (by rfl) (by rfl) qh qw n k h _ _ _ _ (by omega) (by omega)
  · exact conv2_piece_apply 3 1 0 x h10 (by rfl) (by rfl) qh qw n k h _ _ _ _ (by omega) (by omega)
  · exact conv2_piece_apply 4 1 1 x h11 (by rfl) (by rfl) qh qw n k h _ _ _ _ (by omega) (by omega)
  · exact conv2_piece_apply 5 1 2 x h12 (by rfl) (by rfl) qh qw n k h _ _ _ _ (by omega) (by omega)
  · exact conv2_piece_apply 6 2 0 x h20 (by rfl) (by rfl) qh qw n k h _ _ _ _ (by omega) (by omega)
  · exact conv2_piece_apply 7 2 1 x h21 (by rfl) (by rfl) qh qw n k h _ _ _ _ (by omega) (by omega)
  · exact conv2_piece_apply 8 2 2 x h22 (by rfl) (by rfl) qh qw n k h _ _ _ _ (by omega) (by omega)

/-- The 4 × 4 × 8 × 216 array of fields read as a 128 × 216 matrix: row (4·qh + qw)·8 + n is block (qh, qw) of image n. -/
theorem conv2_rows_apply {α : Type} (P : S4x4x8x216.Idx → α) (h : S4x4x8x216.ShapeCasts S128x216)
    (qh qw : Fin 4) (n : Fin 8) (k : Fin 216) (r : Fin 128) (hr : r.val = (qh.val * 4 + qw.val) * 8 + n.val) :
    shapeCast S128x216 P h (ix2 r k) = P (ix4 qh qw n k) := by
  refine shapeCast_apply P h (ix2 r k) (ix4 qh qw n k) ?_
  rw [Shape.rowMajor_val_two, Shape.rowMajor_val_four]
  show ((qh.val * 4 + qw.val) * 8 + n.val) * 216 + k.val = r.val * 216 + k.val
  rw [hr]

/-- Row r, lane c of the fields times the weights plus the bias row: Σ_k field(r, k) · w (k, c) + b (0, c). -/
theorem conv2_pre_apply (A : FVec Ideal S128x216 .f32) (w2 : Vec Ideal S216x64 .f32) (b2 : Vec Ideal S1x64 .f32)
    (hb : S1x64.Broadcasts S128x64) (r : Fin 128) (c : Fin 64) :
    addf (matmul (φ₂ := .f32) dot_S128x216_S216x64_S128x64_1_0_0_1_n_n none A w2 (constant S128x64 .f32 0x00000000#32))
        (broadcastTo S128x64 b2 hb) (ix2 r c)
      = (∑ k : Fin 216, A (ix2 r k) * w2 (ix2 k c)) + b2 (ix2 (0 : Fin 1) c) := by
  refine (addf_apply _ _ _).trans ?_
  refine congrArg₂ (· + ·) ?_ (broadcastTo_1b_ab_apply b2 hb r c)
  exact LibPlainMatmul.matmul_plain_zero_apply none A w2 r c

/-- Lane co of the 16-lane group at lane offset o, row (4·qh + qw)·8 + n, of the fields times the weights plus the bias:
    entry c = o + co of the dense layer on the field of block (qh, qw) of image n, whenever the array of fields holds
    that image's field at (qh, qw, n, ·). -/
theorem conv2_lane_apply (P : FVec Ideal S4x4x8x216 .f32) (w2 : Vec Ideal S216x64 .f32) (b2 : Vec Ideal S1x64 .f32)
    (hsc : S4x4x8x216.ShapeCasts S128x216) (hb : S1x64.Broadcasts S128x64)
    (o : Nat) (hsl : S128x64.Slices ![0, o] S128x16)
    (S : LeNetSpec.Map1) (qh qw : Fin 4) (n : Fin 8)
    (hP : ∀ k : Fin 216, P (ix4 qh qw n k) = LeNetSpec.patch2 S qh qw k)
    (r : Fin 128) (hr : r.val = (qh.val * 4 + qw.val) * 8 + n.val) (co : Fin 16) (c : Fin 64) (hc : c.val = o + co.val) :
    extractStridedSlice S128x16 ![0, o]
        (addf (matmul (φ₂ := .f32) dot_S128x216_S216x64_S128x64_1_0_0_1_n_n none (shapeCast S128x216 P hsc) w2
            (constant S128x64 .f32 0x00000000#32))
          (broadcastTo S128x64 b2 hb)) hsl (ix2 r co)
      = LeNetSpec.dense (LeNetSpec.patch2 S qh qw) w2 b2 c := by
  refine (slice2_axis1_apply o _ hsl r co c hc).trans ?_
  refine (conv2_pre_apply _ w2 b2 hb r c).trans ?_
  unfold LeNetSpec.dense
  refine congrArg₂ (· + ·) (Finset.sum_congr rfl fun k _ => ?_) rfl
  refine congrArg₂ (· * ·) ?_ rfl
  exact (conv2_rows_apply P hsc qh qw n k r hr).trans (hP k)

/-- Entry (s, n, co) of the second pooled map of a tile of 8 images — block s = 4·qh + qw, image n, channel co — is
    the second convolution of image n's first pooled map alone. -/
theorem conv2_apply (s1 : FVec Ideal S6x6x8x24 .f32) (w2 : Vec Ideal S216x64 .f32) (b2 : Vec Ideal S1x64 .f32)
    (s : Fin 16) (n : Fin 8) (co : Fin 16) :
    tile_pay4 (F := Ideal) s1 w2 b2 (ix3 s n co)
      = LeNetSpec.conv2 (fun a b c => s1 (ix4 a b n c)) w2 b2
          ⟨s.val / 4, by have := s.isLt; omega⟩ ⟨s.val % 4, by omega⟩ co := by
  have hs : s.val < 16 := s.isLt
  have hn : n.val < 8 := n.isLt
  have hco : co.val < 16 := co.isLt
  -- row s·8 + n of the 128-row matrices is block (s / 4, s % 4) of image n
  have hr : s.val * 8 + n.val = (s.val / 4 * 4 + s.val % 4) * 8 + n.val := by omega
  unfold tile_pay4
  -- the last reshape: entry (s, n, co) of the 16 × 8 × 16 array is entry (s·8 + n, co) of the 128 × 16 matrix
  refine (shapeCast_apply _ _ (ix3 s n co) (ix2 (⟨s.val * 8 + n.val, by omega⟩ : Fin 128) co) ?_).trans ?_
  · rw [Shape.rowMajor_val_two, Shape.rowMajor_val_three]
    rfl
  unfold LeNetSpec.conv2 LeNetSpec.pool2 LeNetSpec.relu LeNetSpec.max4
  -- the rectifier, then the two levels of pairwise maxima over the four 16-lane groups
  refine (maximumf_apply _ _ _).trans ?_
  refine congrArg₂ max ?_ rfl
  refine (maximumf_apply _ _ _).trans ?_
  refine congrArg₂ max ?_ ?_
  · refine (maximumf_apply _ _ _).trans ?_
    refine congrArg₂ max ?_ ?_
    · exact conv2_lane_apply _ w2 b2 _ _ 0 _ (fun a b c => s1 (ix4 a b n c)) _ _ n
        (fun k => conv2_patches_apply s1 _ _ _ _ _ _ _ _ _ _ _ _ n k) _ hr co _ (by show co.val = 0 + co.val; omega)
    · exact conv2_lane_apply _ w2 b2 _ _ 16 _ (fun a b c => s1 (ix4 a b n c)) _ _ n
        (fun k => conv2_patches_apply s1 _ _ _ _ _ _ _ _ _ _ _ _ n k) _ hr co _ rfl
  · refine (maximumf_apply _ _ _).trans ?_
    refine congrArg₂ max ?_ ?_
    · exact conv2_lane_apply _ w2 b2 _ _ 32 _ (fun a b c => s1 (ix4 a b n c)) _ _ n
        (fun k => conv2_patches_apply s1 _ _ _ _ _ _ _ _ _ _ _ _ n k) _ hr co _ rfl
    · exact conv2_lane_apply _ w2 b2 _ _ 48 _ (fun a b c => s1 (ix4 a b n c)) _ _ n
        (fun k => conv2_patches_apply s1 _ _ _ _ _ _ _ _ _ _ _ _ n k) _ hr co _ rfl

end Cert.ReferenceIdeal.Val

end
-- ==== Proof.RFeat.lean ====
/-
  The feature matrix of the tile body, read at one entry.
  Column k of the feature matrix lies in the piece numbered k / 16 of the sixteen laid side by side, at column k % 16 of
  that piece; piece s is block s of the 16 × 8 × 16 pooled map, flattened to 8 × 16 (image, channel).
-/
import proofs.«113019_g2000604803448687_pallaspilot1_85_2_alg».proof.Proof.Gen.ReferenceIdeal.Skeleton
import proofs.«113019_g2000604803448687_pallaspilot1_85_2_alg».proof.Proof.RPay
import proofs.«113019_g2000604803448687_pallaspilot1_85_2_alg».proof.Proof.LeNetSpec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Val

open Idealize.ShloMosaic Idealize.ShloMosaic.ValueIdx Cert.ReferenceIdeal Cert.ReferenceIdeal.Gen

/-- Block s of a 16 × 8 × 16 array, cut out as the 1 × 8 × 16 slice at offset (s, 0, 0) and flattened to
    8 × 16 (image, channel): entry (n, c) of the flattened block is the array at (s, n, c). The flattening keeps the
    row-major position, (0 · 8 + n) · 16 + c = n · 16 + c; the slice shifts the first coordinate by s. -/
theorem feat_block_apply {α : Type} (v : S16x8x16.Idx → α) (s : Fin 16) (off : Fin S16x8x16.rank → Nat)
    (h0 : off 0 = s.val) (h1 : off 1 = 0) (h2 : off 2 = 0)
    (h : S16x8x16.Slices off S1x8x16) (hc : S1x8x16.ShapeCasts S8x16) (n : Fin 8) (c : Fin 16) :
    shapeCast S8x16 (extractStridedSlice S1x8x16 off v h) hc (ix2 n c) = v (ix3 s n c) := by
  refine (shapeCast_apply _ hc (ix2 n c) (ix3 (0 : Fin 1) n c) (by
    rw [Shape.rowMajor_val_three, Shape.rowMajor_val_two]
    show (0 * 8 + n.val) * 16 + c.val = n.val * 16 + c.val
    omega)).trans ?_
  exact extractStridedSlice_apply off v h (ix3 (0 : Fin 1) n c) (ix3 s n c) (fun a => match a with
    | ⟨0, _⟩ => by show s.val = off 0 + 0; omega
    | ⟨1, _⟩ => by show n.val = off 1 + n.val; omega
    | ⟨2, _⟩ => by show c.val = off 2 + c.val; omega)

/-- Sixteen matrices of 8 rows and 16 columns each laid side by side along the column axis: the s pieces before piece s
    are together 16 · s columns wide, so column k = 16 · s + c of row n of the result is column c of row n of piece s. -/
theorem feat_piece_col_apply {α : Type} (xs : List ((s : Shape) × (s.Idx → α)))
    (h : Shape.Concatenates (xs.map (·.1)) (⟨2, ![8, LeNetSpec.nFeat]⟩ : Shape) 1)
    (hsh : xs.map (·.1) = List.replicate 16 S8x16) (n : Fin 8) (k : Fin LeNetSpec.nFeat)
    (s : Nat) (hs : s < xs.length) (x₁ : S8x16.Idx → α) (hxk : xs[s] = ⟨S8x16, x₁⟩)
    (hk : (LeNetSpec.featBlock k).val = s) :
    concatenate _ 1 xs h (ix2 n k) = x₁ (ix2 n (LeNetSpec.featChan k)) := by
  obtain ⟨hsplit, hlt⟩ := LeNetSpec.feat_split k
  have hs16 : s < 16 := by have := (LeNetSpec.featBlock k).isLt; omega
  refine concatenate_apply_piece _ xs h (ix2 n k) s hs S8x16 x₁ hxk rfl (16 * s) ?_ (ix2 n (LeNetSpec.featChan k))
    (fun b => match b with | ⟨0, _⟩ => fun _ => rfl | ⟨1, _⟩ => fun hne => absurd rfl hne)
    (by show 16 * s + (LeNetSpec.featChan k).val = k.val; omega)
  rw [List.map_take, hsh, List.take_replicate, List.map_replicate, List.sum_replicate]
  rw [dif_pos rfl, smul_eq_mul, Nat.min_eq_left (Nat.le_of_lt hs16)]
  show s * 16 = 16 * s
  omega

/-- The sixteen blocks of the second pooled map, each a 8 × 16 matrix (image, channel), laid side by side: entry
    (n, k) of the feature matrix is block k / 16, image n, channel k % 16 of that map. -/
theorem feat_apply (s1 : FVec Ideal S6x6x8x24 .f32) (w2 : Vec Ideal S216x64 .f32) (b2 : Vec Ideal S1x64 .f32)
    (n : Fin 8) (k : Fin LeNetSpec.nFeat) :
    tile_pay1 (F := Ideal) (tile_pay4 s1 w2 b2) (tile_pay5 s1 w2 b2) (tile_pay6 s1 w2 b2) (tile_pay7 s1 w2 b2) (tile_pay8 s1 w2 b2) (tile_pay9 s1 w2 b2) (tile_pay10 s1 w2 b2) (tile_pay11 s1 w2 b2) (tile_pay12 s1 w2 b2) (tile_pay13 s1 w2 b2) (tile_pay14 s1 w2 b2) (tile_pay15 s1 w2 b2) (tile_pay16 s1 w2 b2) (tile_pay17 s1 w2 b2) (tile_pay18 s1 w2 b2) (ix2 n k)
      = tile_pay4 (F := Ideal) s1 w2 b2 (ix3 (LeNetSpec.featBlock k) n (LeNetSpec.featChan k)) := by
  have hb : (LeNetSpec.featBlock k).val < 16 := (LeNetSpec.featBlock k).isLt
  unfold tile_pay1
  -- column k lies in piece k / 16 (the pieces before it are 16 columns wide each), at column k % 16 of that piece;
  -- piece s is block s of the pooled map flattened to (image, channel)
  have hcases : (LeNetSpec.featBlock k).val = 0 ∨ (LeNetSpec.featBlock k).val = 1 ∨ (LeNetSpec.featBlock k).val = 2
      ∨ (LeNetSpec.featBlock k).val = 3 ∨ (LeNetSpec.featBlock k).val = 4 ∨ (LeNetSpec.featBlock k).val = 5
      ∨ (LeNetSpec.featBlock k).val = 6 ∨ (LeNetSpec.featBlock k).val = 7 ∨ (LeNetSpec.featBlock k).val = 8
      ∨ (LeNetSpec.featBlock k).val = 9 ∨ (LeNetSpec.featBlock k).val = 10 ∨ (LeNetSpec.featBlock k).val = 11
      ∨ (LeNetSpec.featBlock k).val = 12 ∨ (LeNetSpec.featBlock k).val = 13 ∨ (LeNetSpec.featBlock k).val = 14
      ∨ (LeNetSpec.featBlock k).val = 15 := by omega
  rcases hcases with hs | hs | hs | hs | hs | hs | hs | hs | hs | hs | hs | hs | hs | hs | hs | hs
  · exact (feat_piece_col_apply _ _ rfl n k 0 (by show 0 < 16; omega) _ rfl hs).trans
      (feat_block_apply _ (LeNetSpec.featBlock k) _ (by show 0 = _; omega) rfl rfl _ _ n (LeNetSpec.featChan k))
  · exact (feat_piece_col_apply _ _ rfl n k 1 (by show 1 < 16; omega) _ rfl hs).trans
      (feat_block_apply _ (LeNetSpec.featBlock k) _ (by show 1 = _; omega) rfl rfl _ _ n (LeNetSpec.featChan k))
  · exact (feat_piece_col_apply _ _ rfl n k 2 (by show 2 < 16; omega) _ rfl hs).trans
      (feat_block_apply _ (LeNetSpec.featBlock k) _ (by show 2 = _; omega) rfl rfl _ _ n (LeNetSpec.featChan k))
  · exact (feat_piece_col_apply _ _ rfl n k 3 (by show 3 < 16; omega) _ rfl hs).trans
      (feat_block_apply _ (LeNetSpec.featBlock k) _ (by show 3 = _; omega) rfl rfl _ _ n (LeNetSpec.featChan k))
  · exact (feat_piece_col_apply _ _ rfl n k 4 (by show 4 < 16; omega) _ rfl hs).trans
      (feat_block_apply _ (LeNetSpec.featBlock k) _ (by show 4 = _; omega) rfl rfl _ _ n (LeNetSpec.featChan k))
  · exact (feat_piece_col_apply _ _ rfl n k 5 (by show 5 < 16; omega) _ rfl hs).trans
      (feat_block_apply _ (LeNetSpec.featBlock k) _ (by show 5 = _; omega) rfl rfl _ _ n (LeNetSpec.featChan k))
  · exact (feat_piece_col_apply _ _ rfl n k 6 (by show 6 < 16; omega) _ rfl hs).trans
      (feat_block_apply _ (LeNetSpec.featBlock k) _ (by show 6 = _; omega) rfl rfl _ _ n (LeNetSpec.featChan k))
  · exact (feat_piece_col_apply _ _ rfl n k 7 (by show 7 < 16; omega) _ rfl hs).trans
      (feat_block_apply _ (LeNetSpec.featBlock k) _ (by show 7 = _; omega) rfl rfl _ _ n (LeNetSpec.featChan k))
  · exact (feat_piece_col_apply _ _ rfl n k 8 (by show 8 < 16; omega) _ rfl hs).trans
      (feat_block_apply _ (LeNetSpec.featBlock k) _ (by show 8 = _; omega) rfl rfl _ _ n (LeNetSpec.featChan k))
  · exact (feat_piece_col_apply _ _ rfl n k 9 (by show 9 < 16; omega) _ rfl hs).trans
      (feat_block_apply _ (LeNetSpec.featBlock k) _ (by show 9 = _; omega) rfl rfl _ _ n (LeNetSpec.featChan k))
  · exact (feat_piece_col_apply _ _ rfl n k 10 (by show 10 < 16; omega) _ rfl hs).trans
      (feat_block_apply _ (LeNetSpec.featBlock k) _ (by show 10 = _; omega) rfl rfl _ _ n (LeNetSpec.featChan k))
  · exact (feat_piece_col_apply _ _ rfl n k 11 (by show 11 < 16; omega) _ rfl hs).trans
      (feat_block_apply _ (LeNetSpec.featBlock k) _ (by show 11 = _; omega) rfl rfl _ _ n (LeNetSpec.featChan k))
  · exact (feat_piece_col_apply _ _ rfl n k 12 (by show 12 < 16; omega) _ rfl hs).trans
      (feat_block_apply _ (LeNetSpec.featBlock k) _ (by show 12 = _; omega) rfl rfl _ _ n (LeNetSpec.featChan k))
  · exact (feat_piece_col_apply _ _ rfl n k 13 (by show 13 < 16; omega) _ rfl hs).trans
      (feat_block_apply _ (LeNetSpec.featBlock k) _ (by show 13 = _; omega) rfl rfl _ _ n (LeNetSpec.featChan k))
  · exact (feat_piece_col_apply _ _ rfl n k 14 (by show 14 < 16; omega) _ rfl hs).trans
      (feat_block_apply _ (LeNetSpec.featBlock k) _ (by show 14 = _; omega) rfl rfl _ _ n (LeNetSpec.featChan k))
  · exact (feat_piece_col_apply _ _ rfl n k 15 (by show 15 < 16; omega) _ rfl hs).trans
      (feat_block_apply _ (LeNetSpec.featBlock k) _ (by show 15 = _; omega) rfl rfl _ _ n (LeNetSpec.featChan k))

end Cert.ReferenceIdeal.Val

end
-- ==== Proof.RFc.lean ====
/-
  The three dense layers of the tile body, read at one entry.

  Each layer is a matrix product accumulated into zero plus a bias row repeated down the rows; entry (a, q) of such a
  layer depends only on row a of its input: it is Σ_c A (a, c) · W (c, q) + b (0, q). The rectifier between layers acts
  entrywise, so entry (n, j) of the third layer is the three dense layers applied to row n of the feature matrix.
-/
import proofs.«113019_g2000604803448687_pallaspilot1_85_2_alg».proof.Proof.Gen.ReferenceIdeal.Skeleton
import proofs.«113019_g2000604803448687_pallaspilot1_85_2_alg».proof.Proof.RPay
import proofs.«113019_g2000604803448687_pallaspilot1_85_2_alg».proof.Proof.LeNetSpec
import proofs.«113019_g2000604803448687_pallaspilot1_85_2_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Val

open Idealize.ShloMosaic Idealize.ShloMosaic.ValueIdx Cert.ReferenceIdeal Cert.ReferenceIdeal.Gen

/-- One dense layer of the tile read at the entry (a, q): the product of the m × k activations with the k × n weights,
    accumulated into zero, plus the bias row repeated down the m rows, is the dense layer of row a alone. -/
theorem dense_tile_apply {m k n : Nat} (d : DotDims ⟨2, ![m, k]⟩ ⟨2, ![k, n]⟩ ⟨2, ![m, n]⟩) (hd : d = DotDims.plain m k n)
    (A : FVec Ideal ⟨2, ![m, k]⟩ .f32) (W : FVec Ideal ⟨2, ![k, n]⟩ .f32) (b : FVec Ideal ⟨2, ![1, n]⟩ .f32)
    (hb : (⟨2, ![1, n]⟩ : Shape).Broadcasts ⟨2, ![m, n]⟩) (a : Fin m) (q : Fin n) :
    addf (F := Ideal) (matmul d none A W (constant (⟨2, ![m, n]⟩ : Shape) .f32 0x00000000#32))
        (broadcastTo (⟨2, ![m, n]⟩ : Shape) b hb) (ix2 a q)
      = LeNetSpec.dense (fun c => A (ix2 a c)) W b q := by
  subst hd
  show matmul (DotDims.plain m k n) none A W (constant (⟨2, ![m, n]⟩ : Shape) .f32 0x00000000#32) (ix2 a q)
      + broadcastTo (⟨2, ![m, n]⟩ : Shape) b hb (ix2 a q) = _
  rw [LibPlainMatmul.matmul_plain_zero_apply, broadcastTo_1b_ab_apply]
  rfl

/-- Row n of the three dense layers on a 8-row feature matrix is the three dense layers on row n alone. -/
theorem fc_apply (f : FVec Ideal S8x256 .f32) (wf1 : Vec Ideal LeNetSpec.WF1 .f32) (bf1 : Vec Ideal S1x120 .f32)
    (wf2 : Vec Ideal S120x84 .f32) (bf2 : Vec Ideal S1x84 .f32) (wf3 : Vec Ideal S84x128 .f32) (bf3 : Vec Ideal S1x128 .f32)
    (n : Fin 8) (j : Fin 128) :
    tile_pay2 (F := Ideal) f wf1 bf1 wf2 bf2 wf3 bf3 (ix2 n j)
      = LeNetSpec.fc (fun k => f (ix2 n k)) wf1 bf1 wf2 bf2 wf3 bf3 j := by
  unfold tile_pay2 LeNetSpec.fc
  -- the third layer at (n, j): its input row is the rectified second layer at row n
  refine (dense_tile_apply _ rfl _ wf3 bf3 _ n j).trans ?_
  refine congrArg (fun x => LeNetSpec.dense x wf3 bf3 j) (funext fun q => ?_)
  refine congrArg (fun x => max x (Ideal.ofBits .f32 0x00000000#32)) ?_
  -- the second layer at (n, q): its input row is the rectified first layer at row n
  refine (dense_tile_apply _ rfl _ wf2 bf2 _ n q).trans ?_
  refine congrArg (fun x => LeNetSpec.dense x wf2 bf2 q) (funext fun p => ?_)
  refine congrArg (fun x => max x (Ideal.ofBits .f32 0x00000000#32)) ?_
  -- the first layer at (n, p): its input row is row n of the feature matrix
  exact dense_tile_apply _ rfl f wf1 bf1 _ n p

end Cert.ReferenceIdeal.Val

end
-- ==== Proof.RBlock.lean ====
/-
  One tile of the kernel: what the body leaves in the output block, entry by entry. Row n of the 8 × 128 block is the
  network applied to image n of the tile — the composition of the four stages, each of which keeps the images apart.
-/
import proofs.«113019_g2000604803448687_pallaspilot1_85_2_alg».proof.Proof.Gen.ReferenceIdeal.Frame
import proofs.«113019_g2000604803448687_pallaspilot1_85_2_alg».proof.Proof.LeNetSpec
import proofs.«113019_g2000604803448687_pallaspilot1_85_2_alg».proof.Proof.RBridge
import proofs.«113019_g2000604803448687_pallaspilot1_85_2_alg».proof.Proof.RConv1
import proofs.«113019_g2000604803448687_pallaspilot1_85_2_alg».proof.Proof.RConv2
import proofs.«113019_g2000604803448687_pallaspilot1_85_2_alg».proof.Proof.RFeat
import proofs.«113019_g2000604803448687_pallaspilot1_85_2_alg».proof.Proof.RFc
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody

noncomputable section

namespace Cert.ReferenceIdeal.Val

open Idealize.ShloMosaic Idealize.ShloMosaic.ValueIdx Cert.ReferenceIdeal Cert.ReferenceIdeal.Gen

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The second pooled map's features of image n, from the tile's input block: the feature matrix's row n. -/
theorem feats_row (x0 : Vec Ideal S7x7x8x16 .f32) (x1 : Vec Ideal S64x96 .f32) (x2 : Vec Ideal S1x96 .f32)
    (x3 : Vec Ideal S216x64 .f32) (x4 : Vec Ideal S1x64 .f32) (n : Fin 8) (k : Fin LeNetSpec.nFeat) :
    tile_pay1 (F := Ideal) (tile_pay4 (tile_pay3 x0 x1 x2) x3 x4) (tile_pay5 (tile_pay3 x0 x1 x2) x3 x4) (tile_pay6 (tile_pay3 x0 x1 x2) x3 x4) (tile_pay7 (tile_pay3 x0 x1 x2) x3 x4) (tile_pay8 (tile_pay3 x0 x1 x2) x3 x4) (tile_pay9 (tile_pay3 x0 x1 x2) x3 x4) (tile_pay10 (tile_pay3 x0 x1 x2) x3 x4) (tile_pay11 (tile_pay3 x0 x1 x2) x3 x4) (tile_pay12 (tile_pay3 x0 x1 x2) x3 x4) (tile_pay13 (tile_pay3 x0 x1 x2) x3 x4) (tile_pay14 (tile_pay3 x0 x1 x2) x3 x4) (tile_pay15 (tile_pay3 x0 x1 x2) x3 x4) (tile_pay16 (tile_pay3 x0 x1 x2) x3 x4) (tile_pay17 (tile_pay3 x0 x1 x2) x3 x4) (tile_pay18 (tile_pay3 x0 x1 x2) x3 x4) (ix2 n k)
      = LeNetSpec.feats (LeNetSpec.conv1 (fun hh ww l => x0 (ix4 hh ww n l)) x1 x2) x3 x4 k := by
  rw [feat_apply, conv2_apply]
  unfold LeNetSpec.feats
  have hs : (fun a b c => tile_pay3 (F := Ideal) x0 x1 x2 (ix4 a b n c))
      = LeNetSpec.conv1 (fun hh ww l => x0 (ix4 hh ww n l)) x1 x2 := by
    funext a b c; exact conv1_apply x0 x1 x2 a b n c
  rw [hs]

/-- Entry (n, j) of the block the body stores is lane j of the network on image n of the tile. -/
theorem out_apply (x0 : Vec Ideal S7x7x8x16 .f32) (x1 : Vec Ideal S64x96 .f32) (x2 : Vec Ideal S1x96 .f32)
    (x3 : Vec Ideal S216x64 .f32) (x4 : Vec Ideal S1x64 .f32) (x5 : Vec Ideal LeNetSpec.WF1 .f32) (x6 : Vec Ideal S1x120 .f32)
    (x7 : Vec Ideal S120x84 .f32) (x8 : Vec Ideal S1x84 .f32) (x9 : Vec Ideal S84x128 .f32) (x10 : Vec Ideal S1x128 .f32)
    (n : Fin 8) (j : Fin 128) :
    out0_11 (F := Ideal) x0 x1 x2 x3 x4 x5 x6 x7 x8 x9 x10 (ix2 n j)
      = LeNetSpec.lenet (fun hh ww l => x0 (ix4 hh ww n l)) x1 x2 x3 x4 x5 x6 x7 x8 x9 x10 j := by
  rw [out0_11_eq, View.canon_unit_zero zeros2]
  simp only [View.ld_unit_zero (S := S7x7x8x16) zeros4, View.ld_unit_zero (S := S64x96) zeros2,
    View.ld_unit_zero (S := S1x96) zeros2, View.ld_unit_zero (S := S216x64) zeros2, View.ld_unit_zero (S := S1x64) zeros2,
    View.ld_unit_zero (S := LeNetSpec.WF1) zeros2, View.ld_unit_zero (S := S1x120) zeros2, View.ld_unit_zero (S := S120x84) zeros2,
    View.ld_unit_zero (S := S1x84) zeros2, View.ld_unit_zero (S := S84x128) zeros2, View.ld_unit_zero (S := S1x128) zeros2]
  rw [fc_apply]
  unfold LeNetSpec.lenet
  have hf : (fun k => tile_pay1 (F := Ideal) (tile_pay4 (tile_pay3 x0 x1 x2) x3 x4) (tile_pay5 (tile_pay3 x0 x1 x2) x3 x4) (tile_pay6 (tile_pay3 x0 x1 x2) x3 x4) (tile_pay7 (tile_pay3 x0 x1 x2) x3 x4) (tile_pay8 (tile_pay3 x0 x1 x2) x3 x4) (tile_pay9 (tile_pay3 x0 x1 x2) x3 x4) (tile_pay10 (tile_pay3 x0 x1 x2) x3 x4) (tile_pay11 (tile_pay3 x0 x1 x2) x3 x4) (tile_pay12 (tile_pay3 x0 x1 x2) x3 x4) (tile_pay13 (tile_pay3 x0 x1 x2) x3 x4) (tile_pay14 (tile_pay3 x0 x1 x2) x3 x4) (tile_pay15 (tile_pay3 x0 x1 x2) x3 x4) (tile_pay16 (tile_pay3 x0 x1 x2) x3 x4) (tile_pay17 (tile_pay3 x0 x1 x2) x3 x4) (tile_pay18 (tile_pay3 x0 x1 x2) x3 x4) (ix2 n k))
      = LeNetSpec.feats (LeNetSpec.conv1 (fun hh ww l => x0 (ix4 hh ww n l)) x1 x2) x3 x4 := by
    funext k; exact feats_row x0 x1 x2 x3 x4 n k
  rw [hf]

end Cert.ReferenceIdeal.Val

end
-- ==== Proof.RHost.lean ====
/-
  The array the reference's region is launched on: the batch of images, space-to-depth by four.
-/
import proofs.«113019_g2000604803448687_pallaspilot1_85_2_alg».proof.Proof.Gen.ReferenceIdeal.Frame
import proofs.«113019_g2000604803448687_pallaspilot1_85_2_alg».proof.Proof.LeNetSpec
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import Idealize.ShloMosaic.Lib.StableHlo.Run

noncomputable section

namespace Cert.ReferenceIdeal.Val

open Idealize.ShloMosaic Idealize.ShloMosaic.ValueIdx Idealize.ShloMosaic.TcCoe Cert.ReferenceIdeal Cert.ReferenceIdeal.Gen

variable (m : (ℓ : Loc nD τ sig) → Buf (Elt Ideal) ℓ)

/-- Space-to-depth by four, read at an index. The batch x of shape (image, 1, 28, 28), padded by nothing on every side (so
    every entry is x's own, whatever the padding value v), is viewed as (image, 7, 4, 7, 4) — row 4·hh + a is (hh, a),
    column 4·ww + b is (ww, b) —, its axes are reordered to (hh, ww, image, a, b), and the last two axes are merged into
    one lane l = 4·a + b. Entry (hh, ww, N, l) of the result is therefore pixel (4·hh + l / 4, 4·ww + l % 4) of image N. -/
theorem x4_spaceToDepth_apply (x : S16384x1x28x28.Idx → EReal) (v : S_.Idx → EReal)
    (hp : S16384x1x28x28.Pads (![0, 0, 0, 0] : Fin 4 → Nat) ![0, 0, 0, 0] ![0, 0, 0, 0] S16384x1x28x28) (hu : 0 < S_.numel)
    (h1 : S16384x1x28x28.ShapeCasts S16384x7x4x7x4)
    (h2 : S16384x7x4x7x4.Transposes [1, 3, 0, 2, 4] S7x7x16384x4x4) (h3 : S7x7x16384x4x4.ShapeCasts S7x7x16384x16)
    (hh ww : Fin 7) (N : Fin 16384) (l : Fin 16) :
    shapeCast S7x7x16384x16 (transpose S7x7x16384x4x4 [1, 3, 0, 2, 4]
        (shapeCast S16384x7x4x7x4 (pad S16384x1x28x28 ![0, 0, 0, 0] ![0, 0, 0, 0] ![0, 0, 0, 0] x v hp hu) h1) h2) h3
        (ix4 hh ww N l)
      = x (ix4 N (0 : Fin 1) (⟨4 * hh.val + l.val / 4, by have := hh.isLt; have := l.isLt; omega⟩ : Fin 28)
          (⟨4 * ww.val + l.val % 4, by have := ww.isLt; omega⟩ : Fin 28)) := by
  have hhh : hh.val < 7 := hh.isLt
  have hww : ww.val < 7 := ww.isLt
  have hN : N.val < 16384 := N.isLt
  have hl : l.val < 16 := l.isLt
  -- lane l of the merged axis is the pair (l / 4, l % 4)
  refine (shapeCast_apply _ h3 (ix4 hh ww N l)
    (ix5 hh ww N (⟨l.val / 4, by omega⟩ : Fin 4) (⟨l.val % 4, by omega⟩ : Fin 4))
    (by rw [Shape.rowMajor_val_five, Shape.rowMajor_val_four]
        show (((hh.val * 7 + ww.val) * 16384 + N.val) * 4 + l.val / 4) * 4 + l.val % 4
          = ((hh.val * 7 + ww.val) * 16384 + N.val) * 16 + l.val
        omega)).trans ?_
  -- the reordering: result axes (hh, ww, image, a, b) are source axes (1, 3, 0, 2, 4)
  refine (transpose_apply _ _ h2 _
    (ix5 N hh (⟨l.val / 4, by omega⟩ : Fin 4) ww (⟨l.val % 4, by omega⟩ : Fin 4))
    (fun b => match b with | ⟨0, _⟩ => rfl | ⟨1, _⟩ => rfl | ⟨2, _⟩ => rfl | ⟨3, _⟩ => rfl | ⟨4, _⟩ => rfl)).trans ?_
  -- row (hh, a) is row 4·hh + a, column (ww, b) is column 4·ww + b; the channel axis has one entry
  refine (shapeCast_apply _ h1 _
    (ix4 N (0 : Fin 1) (⟨4 * hh.val + l.val / 4, by omega⟩ : Fin 28) (⟨4 * ww.val + l.val % 4, by omega⟩ : Fin 28))
    (by rw [Shape.rowMajor_val_four, Shape.rowMajor_val_five]
        show ((N.val * 1 + 0) * 28 + (4 * hh.val + l.val / 4)) * 28 + (4 * ww.val + l.val % 4)
          = (((N.val * 7 + hh.val) * 4 + l.val / 4) * 7 + ww.val) * 4 + l.val % 4
        omega)).trans ?_
  -- no padding on any side and no interior padding: position p of the padded array is position p of x
  exact pad_apply_of_inside _ _ _ x v hp hu _ _
    (fun a => match a with
      | ⟨0, _⟩ => by show N.val = 0 + N.val * (0 + 1); omega
      | ⟨1, _⟩ => by show 0 = 0 + 0 * (0 + 1); omega
      | ⟨2, _⟩ => by show 4 * hh.val + l.val / 4 = 0 + (4 * hh.val + l.val / 4) * (0 + 1); omega
      | ⟨3, _⟩ => by show 4 * ww.val + l.val % 4 = 0 + (4 * ww.val + l.val % 4) * (0 + 1); omega)

/-- The region's first operand — the input padded by nothing on every side, reshaped to (image, 7, 4, 7, 4), transposed to
    (7, 7, image, 4, 4) and reshaped to (7, 7, image, 16) — holds at (hh, ww, N, l) pixel (4·hh + l / 4, 4·ww + l % 4) of image N. -/
theorem x4_apply (c : Dev nD) (hh ww : Fin 7) (N : Fin 16384) (l : Fin 16) :
    (V m c main_v3 : S7x7x16384x16.Idx → EReal) (ix4 hh ww N l)
      = LeNetSpec.image (m ((c.tc : Thread nD τ).loc main_arg0)) N hh ww l := by
  have e : (V m c main_v3 : S7x7x16384x16.Idx → EReal)
      = shapeCast S7x7x16384x16 (transpose S7x7x16384x4x4 [1, 3, 0, 2, 4]
          (shapeCast S16384x7x4x7x4
            (pad S16384x1x28x28 ![0, 0, 0, 0] ![0, 0, 0, 0] ![0, 0, 0, 0]
              (m ((c.tc : Thread nD τ).loc main_arg0) : S16384x1x28x28.Idx → EReal)
              (sitofp (F := Ideal) .f32 (constantI S_ 32 0#32))
              pads_S16384x1x28x28_S16384x1x28x28_000_000_000_000 h_S_)
            shapeCasts_S16384x1x28x28_S16384x7x4x7x4)
          transposes_S16384x7x4x7x4_S7x7x16384x4x4_1_3_0_2_4) shapeCasts_S7x7x16384x4x4_S7x7x16384x16 := by
    dsimp only [Gen.V, Gen.V0]
    simp only [Gen.hostOps0, Gen.hostOps0_1, Gen.hostOps0_2, List.flatten_cons, List.flatten_nil, List.append_nil,
      List.cons_append, List.nil_append]
    after_results
    rfl
  refine (congrFun e (ix4 hh ww N l)).trans ?_
  exact x4_spaceToDepth_apply _ _ _ _ _ _ _ hh ww N l

end Cert.ReferenceIdeal.Val

end
-- ==== Proof.RArray.lean ====
/-
  From the tiles to the whole result: the kernel's run, with its result array named.

  The region's result array has one row per image of the batch. Grid point t handles the tile of the 8 images from
  image 8·t on: it reads those images' slab of the space-to-depth input and the ten parameter arrays whole, and
  writes the 8 rows of the result from row 8·t on. Row n of a tile's block is the network on image n of the tile,
  so row N of the array is the network on image N; the tiles' row ranges cover the array; the program returns the
  first ten lanes of every row.
-/
import proofs.«113019_g2000604803448687_pallaspilot1_85_2_alg».proof.Proof.Gen.ReferenceIdeal.Frame
import proofs.«113019_g2000604803448687_pallaspilot1_85_2_alg».proof.Proof.LeNetSpec
import proofs.«113019_g2000604803448687_pallaspilot1_85_2_alg».proof.Proof.RBlock
import proofs.«113019_g2000604803448687_pallaspilot1_85_2_alg».proof.Proof.RHost
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

-- the facts decided over every grid point are elaborated one at a time
set_option Elab.async false

noncomputable section

namespace Cert.ReferenceIdeal.Val

open Idealize.ShloMosaic Idealize.ShloMosaic.ValueIdx Idealize.ShloMosaic.TcCoe Idealize.SL.Sem Cert.ReferenceIdeal Cert.ReferenceIdeal.Gen

variable (m : (ℓ : Loc nD τ sig) → Buf (Elt Ideal) ℓ) (ρ : Dev nD → PrngReg)

/-! ## The blocks a grid point reads -/

/-- Each window's block at a grid point, named at its own shape: the tile of images, -/
abbrev xblk0 (c : Dev nD) (t : Fin cfg0.N) : Vec Ideal S7x7x8x16 .f32 := iblk m c 0 t
/-- and the ten parameter arrays. -/
abbrev xblk1 (c : Dev nD) (t : Fin cfg0.N) : Vec Ideal S64x96 .f32 := iblk m c 1 t
abbrev xblk2 (c : Dev nD) (t : Fin cfg0.N) : Vec Ideal S1x96 .f32 := iblk m c 2 t
abbrev xblk3 (c : Dev nD) (t : Fin cfg0.N) : Vec Ideal S216x64 .f32 := iblk m c 3 t
abbrev xblk4 (c : Dev nD) (t : Fin cfg0.N) : Vec Ideal S1x64 .f32 := iblk m c 4 t
abbrev xblk5 (c : Dev nD) (t : Fin cfg0.N) : Vec Ideal LeNetSpec.WF1 .f32 := iblk m c 5 t
abbrev xblk6 (c : Dev nD) (t : Fin cfg0.N) : Vec Ideal S1x120 .f32 := iblk m c 6 t
abbrev xblk7 (c : Dev nD) (t : Fin cfg0.N) : Vec Ideal S120x84 .f32 := iblk m c 7 t
abbrev xblk8 (c : Dev nD) (t : Fin cfg0.N) : Vec Ideal S1x84 .f32 := iblk m c 8 t
abbrev xblk9 (c : Dev nD) (t : Fin cfg0.N) : Vec Ideal S84x128 .f32 := iblk m c 9 t
abbrev xblk10 (c : Dev nD) (t : Fin cfg0.N) : Vec Ideal S1x128 .f32 := iblk m c 10 t

/-- The whole result array of the region: row N is the network on image N of the batch. -/
abbrev G (c : Dev nD) : S16384x128.Idx → EReal := fun i =>
  LeNetSpec.lenet (LeNetSpec.image (m ((c.tc : Thread nD τ).loc main_arg0)) (i 0))
    (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6))
    (m ((c.tc : Thread nD τ).loc main_arg7)) (m ((c.tc : Thread nD τ).loc main_arg8))
    (m ((c.tc : Thread nD τ).loc main_arg9)) (m ((c.tc : Thread nD τ).loc main_arg10)) (i 1)

/-- Where the image window's block lies at grid point t: block t of its image axis, block zero of the three others. -/
theorem img_idx : ∀ t : Fin cfg0.N, win0_0.index t (0 : Fin 4) = 0 ∧ win0_0.index t (1 : Fin 4) = 0
    ∧ win0_0.index t (2 : Fin 4) = t.val ∧ win0_0.index t (3 : Fin 4) = 0 :=
  (by decide +kernel : ∀ t : Fin grid0.N, _)
/-- The result window's block: block t of its rows, block zero of its lanes. -/
theorem out_idx : ∀ t : Fin cfg0.N, win0_11.index t (0 : Fin 2) = t.val ∧ win0_11.index t (1 : Fin 2) = 0 :=
  (by decide +kernel : ∀ t : Fin grid0.N, _)
/-- Each parameter window's block: block zero of both axes, at every grid point. -/
theorem par_idx1 : ∀ t : Fin cfg0.N, ∀ a : Fin 2, win0_1.index t a = 0 :=
  (by decide +kernel : ∀ t : Fin grid0.N, _)
theorem par_idx2 : ∀ t : Fin cfg0.N, ∀ a : Fin 2, win0_2.index t a = 0 :=
  (by decide +kernel : ∀ t : Fin grid0.N, _)
theorem par_idx3 : ∀ t : Fin cfg0.N, ∀ a : Fin 2, win0_3.index t a = 0 :=
  (by decide +kernel : ∀ t : Fin grid0.N, _)
theorem par_idx4 : ∀ t : Fin cfg0.N, ∀ a : Fin 2, win0_4.index t a = 0 :=
  (by decide +kernel : ∀ t : Fin grid0.N, _)
theorem par_idx5 : ∀ t : Fin cfg0.N, ∀ a : Fin 2, win0_5.index t a = 0 :=
  (by decide +kernel : ∀ t : Fin grid0.N, _)
theorem par_idx6 : ∀ t : Fin cfg0.N, ∀ a : Fin 2, win0_6.index t a = 0 :=
  (by decide +kernel : ∀ t : Fin grid0.N, _)
theorem par_idx7 : ∀ t : Fin cfg0.N, ∀ a : Fin 2, win0_7.index t a = 0 :=
  (by decide +kernel : ∀ t : Fin grid0.N, _)
theorem par_idx8 : ∀ t : Fin cfg0.N, ∀ a : Fin 2, win0_8.index t a = 0 :=
  (by decide +kernel : ∀ t : Fin grid0.N, _)
theorem par_idx9 : ∀ t : Fin cfg0.N, ∀ a : Fin 2, win0_9.index t a = 0 :=
  (by decide +kernel : ∀ t : Fin grid0.N, _)
theorem par_idx10 : ∀ t : Fin cfg0.N, ∀ a : Fin 2, win0_10.index t a = 0 :=
  (by decide +kernel : ∀ t : Fin grid0.N, _)

/-- Where each window's block lies, at every grid point t: the image window at block t of its image axis and block
    zero of the three others; the result window at block t of its rows and block zero of its lanes; each parameter
    window at block zero of both axes. -/
theorem idx_facts : ∀ t : Fin cfg0.N,
    (win0_0.index t (0 : Fin 4) = 0 ∧ win0_0.index t (1 : Fin 4) = 0 ∧ win0_0.index t (2 : Fin 4) = t.val
      ∧ win0_0.index t (3 : Fin 4) = 0)
    ∧ (win0_11.index t (0 : Fin 2) = t.val ∧ win0_11.index t (1 : Fin 2) = 0)
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0)
    ∧ (∀ a : Fin 2, win0_7.index t a = 0) ∧ (∀ a : Fin 2, win0_8.index t a = 0) ∧ (∀ a : Fin 2, win0_9.index t a = 0)
    ∧ (∀ a : Fin 2, win0_10.index t a = 0) :=
  fun t => ⟨img_idx t, out_idx t, par_idx1 t, par_idx2 t, par_idx3 t, par_idx4 t, par_idx5 t, par_idx6 t, par_idx7 t,
    par_idx8 t, par_idx9 t, par_idx10 t⟩

/-- The image window's block at grid point t, read out of any array of the operand's shape, is the 8 images from image
    8·t on: entry (hh, ww, n, l) of the block is entry (hh, ww, N, l) of the array for the image N = 8·t + n. (Stated
    for an arbitrary array: where a block lies does not depend on what the array holds.) -/
theorem blk0_read (c : Dev nD) (A : S7x7x16384x16.Idx → EReal) (t : Fin cfg0.N) (hh ww : Fin 7) (n : Fin 8) (l : Fin 16)
    (N : Fin 16384) (hN : N.val = 8 * t.val + n.val) :
    (((cfg0.win 0).blk t).view.read (Elt Ideal) A : S7x7x8x16.Idx → EReal) (ix4 hh ww n l) = A (ix4 hh ww N l) := by
  obtain ⟨a0, a1, a2, a3⟩ := img_idx t
  show A (((cfg0.win 0).blk t).view.emb (ix4 hh ww n l)) = A (ix4 hh ww N l)
  refine congrArg A (funext fun a => Fin.ext ?_)
  match a with
  | ⟨0, _⟩ => show win0_0.index t (0 : Fin 4) * 7 + 1 * hh.val = hh.val; omega
  | ⟨1, _⟩ => show win0_0.index t (1 : Fin 4) * 7 + 1 * ww.val = ww.val; omega
  | ⟨2, _⟩ => show win0_0.index t (2 : Fin 4) * 8 + 1 * n.val = N.val; omega
  | ⟨3, _⟩ => show win0_0.index t (3 : Fin 4) * 16 + 1 * l.val = l.val; omega

/-- So the tile's block is those images' slab of the region's first operand. -/
theorem xblk0_apply (c : Dev nD) (t : Fin cfg0.N) (hh ww : Fin 7) (n : Fin 8) (l : Fin 16) (N : Fin 16384)
    (hN : N.val = 8 * t.val + n.val) :
    xblk0 m c t (ix4 hh ww n l) = (V m c main_v3 : S7x7x16384x16.Idx → EReal) (ix4 hh ww N l) :=
  blk0_read c (V m c main_v3) t hh ww n l N hN

/-- A parameter window's block at any grid point, read out of any array of the parameter's shape, is the whole array:
    at block zero of an axis an entry of the block has the same coordinate in the array. So each parameter block is
    the parameter as launched. -/
theorem blk1_read (A : S64x96.Idx → EReal) (t : Fin cfg0.N) :
    (((cfg0.win 1).blk t).view.read (Elt Ideal) A : S64x96.Idx → EReal) = A :=
  funext fun y => congrArg A (funext fun a => Fin.ext (win0_1.rect_emb_val_of_index_zero t a (par_idx1 t a) y))
theorem xblk1_eq (c : Dev nD) (t : Fin cfg0.N) : xblk1 m c t = m ((c.tc : Thread nD τ).loc main_arg1) :=
  (blk1_read (V m c main_arg1) t).trans (V_main_arg1 m c)
theorem blk2_read (A : S1x96.Idx → EReal) (t : Fin cfg0.N) :
    (((cfg0.win 2).blk t).view.read (Elt Ideal) A : S1x96.Idx → EReal) = A :=
  funext fun y => congrArg A (funext fun a => Fin.ext (win0_2.rect_emb_val_of_index_zero t a (par_idx2 t a) y))
theorem xblk2_eq (c : Dev nD) (t : Fin cfg0.N) : xblk2 m c t = m ((c.tc : Thread nD τ).loc main_arg2) :=
  (blk2_read (V m c main_arg2) t).trans (V_main_arg2 m c)
theorem blk3_read (A : S216x64.Idx → EReal) (t : Fin cfg0.N) :
    (((cfg0.win 3).blk t).view.read (Elt Ideal) A : S216x64.Idx → EReal) = A :=
  funext fun y => congrArg A (funext fun a => Fin.ext (win0_3.rect_emb_val_of_index_zero t a (par_idx3 t a) y))
theorem xblk3_eq (c : Dev nD) (t : Fin cfg0.N) : xblk3 m c t = m ((c.tc : Thread nD τ).loc main_arg3) :=
  (blk3_read (V m c main_arg3) t).trans (V_main_arg3 m c)
theorem blk4_read (A : S1x64.Idx → EReal) (t : Fin cfg0.N) :
    (((cfg0.win 4).blk t).view.read (Elt Ideal) A : S1x64.Idx → EReal) = A :=
  funext fun y => congrArg A (funext fun a => Fin.ext (win0_4.rect_emb_val_of_index_zero t a (par_idx4 t a) y))
theorem xblk4_eq (c : Dev nD) (t : Fin cfg0.N) : xblk4 m c t = m ((c.tc : Thread nD τ).loc main_arg4) :=
  (blk4_read (V m c main_arg4) t).trans (V_main_arg4 m c)
theorem blk5_read (A : LeNetSpec.WF1.Idx → EReal) (t : Fin cfg0.N) :
    (((cfg0.win 5).blk t).view.read (Elt Ideal) A : LeNetSpec.WF1.Idx → EReal) = A :=
  funext fun y => congrArg A (funext fun a => Fin.ext (win0_5.rect_emb_val_of_index_zero t a (par_idx5 t a) y))
theorem xblk5_eq (c : Dev nD) (t : Fin cfg0.N) : xblk5 m c t = m ((c.tc : Thread nD τ).loc main_arg5) :=
  (blk5_read (V m c main_arg5) t).trans (V_main_arg5 m c)
theorem blk6_read (A : S1x120.Idx → EReal) (t : Fin cfg0.N) :
    (((cfg0.win 6).blk t).view.read (Elt Ideal) A : S1x120.Idx → EReal) = A :=
  funext fun y => congrArg A (funext fun a => Fin.ext (win0_6.rect_emb_val_of_index_zero t a (par_idx6 t a) y))
theorem xblk6_eq (c : Dev nD) (t : Fin cfg0.N) : xblk6 m c t = m ((c.tc : Thread nD τ).loc main_arg6) :=
  (blk6_read (V m c main_arg6) t).trans (V_main_arg6 m c)
theorem blk7_read (A : S120x84.Idx → EReal) (t : Fin cfg0.N) :
    (((cfg0.win 7).blk t).view.read (Elt Ideal) A : S120x84.Idx → EReal) = A :=
  funext fun y => congrArg A (funext fun a => Fin.ext (win0_7.rect_emb_val_of_index_zero t a (par_idx7 t a) y))
theorem xblk7_eq (c : Dev nD) (t : Fin cfg0.N) : xblk7 m c t = m ((c.tc : Thread nD τ).loc main_arg7) :=
  (blk7_read (V m c main_arg7) t).trans (V_main_arg7 m c)
theorem blk8_read (A : S1x84.Idx → EReal) (t : Fin cfg0.N) :
    (((cfg0.win 8).blk t).view.read (Elt Ideal) A : S1x84.Idx → EReal) = A :=
  funext fun y => congrArg A (funext fun a => Fin.ext (win0_8.rect_emb_val_of_index_zero t a (par_idx8 t a) y))
theorem xblk8_eq (c : Dev nD) (t : Fin cfg0.N) : xblk8 m c t = m ((c.tc : Thread nD τ).loc main_arg8) :=
  (blk8_read (V m c main_arg8) t).trans (V_main_arg8 m c)
theorem blk9_read (A : S84x128.Idx → EReal) (t : Fin cfg0.N) :
    (((cfg0.win 9).blk t).view.read (Elt Ideal) A : S84x128.Idx → EReal) = A :=
  funext fun y => congrArg A (funext fun a => Fin.ext (win0_9.rect_emb_val_of_index_zero t a (par_idx9 t a) y))
theorem xblk9_eq (c : Dev nD) (t : Fin cfg0.N) : xblk9 m c t = m ((c.tc : Thread nD τ).loc main_arg9) :=
  (blk9_read (V m c main_arg9) t).trans (V_main_arg9 m c)
theorem blk10_read (A : S1x128.Idx → EReal) (t : Fin cfg0.N) :
    (((cfg0.win 10).blk t).view.read (Elt Ideal) A : S1x128.Idx → EReal) = A :=
  funext fun y => congrArg A (funext fun a => Fin.ext (win0_10.rect_emb_val_of_index_zero t a (par_idx10 t a) y))
theorem xblk10_eq (c : Dev nD) (t : Fin cfg0.N) : xblk10 m c t = m ((c.tc : Thread nD τ).loc main_arg10) :=
  (blk10_read (V m c main_arg10) t).trans (V_main_arg10 m c)

/-! ## What a grid point writes back -/

/-- An entry (n, j) of the result window's block at grid point t sits in the result array at row 8·t + n, lane j. -/
theorem out_emb (t : Fin cfg0.N) (n : Fin 8) (j : Fin 128) (N : Fin 16384) (hN : N.val = 8 * t.val + n.val) :
    ((cfg0.win 11).blk t).view.emb (ix2 n j) = (ix2 N j : S16384x128.Idx) := by
  obtain ⟨-, ⟨o0, o1⟩, -⟩ := idx_facts t
  funext a; apply Fin.ext
  match a with
  | ⟨0, _⟩ => show win0_11.index t (0 : Fin 2) * 8 + 1 * n.val = N.val; omega
  | ⟨1, _⟩ => show win0_11.index t (1 : Fin 2) * 128 + 1 * j.val = j.val; omega

/-- What grid point t writes back is block t of the whole-array function: row n of the tile's result is the network on
    image 8·t + n of the batch, read off the tile's slab of the input, with the parameters as launched. -/
theorem flushed_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after0_11]
  funext y
  obtain ⟨n, j, rfl⟩ : ∃ (n : Fin 8) (j : Fin 128), y = ix2 n j := ⟨y 0, y 1, eq_ix2 y⟩
  -- the image 8·t + n is one of the batch: there are as many tiles as grid points
  have hb : 8 * t.val + n.val < 16384 := by
    have ht : t.val < grid0.N := t.isLt
    have hN := N_0
    have hn := n.isLt
    omega
  show out0_11 (F := Ideal) (xblk0 m c t) (xblk1 m c t) (xblk2 m c t) (xblk3 m c t) (xblk4 m c t) (xblk5 m c t)
      (xblk6 m c t) (xblk7 m c t) (xblk8 m c t) (xblk9 m c t) (xblk10 m c t) (ix2 n j)
    = G m c (((cfg0.win 11).blk t).view.emb (ix2 n j))
  rw [out_emb t n j ⟨8 * t.val + n.val, hb⟩ rfl, out_apply, xblk1_eq, xblk2_eq, xblk3_eq, xblk4_eq, xblk5_eq,
    xblk6_eq, xblk7_eq, xblk8_eq, xblk9_eq, xblk10_eq]
  -- image n of the tile is image 8·t + n of the batch
  have hx : (fun hh ww l => xblk0 m c t (ix4 hh ww n l))
      = LeNetSpec.image (m ((c.tc : Thread nD τ).loc main_arg0)) ⟨8 * t.val + n.val, hb⟩ := by
    funext hh ww l
    exact (xblk0_apply m c t hh ww n l _ rfl).trans (x4_apply m c hh ww _ l)
  rw [hx]

/-! ## The tiles cover the result array -/

/-- An index of the result array is in grid point t's block iff each coordinate is in the block's range on its axis. -/
theorem mem_blk (t : Fin cfg0.N) (i : S16384x128.Idx) :
    i ∈ ((cfg0.win 11).blk t).view.set ↔ ∀ a : Fin 2, win0_11.index t a * S8x128.size a ≤ (i a).val
      ∧ (i a).val < win0_11.index t a * S8x128.size a + S8x128.size a := by
  show i ∈ ((View.whole main_v4).slice (win0_11.rect t)).set ↔ _
  rw [View.set_slice_whole, Rect.mem_set_unit]
  exact Iff.rfl

/-- Row r of the result array lies in the block of grid point r / 8, and every grid point writes its block back. -/
theorem cover (i : S16384x128.Idx) :
    ∃ t : Fin cfg0.N, (cfg0.win 11).flush t = true ∧ i ∈ ((cfg0.win 11).blk t).view.set := by
  have hi0 : (i 0).val < 16384 := (i 0).isLt
  have hi1 : (i 1).val < 128 := (i 1).isLt
  have hq : (i 0).val / 8 < cfg0.N := by
    show (i 0).val / 8 < grid0.N
    rw [N_0]; omega
  obtain ⟨-, ⟨o0, o1⟩, -⟩ := idx_facts ⟨(i 0).val / 8, hq⟩
  have o0' : win0_11.index ⟨(i 0).val / 8, hq⟩ (0 : Fin 2) = (i 0).val / 8 := o0
  refine ⟨⟨(i 0).val / 8, hq⟩, flush0_11 _, ?_⟩
  rw [mem_blk]
  intro a
  match a with
  | ⟨0, _⟩ =>
    show win0_11.index ⟨(i 0).val / 8, hq⟩ (0 : Fin 2) * 8 ≤ (i 0).val
      ∧ (i 0).val < win0_11.index ⟨(i 0).val / 8, hq⟩ (0 : Fin 2) * 8 + 8
    omega
  | ⟨1, _⟩ =>
    show win0_11.index ⟨(i 0).val / 8, hq⟩ (1 : Fin 2) * 128 ≤ (i 1).val
      ∧ (i 1).val < win0_11.index ⟨(i 0).val / 8, hq⟩ (1 : Fin 2) * 128 + 128
    omega

/-- So the result array after the region is the whole-array function: row N is the network on image N. -/
theorem final (c : Dev nD) : (dats m 0 c).arrAt 11 cfg0.N = G m c :=
  (dats m 0 c).arrAt_eq_of_cover 11 (G m c) (fun t _ => flushed_eq m c t) cover

/-! ## The slice after the region, and the run -/

/-- The program's result is the first ten lanes of every row of the region's result array: entry (N, j) of the slice
    is entry (N, j) of the array, lane j of the network on image N. -/
theorem tail_eq (c : Dev nD) :
    Pipeline.afterTail₀ cfgs (dats m) 0 (V0 m) [hostOps1] c main_v5
      = LeNetSpec.logits (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Pipeline.afterTail₀
  show StableHlo.after hostOps1 _ (Proc.devRef .tc main_v5) = _
  after_results
  funext i
  have hl : (i 1).val < 128 := by
    have h : (i 1).val < 10 := (i 1).isLt
    omega
  refine (extractStridedSlice_apply _ _ _ i (ix2 (i 0) (⟨(i 1).val, hl⟩ : Fin 128)) (fun a => ?_)).trans ?_
  · match a with
    | ⟨0, _⟩ => show (i 0).val = 0 + (i 0).val; omega
    | ⟨1, _⟩ => show (i 1).val = 0 + (i 1).val; omega
  · exact congrFun ((Pipeline.withArrays_arr spec0 launch0.win.arr_inj c (V0 m c)
      (fun w => (dats m 0 c).arrAt w cfg0.N) 11).trans (final m c)) _

/-- Every weakly fair run of the program ends with the result at the first ten lanes of the network on every image of
    the batch, and the arguments as they were. -/
theorem value : θ_run defs (onTc (τ := τ) (main (F := Ideal))) ⟨m, fun _ => 0, ρ⟩ (fun r => ∀ c : Dev nD,
      r.2.mem ((c.tc : Thread nD τ).loc main_v5)
        = LeNetSpec.logits (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  -- one run gives both: the result buffer is what the slice after the region leaves, the batch of images is untouched
  -- by the region and by the slice, and each parameter array is only ever read
  refine (θ_run defs _ _).mono (fun r h c => ?_) (run_main m ρ)
  exact ⟨((h c).2 main_v5 (Pipeline.mem_restRefs_of main_v5 (by decide) (by decide))).trans (tail_eq m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c)))⟩

end Cert.ReferenceIdeal.Val

end
-- ==== Proof.lean ====
/-
  The kernel and its reference are the same network body — two convolutions, each pooled and rectified, and three dense
  layers — launched over the batch in tiles of different sizes: 256 images to a grid point in the kernel, 8 in the
  reference. Every operation of the body keeps the images of a tile apart: a matrix product's row depends on the same
  row of its left operand, the slices, concatenations and reshapes move whole rows, and the rest is entry by entry. So a
  tile's row n is one function, `LeNetSpec.lenet`, of image n alone, whatever the tile's size; the tiles cover the batch;
  and both programs return, for every image, the first ten lanes of that function of the image and the parameters.
  Both programs prepare the input alike (space-to-depth by four; the reference's padding has width zero), so on equal
  arguments the two results are equal entry by entry as extended reals. No law of arithmetic is needed beyond the
  definitions: the sums are the same sums in the same order, which is why the inputs' finiteness is never used.
  The three frames are the generated frame certificates; the idealization rewrote nothing, so `preserves` is trivial.
-/
import proofs.«113019_g2000604803448687_pallaspilot1_85_2_alg».proof.Defs
import proofs.«113019_g2000604803448687_pallaspilot1_85_2_alg».proof.Proof.Gen.Kernel.Frame
import proofs.«113019_g2000604803448687_pallaspilot1_85_2_alg».proof.Proof.Gen.KernelIdeal.Frame
import proofs.«113019_g2000604803448687_pallaspilot1_85_2_alg».proof.Proof.Gen.ReferenceIdeal.Frame
import proofs.«113019_g2000604803448687_pallaspilot1_85_2_alg».proof.Proof.Gen.Pre_finite_inputs
import proofs.«113019_g2000604803448687_pallaspilot1_85_2_alg».proof.Proof.LeNetSpec
import proofs.«113019_g2000604803448687_pallaspilot1_85_2_alg».proof.Proof.KArray
import proofs.«113019_g2000604803448687_pallaspilot1_85_2_alg».proof.Proof.RArray

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- Both programs end with the result at `LeNetSpec.logits` of their arguments; the arguments agree. -/
theorem algebraic : Cert.algebraic_KernelIdeal_ReferenceIdeal := by
  intro m ρ m' ρ' _ hagree
  refine ⟨fun c => LeNetSpec.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.Val.value m ρ, ?_⟩
  refine (θ_run Cert.ReferenceIdeal.defs _ _).mono (fun r h c => ?_) (Cert.ReferenceIdeal.Val.value m' ρ')
  obtain ⟨h0, hkept⟩ := h c
  obtain ⟨e0, e1, e2, e3, e4, e5, e6, e7, e8, e9, e10⟩ := hagree c
  refine ⟨?_, hkept⟩
  rw [h0, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
